-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x8 : Shape := ⟨2, ![4194304, 8]⟩
abbrev S4194304 : Shape := ⟨1, ![4194304]⟩
abbrev S_ : Shape := ⟨0, ![]⟩

class Facts : Prop where
  bcast_S_S4194304x8 : S_.BroadcastsInDim S4194304x8 (![] : Fin 0 → Fin S4194304x8.rank)
  reducesTo_S4194304x8_S_d0_1 : S4194304x8.ReducesTo [0, 1] S_
  h_S_ : 0 < S_.numel
  bcast_S_S4194304 : S_.BroadcastsInDim S4194304 (![] : Fin 0 → Fin S4194304.rank)
  reducesTo_S4194304_S_d0 : S4194304.ReducesTo [0] S_

variable [Facts]

def fn_part1 {F : FTy → Type} [FloatOps F] (main_arg3 : IVec S4194304 32) (main_v15 : IVec S_ 1) (main_c_5 : IVec S_ 32) : IVec S_ 1 :=
  let main_v16 : IVec S4194304 32 := broadcastInDim S4194304 ![] bcast_S_S4194304 main_c_5
  let main_v17 : IVec S4194304 1 := cmpi .sge main_arg3 main_v16
  let main_c_6 : IVec S_ 32 := constantI S_ 32 8#32
  let main_v18 : IVec S4194304 32 := broadcastInDim S4194304 ![] bcast_S_S4194304 main_c_6
  let main_v19 : IVec S4194304 1 := cmpi .slt main_arg3 main_v18
  let main_v20 : IVec S4194304 1 := andi main_v17 main_v19
  let main_c_7 : IVec S_ 1 := constantI S_ 1 1#1
  let main_v21 : IVec S_ 1 := (fun x v => Host.reduce IntOp.andi x v reducesTo_S4194304_S_d0 h_S_) main_v20 main_c_7
  let main_v22 : IVec S_ 1 := andi main_v15 main_v21
  main_v22

def fn {F : FTy → Type} [FloatOps F] (main_arg0 : FVec F S4194304x8 .f32) (main_arg1 : IVec S4194304 32) (main_arg2 : FVec F S4194304x8 .f32) (main_arg3 : IVec S4194304 32) : IVec S_ 1 :=
  let main_v0 : FVec F S4194304x8 .f32 := Host.absf main_arg0
  let main_cst : FVec F S_ .f32 := constant S_ .f32 0x7F800000#32
  let main_v1 : FVec F S4194304x8 .f32 := broadcastInDim S4194304x8 ![] bcast_S_S4194304x8 main_cst
  let main_v2 : IVec S4194304x8 1 := cmpf .olt main_v0 main_v1
  let main_c : IVec S_ 1 := constantI S_ 1 1#1
  let main_v3 : IVec S_ 1 := (fun x v => Host.reduce IntOp.andi x v reducesTo_S4194304x8_S_d0_1 h_S_) main_v2 main_c
  let main_v4 : FVec F S4194304x8 .f32 := Host.absf main_arg2
  let main_cst_0 : FVec F S_ .f32 := constant S_ .f32 0x7F800000#32
  let main_v5 : FVec F S4194304x8 .f32 := broadcastInDim S4194304x8 ![] bcast_S_S4194304x8 main_cst_0
  let main_v6 : IVec S4194304x8 1 := cmpf .olt main_v4 main_v5
  let main_c_1 : IVec S_ 1 := constantI S_ 1 1#1
  let main_v7 : IVec S_ 1 := (fun x v => Host.reduce IntOp.andi x v reducesTo_S4194304x8_S_d0_1 h_S_) main_v6 main_c_1
  let main_v8 : IVec S_ 1 := andi main_v3 main_v7
  let main_c_2 : IVec S_ 32 := constantI S_ 32 0#32
  let main_v9 : IVec S4194304 32 := broadcastInDim S4194304 ![] bcast_S_S4194304 main_c_2
  let main_v10 : IVec S4194304 1 := cmpi .sge main_arg1 main_v9
  let main_c_3 : IVec S_ 32 := constantI S_ 32 8#32
  let main_v11 : IVec S4194304 32 := broadcastInDim S4194304 ![] bcast_S_S4194304 main_c_3
  let main_v12 : IVec S4194304 1 := cmpi .slt main_arg1 main_v11
  let main_v13 : IVec S4194304 1 := andi main_v10 main_v12
  let main_c_4 : IVec S_ 1 := constantI S_ 1 1#1
  let main_v14 : IVec S_ 1 := (fun x v => Host.reduce IntOp.andi x v reducesTo_S4194304_S_d0 h_S_) main_v13 main_c_4
  let main_v15 : IVec S_ 1 := andi main_v8 main_v14
  let main_c_5 : IVec S_ 32 := constantI S_ 32 0#32
  fn_part1 (F := F) main_arg3 main_v15 main_c_5
-- ==== Kernel.lean ====
abbrev S4194304x8 : Shape := ⟨2, ![4194304, 8]⟩
abbrev S4194304 : Shape := ⟨1, ![4194304]⟩
abbrev S4194304x1 : Shape := ⟨2, ![4194304, 1]⟩
abbrev S1x1 : Shape := ⟨2, ![1, 1]⟩
abbrev S8192x8 : Shape := ⟨2, ![8192, 8]⟩
abbrev S8192x1 : Shape := ⟨2, ![8192, 1]⟩
abbrev S8192 : Shape := ⟨1, ![8192]⟩
abbrev S1 : Shape := ⟨1, ![1]⟩
abbrev S_ : Shape := ⟨0, ![]⟩
abbrev S3 : Shape := ⟨1, ![3]⟩

abbrev nBuf : Space → Nat
  | .hbm => 23
  | .vmem => 12
  | .smem => 0
  | _ => 0

abbrev bufTy : (tb : Table) → Fin (tcTables nBuf tb) → BufTy
  | .hbm, ⟨0, _⟩ => ⟨S4194304x8, .f32⟩
  | .hbm, ⟨1, _⟩ => ⟨S4194304, .i32⟩
  | .hbm, ⟨2, _⟩ => ⟨S4194304x8, .f32⟩
  | .hbm, ⟨3, _⟩ => ⟨S4194304, .i32⟩
  | .hbm, ⟨4, _⟩ => ⟨S4194304x1, .i32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4194304x1, .i32⟩
  | .hbm, ⟨10, _⟩ => ⟨S1x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1, .f32⟩
  | .hbm, ⟨20, _⟩ => ⟨S1, .f32⟩
  | .hbm, ⟨21, _⟩ => ⟨S1, .f32⟩
  | .hbm, ⟨22, _⟩ => ⟨S3, .f32⟩
  | .local _ .vmem, ⟨0, _⟩ => ⟨S8192x8, .f32⟩
  | .local _ .vmem, ⟨1, _⟩ => ⟨S8192x8, .f32⟩
  | .local _ .vmem, ⟨2, _⟩ => ⟨S8192x1, .i32⟩
  | .local _ .vmem, ⟨3, _⟩ => ⟨S8192x1, .i32⟩
  | .local _ .vmem, ⟨4, _⟩ => ⟨S1x1, .f32⟩
  | .local _ .vmem, ⟨5, _⟩ => ⟨S1x1, .f32⟩
  | .local _ .vmem, ⟨6, _⟩ => ⟨S8192x8, .f32⟩
  | .local _ .vmem, ⟨7, _⟩ => ⟨S8192x8, .f32⟩
  | .local _ .vmem, ⟨8, _⟩ => ⟨S8192x1, .i32⟩
  | .local _ .vmem, ⟨9, _⟩ => ⟨S8192x1, .i32⟩
  | .local _ .vmem, ⟨10, _⟩ => ⟨S1x1, .f32⟩
  | .local _ .vmem, ⟨11, _⟩ => ⟨S1x1, .f32⟩
  | _, _ => ⟨S4194304x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9

abbrev nD : Nat := 1
abbrev τ : Topo := Topo.v7x

variable {F : FTy → Type} [FloatOps F]

abbrev grid0 : Pipeline.Grid := ⟨1, ![512], ![false]⟩

def k0_cond2 (i : grid0.Coords) : BitVec 1 :=
  let arg0 : BitVec 32 := BitVec.ofNat 32 (i 0).val
  let c511_i32 : BitVec 32 := 511#32
  let v50 : BitVec 1 := Scalar.cmpi .eq arg0 c511_i32
  let v51 : BitVec 32 := Scalar.extui v50
  let c0_i32_18 : BitVec 32 := 0#32
  let v52 : BitVec 1 := Scalar.cmpi .ne v51 c0_i32_18
  v52

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![512], ![false]⟩

def k1_cond2 (i : grid1.Coords) : BitVec 1 :=
  let arg0 : BitVec 32 := BitVec.ofNat 32 (i 0).val
  let c511_i32 : BitVec 32 := 511#32
  let v50 : BitVec 1 := Scalar.cmpi .eq arg0 c511_i32
  let v51 : BitVec 32 := Scalar.extui v50
  let c0_i32_18 : BitVec 32 := 0#32
  let v52 : BitVec 1 := Scalar.cmpi .ne v51 c0_i32_18
  v52

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S8192x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  shapeCasts_S4194304_S4194304x1 : S4194304.ShapeCasts S4194304x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8192x8_S8192x8_0_0 : ∀ a, (![0, 0] : Fin 2 → Nat) a + S8192x8.size a ≤ S8192x8.size a
  h_S8192x8 : 0 < S8192x8.numel
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  reduces_S8192x8_S8192 : S8192x8.Reduces [1] S8192
  shapeCasts_S8192_S8192x1 : S8192.ShapeCasts S8192x1
  broadcasts_S8192x1_S8192x8 : S8192x1.Broadcasts S8192x8
  iota_S8192x8_d1_w32 : S8192x8.Iotas .tc 32 [1]
  natLt_1_32 : 1 < 32
  reduces_S8192x1_S1 : S8192x1.Reduces [0] S1
  shapeCasts_S1_S1x1 : S1.ShapeCasts S1x1
  shapeCasts_S1x1_S_ : S1x1.ShapeCasts S_
  bcast_S_S1 : S_.BroadcastsInDim S1 (![] : Fin 0 → Fin S1.rank)
  concatenates_S1_S1_S1_S3_d0 : Shape.Concatenates [S1, S1, S1] S3 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x8.size a ≤ S4194304x8.size a
  hwx0_0 : ∀ i : grid0.Coords, EltTy.bits .f32 = 32 ∨ (Rect.block (s := S4194304x8) S8192x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S4194304x1.size a
  hwx0_1 : ∀ i : grid0.Coords, EltTy.bits .i32 = 32 ∨ (Rect.block (s := S4194304x1) S8192x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x8.size a ≤ S4194304x8.size a
  hwx1_0 : ∀ i : grid1.Coords, EltTy.bits .f32 = 32 ∨ (Rect.block (s := S4194304x8) S8192x8.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x1.size a ≤ S4194304x1.size a
  hwx1_1 : ∀ i : grid1.Coords, EltTy.bits .i32 = 32 ∨ (Rect.block (s := S4194304x1) S8192x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)

variable [Facts₀]

abbrev win0_0 : Pipeline.Window sig grid0 :=
  Pipeline.Window.ofSpec (Memref.whole main_arg0) S8192x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg2) S8192x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S8192x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4194304x8 : Shape := ⟨2, ![4194304, 8]⟩
abbrev S4194304 : Shape := ⟨1, ![4194304]⟩
abbrev S_ : Shape := ⟨0, ![]⟩
abbrev S4194304x1 : Shape := ⟨2, ![4194304, 1]⟩
abbrev S4194304x1x1 : Shape := ⟨3, ![4194304, 1, 1]⟩
abbrev S1 : Shape := ⟨1, ![1]⟩
abbrev S1x1x1 : Shape := ⟨3, ![1, 1, 1]⟩
abbrev S3 : Shape := ⟨1, ![3]⟩

abbrev nBuf : Space → Nat
  | .hbm => 155
  | .vmem => 0
  | .smem => 0
  | _ => 0

abbrev hbmTy0_0 (i : Nat) : BufTy := match i % 128 with
  | 0 => ⟨S4194304x8, .f32⟩
  | 1 => ⟨S4194304, .i32⟩
  | 2 => ⟨S4194304x8, .f32⟩
  | 3 => ⟨S4194304, .i32⟩
  | 4 => ⟨S_, .f32⟩
  | 5 => ⟨S4194304, .f32⟩
  | 6 => ⟨S_, .f32⟩
  | 7 => ⟨S4194304, .f32⟩
  | 8 => ⟨S4194304, .f32⟩
  | 9 => ⟨S4194304x1, .f32⟩
  | 10 => ⟨S4194304x8, .f32⟩
  | 11 => ⟨S4194304x8, .f32⟩
  | 12 => ⟨S4194304x8, .f32⟩
  | 13 => ⟨S_, .f32⟩
  | 14 => ⟨S4194304, .f32⟩
  | 15 => ⟨S4194304x1, .f32⟩
  | 16 => ⟨S4194304x8, .f32⟩
  | 17 => ⟨S4194304x8, .f32⟩
  | 18 => ⟨S4194304x1, .i32⟩
  | 19 => ⟨S_, .i32⟩
  | 20 => ⟨S4194304x1, .i32⟩
  | 21 => ⟨S4194304x1, .i1⟩
  | 22 => ⟨S_, .i32⟩
  | 23 => ⟨S4194304x1, .i32⟩
  | 24 => ⟨S4194304x1, .i32⟩
  | 25 => ⟨S4194304x1, .i32⟩
  | 26 => ⟨S4194304x1x1, .i32⟩
  | 27 => ⟨S1, .i32⟩
  | 28 => ⟨S_, .i32⟩
  | 29 => ⟨S4194304x1x1, .i32⟩
  | 30 => ⟨S4194304x1x1, .i1⟩
  | 31 => ⟨S1x1x1, .i32⟩
  | 32 => ⟨S4194304x1x1, .i32⟩
  | 33 => ⟨S4194304x1x1, .i1⟩
  | 34 => ⟨S4194304x1x1, .i1⟩
  | 35 => ⟨S_, .i1⟩
  | 36 => ⟨S4194304x1, .i1⟩
  | 37 => ⟨S4194304x1, .f32⟩
  | 38 => ⟨S_, .f32⟩
  | 39 => ⟨S4194304x1, .f32⟩
  | 40 => ⟨S4194304x1, .f32⟩
  | 41 => ⟨S4194304, .f32⟩
  | 42 => ⟨S_, .i32⟩
  | 43 => ⟨S4194304, .i32⟩
  | 44 => ⟨S4194304, .i1⟩
  | 45 => ⟨S_, .f32⟩
  | 46 => ⟨S_, .f32⟩
  | 47 => ⟨S4194304, .f32⟩
  | 48 => ⟨S4194304, .f32⟩
  | 49 => ⟨S4194304, .f32⟩
  | 50 => ⟨S_, .f32⟩
  | 51 => ⟨S4194304, .f32⟩
  | 52 => ⟨S4194304, .f32⟩
  | 53 => ⟨S_, .f32⟩
  | 54 => ⟨S4194304, .f32⟩
  | 55 => ⟨S4194304, .f32⟩
  | 56 => ⟨S4194304, .f32⟩
  | 57 => ⟨S4194304, .f32⟩
  | 58 => ⟨S4194304, .f32⟩
  | 59 => ⟨S_, .f32⟩
  | 60 => ⟨S4194304, .f32⟩
  | 61 => ⟨S4194304, .f32⟩
  | 62 => ⟨S4194304, .f32⟩
  | 63 => ⟨S4194304, .f32⟩
  | 64 => ⟨S_, .i32⟩
  | 65 => ⟨S4194304, .i32⟩
  | 66 => ⟨S4194304, .i1⟩
  | 67 => ⟨S_, .f32⟩
  | 68 => ⟨S4194304, .f32⟩
  | 69 => ⟨S4194304, .f32⟩
  | 70 => ⟨S4194304, .f32⟩
  | 71 => ⟨S_, .f32⟩
  | 72 => ⟨S_, .f32⟩
  | 73 => ⟨S_, .f32⟩
  | 74 => ⟨S_, .f32⟩
  | 75 => ⟨S_, .f32⟩
  | 76 => ⟨S4194304, .f32⟩
  | 77 => ⟨S_, .f32⟩
  | 78 => ⟨S4194304, .f32⟩
  | 79 => ⟨S4194304, .f32⟩
  | 80 => ⟨S4194304x1, .f32⟩
  | 81 => ⟨S4194304x8, .f32⟩
  | 82 => ⟨S4194304x8, .f32⟩
  | 83 => ⟨S4194304x8, .f32⟩
  | 84 => ⟨S_, .f32⟩
  | 85 => ⟨S4194304, .f32⟩
  | 86 => ⟨S4194304x1, .f32⟩
  | 87 => ⟨S4194304x8, .f32⟩
  | 88 => ⟨S4194304x8, .f32⟩
  | 89 => ⟨S4194304x1, .i32⟩
  | 90 => ⟨S_, .i32⟩
  | 91 => ⟨S4194304x1, .i32⟩
  | 92 => ⟨S4194304x1, .i1⟩
  | 93 => ⟨S_, .i32⟩
  | 94 => ⟨S4194304x1, .i32⟩
  | 95 => ⟨S4194304x1, .i32⟩
  | 96 => ⟨S4194304x1, .i32⟩
  | 97 => ⟨S4194304x1x1, .i32⟩
  | 98 => ⟨S1, .i32⟩
  | 99 => ⟨S_, .i32⟩
  | 100 => ⟨S4194304x1x1, .i32⟩
  | 101 => ⟨S4194304x1x1, .i1⟩
  | 102 => ⟨S1x1x1, .i32⟩
  | 103 => ⟨S4194304x1x1, .i32⟩
  | 104 => ⟨S4194304x1x1, .i1⟩
  | 105 => ⟨S4194304x1x1, .i1⟩
  | 106 => ⟨S_, .i1⟩
  | 107 => ⟨S4194304x1, .i1⟩
  | 108 => ⟨S4194304x1, .f32⟩
  | 109 => ⟨S_, .f32⟩
  | 110 => ⟨S4194304x1, .f32⟩
  | 111 => ⟨S4194304x1, .f32⟩
  | 112 => ⟨S4194304, .f32⟩
  | 113 => ⟨S_, .i32⟩
  | 114 => ⟨S4194304, .i32⟩
  | 115 => ⟨S4194304, .i1⟩
  | 116 => ⟨S_, .f32⟩
  | 117 => ⟨S_, .f32⟩
  | 118 => ⟨S4194304, .f32⟩
  | 119 => ⟨S4194304, .f32⟩
  | 120 => ⟨S4194304, .f32⟩
  | 121 => ⟨S_, .f32⟩
  | 122 => ⟨S4194304, .f32⟩
  | 123 => ⟨S4194304, .f32⟩
  | 124 => ⟨S_, .f32⟩
  | 125 => ⟨S4194304, .f32⟩
  | 126 => ⟨S4194304, .f32⟩
  | 127 => ⟨S4194304, .f32⟩
  | _ => ⟨S4194304x8, .f32⟩

abbrev hbmTy0_1 (i : Nat) : BufTy := match i % 128 with
  | 0 => ⟨S4194304, .f32⟩
  | 1 => ⟨S4194304, .f32⟩
  | 2 => ⟨S_, .f32⟩
  | 3 => ⟨S4194304, .f32⟩
  | 4 => ⟨S4194304, .f32⟩
  | 5 => ⟨S4194304, .f32⟩
  | 6 => ⟨S4194304, .f32⟩
  | 7 => ⟨S_, .i32⟩
  | 8 => ⟨S4194304, .i32⟩
  | 9 => ⟨S4194304, .i1⟩
  | 10 => ⟨S_, .f32⟩
  | 11 => ⟨S4194304, .f32⟩
  | 12 => ⟨S4194304, .f32⟩
  | 13 => ⟨S4194304, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S1, .f32⟩
  | 24 => ⟨S1, .f32⟩
  | 25 => ⟨S1, .f32⟩
  | 26 => ⟨S3, .f32⟩
  | _ => ⟨S4194304x8, .f32⟩

abbrev hbmTy (i : Nat) : BufTy := match i / 128 with
  | 0 => hbmTy0_0 i
  | 1 => hbmTy0_1 i
  | _ => ⟨S4194304x8, .f32⟩

abbrev bufTy : (tb : Table) → Fin (tcTables nBuf tb) → BufTy
  | .hbm, ⟨i, _⟩ => hbmTy i
  | _, _ => ⟨S4194304x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_cst : Ref sig .tc := ⟨.hbm, 38, rfl⟩
abbrev main_call0_v14 : Ref sig .tc := ⟨.hbm, 39, rfl⟩
abbrev main_v12 : Ref sig .tc := ⟨.hbm, 40, rfl⟩
abbrev main_v13 : Ref sig .tc := ⟨.hbm, 41, rfl⟩
abbrev main_c : Ref sig .tc := ⟨.hbm, 42, rfl⟩
abbrev main_v14 : Ref sig .tc := ⟨.hbm, 43, rfl⟩
abbrev main_v15 : Ref sig .tc := ⟨.hbm, 44, rfl⟩
abbrev main_cst_2 : Ref sig .tc := ⟨.hbm, 45, rfl⟩
abbrev main_cst_3 : Ref sig .tc := ⟨.hbm, 46, rfl⟩
abbrev main_call1_v0 : Ref sig .tc := ⟨.hbm, 47, rfl⟩
abbrev main_call1_v1 : Ref sig .tc := ⟨.hbm, 48, rfl⟩
abbrev main_v16 : Ref sig .tc := ⟨.hbm, 49, rfl⟩
abbrev main_cst_4 : Ref sig .tc := ⟨.hbm, 50, rfl⟩
abbrev main_v17 : Ref sig .tc := ⟨.hbm, 51, rfl⟩
abbrev main_v18 : Ref sig .tc := ⟨.hbm, 52, rfl⟩
abbrev main_cst_5 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_cst_6 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_c_7 : Ref sig .tc := ⟨.hbm, 64, rfl⟩
abbrev main_v28 : Ref sig .tc := ⟨.hbm, 65, rfl⟩
abbrev main_v29 : Ref sig .tc := ⟨.hbm, 66, rfl⟩
abbrev main_cst_8 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_cst_9 : Ref sig .tc := ⟨.hbm, 71, rfl⟩
abbrev main_v33 : Ref sig .tc := ⟨.hbm, 72, rfl⟩
abbrev main_cst_10 : Ref sig .tc := ⟨.hbm, 73, rfl⟩
abbrev main_v34 : Ref sig .tc := ⟨.hbm, 74, rfl⟩
abbrev main_cst_11 : Ref sig .tc := ⟨.hbm, 75, rfl⟩
abbrev main_v35 : Ref sig .tc := ⟨.hbm, 76, rfl⟩
abbrev main_cst_12 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_cst_13 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_call3_c : Ref sig .tc := ⟨.hbm, 90, rfl⟩
abbrev main_call3_v0 : Ref sig .tc := ⟨.hbm, 91, rfl⟩
abbrev main_call3_v1 : Ref sig .tc := ⟨.hbm, 92, rfl⟩
abbrev main_call3_c_0 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_call3_v5 : Ref sig .tc := ⟨.hbm, 97, rfl⟩
abbrev main_call3_c_1 : Ref sig .tc := ⟨.hbm, 98, rfl⟩
abbrev main_call3_c_2 : Ref sig .tc := ⟨.hbm, 99, rfl⟩
abbrev main_call3_v6 : Ref sig .tc := ⟨.hbm, 100, rfl⟩
abbrev main_call3_v7 : Ref sig .tc := ⟨.hbm, 101, rfl⟩
abbrev main_call3_v8 : Ref sig .tc := ⟨.hbm, 102, rfl⟩
abbrev main_call3_v9 : Ref sig .tc := ⟨.hbm, 103, rfl⟩
abbrev main_call3_v10 : Ref sig .tc := ⟨.hbm, 104, rfl⟩
abbrev main_call3_v11 : Ref sig .tc := ⟨.hbm, 105, rfl⟩
abbrev main_call3_c_3 : Ref sig .tc := ⟨.hbm, 106, rfl⟩
abbrev main_call3_v12 : Ref sig .tc := ⟨.hbm, 107, rfl⟩
abbrev main_call3_v13 : Ref sig .tc := ⟨.hbm, 108, rfl⟩
abbrev main_call3_cst : Ref sig .tc := ⟨.hbm, 109, rfl⟩
abbrev main_call3_v14 : Ref sig .tc := ⟨.hbm, 110, rfl⟩
abbrev main_v47 : Ref sig .tc := ⟨.hbm, 111, rfl⟩
abbrev main_v48 : Ref sig .tc := ⟨.hbm, 112, rfl⟩
abbrev main_c_14 : Ref sig .tc := ⟨.hbm, 113, rfl⟩
abbrev main_v49 : Ref sig .tc := ⟨.hbm, 114, rfl⟩
abbrev main_v50 : Ref sig .tc := ⟨.hbm, 115, rfl⟩
abbrev main_cst_15 : Ref sig .tc := ⟨.hbm, 116, rfl⟩
abbrev main_cst_16 : Ref sig .tc := ⟨.hbm, 117, rfl⟩
abbrev main_call4_v0 : Ref sig .tc := ⟨.hbm, 118, rfl⟩
abbrev main_call4_v1 : Ref sig .tc := ⟨.hbm, 119, rfl⟩
abbrev main_v51 : Ref sig .tc := ⟨.hbm, 120, rfl⟩
abbrev main_cst_17 : Ref sig .tc := ⟨.hbm, 121, rfl⟩
abbrev main_v52 : Ref sig .tc := ⟨.hbm, 122, rfl⟩
abbrev main_v53 : Ref sig .tc := ⟨.hbm, 123, rfl⟩
abbrev main_cst_18 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_cst_19 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_c_20 : Ref sig .tc := ⟨.hbm, 135, rfl⟩
abbrev main_v63 : Ref sig .tc := ⟨.hbm, 136, rfl⟩
abbrev main_v64 : Ref sig .tc := ⟨.hbm, 137, rfl⟩
abbrev main_cst_21 : Ref sig .tc := ⟨.hbm, 138, rfl⟩
abbrev main_v65 : Ref sig .tc := ⟨.hbm, 139, rfl⟩
abbrev main_v66 : Ref sig .tc := ⟨.hbm, 140, rfl⟩
abbrev main_v67 : Ref sig .tc := ⟨.hbm, 141, rfl⟩
abbrev main_cst_22 : Ref sig .tc := ⟨.hbm, 142, rfl⟩
abbrev main_v68 : Ref sig .tc := ⟨.hbm, 143, rfl⟩
abbrev main_cst_23 : Ref sig .tc := ⟨.hbm, 144, rfl⟩
abbrev main_v69 : Ref sig .tc := ⟨.hbm, 145, rfl⟩
abbrev main_cst_24 : Ref sig .tc := ⟨.hbm, 146, rfl⟩
abbrev main_v70 : Ref sig .tc := ⟨.hbm, 147, rfl⟩
abbrev main_cst_25 : Ref sig .tc := ⟨.hbm, 148, rfl⟩
abbrev main_v71 : Ref sig .tc := ⟨.hbm, 149, rfl⟩
abbrev main_v72 : Ref sig .tc := ⟨.hbm, 150, rfl⟩
abbrev main_v73 : Ref sig .tc := ⟨.hbm, 151, rfl⟩
abbrev main_v74 : Ref sig .tc := ⟨.hbm, 152, rfl⟩
abbrev main_v75 : Ref sig .tc := ⟨.hbm, 153, rfl⟩
abbrev main_v76 : Ref sig .tc := ⟨.hbm, 154, rfl⟩

abbrev nD : Nat := 1
abbrev τ : Topo := Topo.v7x

variable {F : FTy → Type} [FloatOps F]

class Facts₀ : Prop where
  reducesTo_S4194304x8_S4194304_d1 : S4194304x8.ReducesTo [1] S4194304
  h_S_ : 0 < S_.numel
  bcast_S_S4194304 : S_.BroadcastsInDim S4194304 (![] : Fin 0 → Fin S4194304.rank)
  bcast_S4194304_S4194304x1_0 : S4194304.BroadcastsInDim S4194304x1 (![0] : Fin 1 → Fin S4194304x1.rank)
  bcast_S4194304x1_S4194304x8_0_1 : S4194304x1.BroadcastsInDim S4194304x8 (![0, 1] : Fin 2 → Fin S4194304x8.rank)
  bcast_S_S4194304x1 : S_.BroadcastsInDim S4194304x1 (![] : Fin 0 → Fin S4194304x1.rank)
  shapeCasts_S4194304x1_S4194304x1x1 : S4194304x1.ShapeCasts S4194304x1x1
  bcast_S_S4194304x1x1 : S_.BroadcastsInDim S4194304x1x1 (![] : Fin 0 → Fin S4194304x1x1.rank)
  bcast_S1_S1x1x1_2 : S1.BroadcastsInDim S1x1x1 (![2] : Fin 1 → Fin S1x1x1.rank)
  bcast_S1x1x1_S4194304x1x1_0_1_2 : S1x1x1.BroadcastsInDim S4194304x1x1 (![0, 1, 2] : Fin 3 → Fin S4194304x1x1.rank)
  reducesTo_S4194304x1x1_S4194304x1_d2 : S4194304x1x1.ReducesTo [2] S4194304x1
  shapeCasts_S4194304x1_S4194304 : S4194304x1.ShapeCasts S4194304
  reducesTo_S4194304_S_d0 : S4194304.ReducesTo [0] S_
  bcast_S_S1 : S_.BroadcastsInDim S1 (![] : Fin 0 → Fin S1.rank)
  concatenates_S1_S1_S1_S3_d0 : Shape.Concatenates [S1, S1, S1] S3 0
  gather_S4194304x8_S4194304x1x1_S4194304x1_n_1_0_0_1_2_11_wf : GatherDims.WF S4194304x8 S4194304x1x1 S4194304x1 [] [1] [0] [1] [0] 2 ![1, 1]

variable [Facts₀]

def gather_S4194304x8_S4194304x1x1_S4194304x1_n_1_0_0_1_2_11 : GatherDims S4194304x8 S4194304x1x1 S4194304x1 where
  offsetDims := []
  collapsedSliceDims := [1]
  operandBatchingDims := [0]
  startIndicesBatchingDims := [0]
  startIndexMap := [1]
  indexVectorDim := 2
  sliceSizes := ![1, 1]
  wf := gather_S4194304x8_S4194304x1x1_S4194304x1_n_1_0_0_1_2_11_wf

class Facts : Prop extends Facts₀ where

variable [Facts]
-- ==== Proof.K.Common.lean ====
/-
  Facts about a buffer that is loaded and stored WHOLE (through the unit rectangle at zero offsets of the buffer's
  own sizes): such a load reads the buffer's contents, such a store leaves its payload whatever was written before,
  and a load after such a store reads the payload.  Shared by the two kernel regions.
-/
import Idealize.ShloMosaic.Lib.Pipeline.FrameBody
import Idealize.ShloMosaic.Lib.Pipeline.Value

noncomputable section

namespace Cert.Kernel.Hand

open Idealize.ShloMosaic
open Idealize.SL Idealize.SL.Sem

/-- The offsets of a rank-two whole-buffer access are all zero. -/
theorem offsZero : (![0, 0] : Fin 2 → ℕ) = fun _ => 0 := by funext a; fin_cases a <;> rfl

/-- A one-by-one shape has one index. -/
theorem idxUnit_eq (x y : (⟨2, ![1, 1]⟩ : Shape).Idx) : x = y :=
  Shape.idx_ext₂
    (by have hx : (x 0 : ℕ) < 1 := (x 0).isLt; have hy : (y 0 : ℕ) < 1 := (y 0).isLt; omega)
    (by have hx : (x 1 : ℕ) < 1 := (x 1).isLt; have hy : (y 1 : ℕ) < 1 := (y 1).isLt; omega)

variable {sig : RefSig} {κ : Kind} {sp : Space} {S : Shape} {e : EltTy} {Val : EltTy → Type}

/-- A whole-buffer load of a whole memref that reads `X` reads `X`. -/
theorem readAt_wholeUnit (m : Memref sig κ sp S e) (hm : m.IsWhole) {off : Fin S.rank → ℕ} (h : off = fun _ => 0)
    (inb : ∀ a, off a + S.size a ≤ S.size a) (X : S.Idx → Val e) :
    View.readAt Val m.view (Rect.unit off S.size inb).toLoadRect (hm.unread X) = X := by
  show View.ld (m.view.read Val (hm.unread X)) (Rect.unit off S.size inb) = X
  rw [hm.read_unread, View.ld_unit_zero h]

/-- After a whole-buffer store, made last, the buffer reads the store's payload. -/
theorem read_writes_wholeUnit [∀ e, Nonempty (Val e)] (v : View sig κ sp S e) (f : v.ty.Contents Val) {off : Fin S.rank → ℕ}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

/-- A whole-buffer load after a whole-buffer store, made last, reads the store's payload. -/
theorem readCov_wholeUnit [∀ e, Nonempty (Val e)] (v : View sig κ sp S e) {off : Fin S.rank → ℕ}
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w :=
  View.readCov_cons_toLoadRect v (Rect.unit off S.size inb) w L

end Cert.Kernel.Hand

end
-- ==== Proof.K.Region0Runs.lean ====
/-
  The first task's kernel body run on one grid point, in each of its three control cases: the first point (the
  accumulator is zeroed, then the block's sum added), a middle point (the block's sum added to what the point before
  left), and the last point (the same, and the accumulator copied to the output's buffer).
-/
import proofs.«411030_j52819507806486_2_alg».proof.Proof.Gen.Kernel.Launch
import proofs.«411030_j52819507806486_2_alg».proof.Proof.Gen.Kernel.Skeleton
import proofs.«411030_j52819507806486_2_alg».proof.Proof.Gen.Kernel.Points
import proofs.«411030_j52819507806486_2_alg».proof.Proof.K.Common
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two tests, decided over the grid -/

/-- The test "this is the first point", as the body computes it from the grid coordinate. -/
abbrev cond0_0 (i : grid0.Coords) : Prop :=
  (Scalar.cmpi .ne (Scalar.extui (Scalar.cmpi .eq (BitVec.ofNat 32 (i 0).val) 0#32)) 0#32) = 1#1
/-- It holds at point 0 only. -/
theorem hcond0_0 : ∀ t : Fin cfg0.N, cond0_0 (grid0.coords t) ↔ t.val = 0 :=
  (by decide +kernel : ∀ t : Fin grid0.N, cond0_0 (grid0.coords t) ↔ t.val = 0)

/-- The test "this is the last point". -/
abbrev cond0_1 (i : grid0.Coords) : Prop := k0_cond2 i = 1#1
/-- It holds at point 511 only. -/
theorem hcond0_1 : ∀ t : Fin cfg0.N, cond0_1 (grid0.coords t) ↔ t.val = 511 :=
  (by decide +kernel : ∀ t : Fin grid0.N, cond0_1 (grid0.coords t) ↔ t.val = 511)

/-! ## Where the output window is idle -/

/-- Off the last point the output window is idle: the body stores nothing into it there, -/
theorem idleAt0_2 : ∀ t : Fin cfg0.N, ¬cond0_1 (grid0.coords t) → cfg0.idle 2 (grid0.coords t) = true := by decide +kernel
/-- and the pipeline does not write it back there. -/
theorem noFlush0_2 : ∀ t : Fin cfg0.N, ¬cond0_1 (grid0.coords t) → (cfg0.win 2).flush t = false := by decide +kernel
/-- At the last point it is live. -/
theorem liveAt0_2 : ∀ t : Fin cfg0.N, cond0_1 (grid0.coords t) → cfg0.idle 2 (grid0.coords t) = false := by decide +kernel

/-! ## The accumulator's memref -/

/-- The scratch accumulator the body carries from point to point, as a memref. -/
abbrev scM0 : Memref sig .tc .vmem S1x1 .f32 := Memref.whole cc0_scratch0

/-! ## The three runs

Each run executes the body's loads and stores in order.  Every access is of a whole buffer, so a load reads the
buffer's contents (or the payload of the store made just before) and the last store's payload is what the buffer
holds afterwards. -/

set_option maxHeartbeats 1000000 in
/-- THE FIRST POINT. From the logits block `x`, the labels block `l`, the output's buffer at `o` and the
    accumulator at anything, the body leaves the blocks and the output's buffer as they were and the accumulator at
    the block's sum added to zero. -/
theorem runA0 (c : Dev nD) (i : grid0.Coords) (arg1 : Memref sig .tc .vmem S8192x8 .f32) (harg1 : arg1.IsWhole)
    (arg2 : Memref sig .tc .vmem S8192x1 .i32) (harg2 : arg2.IsWhole) (arg3 : Memref sig .tc .vmem S1x1 .f32) (harg3 : arg3.IsWhole)
    (arg4 : Memref sig .tc .vmem S1x1 .f32) (harg4 : arg4.IsWhole) (hc0 : cond0_0 i) (hc1 : ¬cond0_1 i)
    (x : Vec F S8192x8 .f32) (l : Vec F S8192x1 .i32) (o : Vec F S1x1 .f32) (E : Set ℕ) (K : PUnit → sProp 𝕄) :
    iprop(owns (c : Thread nD τ) arg1 fullShare x ∗ owns (c : Thread nD τ) arg2 fullShare l ∗ owns (c : Thread nD τ) arg3 fullShare o
        ∗ (∃ d, owns (c : Thread nD τ) arg4 fullShare d)
        ∗ (iprop(owns (c : Thread nD τ) arg1 fullShare x ∗ owns (c : Thread nD τ) arg2 fullShare l ∗ owns (c : Thread nD τ) arg3 fullShare o
            ∗ owns (c : Thread nD τ) arg4 fullShare (k0_pay1 (k0_pay4 x l) (k0_pay5 l) (k0_pay6 (F := F)) (k0_pay2 (F := F)))) -∗ K ⟨⟩))
      ⊢ wp frame (wpE (defs₀ (F := F)) Variants.none c none) E (cc0__focal_sum_kernel i arg1 harg1 arg2 harg2 arg3 harg3 arg4 harg4) K := by
  simp only [cc0__focal_sum_kernel_eq_skeleton]; unfold cc0__focal_sum_kernel_skel
  simp only [k0_part1_eq_skeleton]; unfold k0_part1_skel
  unfold owns
  iintro ⟨⟨%f1, %hf1, H1⟩, ⟨%f2, %hf2, H2⟩, ⟨%f3, %hf3, H3⟩, ⟨%d4, %f4, -, H4⟩, Hk⟩
  obtain rfl := harg1.eq_unread hf1; obtain rfl := harg2.eq_unread hf2; obtain rfl := harg3.eq_unread hf3
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  iexists _; isplitr
  swap; · iexact H4
  ipureintro
  refine (read_writes_wholeUnit (S := S1x1) _ _ offsZero _ _ _).trans ?_
  dsimp only
  rw [readAt_wholeUnit (S := S8192x8) arg1 harg1 offsZero, readAt_wholeUnit (S := S8192x1) arg2 harg2 offsZero]
  unfold runA0.sl.v45 runA0.sl.H4_1
  rw [readCov_wholeUnit (S := S1x1)]

set_option maxHeartbeats 1000000 in
/-- A MIDDLE POINT. With the accumulator at `a`, the body leaves it at the block's sum added to `a`; the blocks and
    the output's buffer stay as they were. -/
theorem runB0 (c : Dev nD) (i : grid0.Coords) (arg1 : Memref sig .tc .vmem S8192x8 .f32) (harg1 : arg1.IsWhole)
    (arg2 : Memref sig .tc .vmem S8192x1 .i32) (harg2 : arg2.IsWhole) (arg3 : Memref sig .tc .vmem S1x1 .f32) (harg3 : arg3.IsWhole)
    (arg4 : Memref sig .tc .vmem S1x1 .f32) (harg4 : arg4.IsWhole) (hc0 : ¬cond0_0 i) (hc1 : ¬cond0_1 i)
    (x : Vec F S8192x8 .f32) (l : Vec F S8192x1 .i32) (o : Vec F S1x1 .f32) (a : Vec F S1x1 .f32) (E : Set ℕ) (K : PUnit → sProp 𝕄) :
    iprop(owns (c : Thread nD τ) arg1 fullShare x ∗ owns (c : Thread nD τ) arg2 fullShare l ∗ owns (c : Thread nD τ) arg3 fullShare o
        ∗ owns (c : Thread nD τ) arg4 fullShare a
        ∗ (iprop(owns (c : Thread nD τ) arg1 fullShare x ∗ owns (c : Thread nD τ) arg2 fullShare l ∗ owns (c : Thread nD τ) arg3 fullShare o
            ∗ owns (c : Thread nD τ) arg4 fullShare (k0_pay1 (k0_pay4 x l) (k0_pay5 l) (k0_pay6 (F := F)) a)) -∗ K ⟨⟩))
      ⊢ wp frame (wpE (defs₀ (F := F)) Variants.none c none) E (cc0__focal_sum_kernel i arg1 harg1 arg2 harg2 arg3 harg3 arg4 harg4) K := by
  simp only [cc0__focal_sum_kernel_eq_skeleton]; unfold cc0__focal_sum_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, Hk⟩
  obtain rfl := harg1.eq_unread hf1; obtain rfl := harg2.eq_unread hf2; obtain rfl := harg3.eq_unread hf3
  obtain rfl := harg4.eq_unread hf4
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  iexists _; isplitr
  swap; · iexact H4
  ipureintro
  refine (read_writes_wholeUnit (S := S1x1) _ _ offsZero _ _ _).trans ?_
  dsimp only
  rw [readAt_wholeUnit (S := S8192x8) arg1 harg1 offsZero, readAt_wholeUnit (S := S8192x1) arg2 harg2 offsZero,
    readAt_wholeUnit (S := S1x1) arg4 harg4 offsZero]

set_option maxHeartbeats 1000000 in
/-- THE LAST POINT. As at a middle point, and the accumulator's new contents are copied to the output's buffer,
    whatever it held. -/
theorem runC0 (c : Dev nD) (i : grid0.Coords) (arg1 : Memref sig .tc .vmem S8192x8 .f32) (harg1 : arg1.IsWhole)
    (arg2 : Memref sig .tc .vmem S8192x1 .i32) (harg2 : arg2.IsWhole) (arg3 : Memref sig .tc .vmem S1x1 .f32) (harg3 : arg3.IsWhole)
    (arg4 : Memref sig .tc .vmem S1x1 .f32) (harg4 : arg4.IsWhole) (hc0 : ¬cond0_0 i) (hc1 : cond0_1 i)
    (x : Vec F S8192x8 .f32) (l : Vec F S8192x1 .i32) (a : Vec F S1x1 .f32) (E : Set ℕ) (K : PUnit → sProp 𝕄) :
    iprop(owns (c : Thread nD τ) arg1 fullShare x ∗ owns (c : Thread nD τ) arg2 fullShare l ∗ (∃ d, owns (c : Thread nD τ) arg3 fullShare d)
        ∗ owns (c : Thread nD τ) arg4 fullShare a
        ∗ (iprop(owns (c : Thread nD τ) arg1 fullShare x ∗ owns (c : Thread nD τ) arg2 fullShare l ∗ owns (c : Thread nD τ) arg3 fullShare (k0_pay1 (k0_pay4 x l) (k0_pay5 l) (k0_pay6 (F := F)) a)
            ∗ owns (c : Thread nD τ) arg4 fullShare (k0_pay1 (k0_pay4 x l) (k0_pay5 l) (k0_pay6 (F := F)) a)) -∗ K ⟨⟩))
      ⊢ wp frame (wpE (defs₀ (F := F)) Variants.none c none) E (cc0__focal_sum_kernel i arg1 harg1 arg2 harg2 arg3 harg3 arg4 harg4) K := by
  simp only [cc0__focal_sum_kernel_eq_skeleton]; unfold cc0__focal_sum_kernel_skel
  simp only [k0_part1_eq_skeleton]; unfold k0_part1_skel
  unfold owns
  iintro ⟨⟨%f1, %hf1, H1⟩, ⟨%f2, %hf2, H2⟩, ⟨%d3, %f3, -, H3⟩, ⟨%f4, %hf4, H4⟩, Hk⟩
  obtain rfl := harg1.eq_unread hf1; obtain rfl := harg2.eq_unread hf2; obtain rfl := harg4.eq_unread hf4
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    refine (read_writes_wholeUnit (S := S1x1) _ _ offsZero _ _ _).trans ?_
    unfold runC0.sl.v53 runC0.sl.H4_1
    rw [readCov_wholeUnit (S := S1x1)]
    dsimp only
    rw [readAt_wholeUnit (S := S8192x8) arg1 harg1 offsZero, readAt_wholeUnit (S := S8192x1) arg2 harg2 offsZero,
      readAt_wholeUnit (S := S1x1) arg4 harg4 offsZero]
  iexists _; isplitr
  swap; · iexact H4
  ipureintro
  unfold runC0.sl.H4_1
  refine (read_writes_wholeUnit (S := S1x1) _ _ offsZero _ _ _).trans ?_
  dsimp only
  rw [readAt_wholeUnit (S := S8192x8) arg1 harg1 offsZero, readAt_wholeUnit (S := S8192x1) arg2 harg2 offsZero,
    readAt_wholeUnit (S := S1x1) arg4 harg4 offsZero]

/-- info: 'Cert.Kernel.Hand.runA0' depends on axioms: [propext, Classical.choice, Quot.sound] -/
#guard_msgs in #print axioms runA0
/-- info: 'Cert.Kernel.Hand.runB0' depends on axioms: [propext, Classical.choice, Quot.sound] -/
#guard_msgs in #print axioms runB0
/-- info: 'Cert.Kernel.Hand.runC0' depends on axioms: [propext, Classical.choice, Quot.sound] -/
#guard_msgs in #print axioms runC0

end Cert.Kernel.Hand

end
-- ==== Proof.K.Region0.lean ====
/-
  The first task's kernel region (pipeline 0): per grid point one block of 8192 rows of logits and labels is
  loaded, each row's weighted focal term computed, the block's terms summed and added into a one-word scratch
  accumulator, which the first point resets and the last point copies to the one-word output.
-/
import proofs.«411030_j52819507806486_2_alg».proof.Proof.Gen.Kernel.Launch
import proofs.«411030_j52819507806486_2_alg».proof.Proof.Gen.Kernel.Skeleton
import proofs.«411030_j52819507806486_2_alg».proof.Proof.Gen.Kernel.Points
import proofs.«411030_j52819507806486_2_alg».proof.Proof.K.Region0Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the region's entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- One point's update of the accumulator: the previous sum plus the block's summed terms. -/
def step0 (x : Vec F S8192x8 .f32) (l : Vec F S8192x1 .i32) (a : Vec F S1x1 .f32) : Vec F S1x1 .f32 :=
  k0_pay1 (k0_pay4 x l) (k0_pay5 l) (k0_pay6 (F := F)) a

/-- The accumulator after point `n`: the blocks' sums added in order, from zero. -/
def accAt0 (c : Dev nD) : (n : ℕ) → n < cfg0.N → Vec F S1x1 .f32
  | 0, hn => step0 (iblk0 V c 0 ⟨0, hn⟩) (iblk0 V c 1 ⟨0, hn⟩) (k0_pay2 (F := F))
  | n + 1, hn => step0 (iblk0 V c 0 ⟨n + 1, hn⟩) (iblk0 V c 1 ⟨n + 1, hn⟩) (accAt0 c n (Nat.lt_of_succ_lt hn))

/-- After the first point: the first block's sum added to zero. -/
theorem accAt0_first (c : Dev nD) (t : Fin cfg0.N) (hz : t.val = 0) :
    accAt0 V c t.val t.isLt = step0 (iblk0 V c 0 t) (iblk0 V c 1 t) (k0_pay2 (F := F)) := by
  obtain ⟨n, hn⟩ := t
  cases n with
  | zero => rfl
  | succ n => exact absurd hz (Nat.succ_ne_zero n)

/-- After a later point: the block's sum added to what the point before left. -/
theorem accAt0_later (c : Dev nD) (t : Fin cfg0.N) (hz : t.val ≠ 0) :
    accAt0 V c t.val t.isLt
      = step0 (iblk0 V c 0 t) (iblk0 V c 1 t) (accAt0 V c (t.val - 1) (Nat.lt_of_le_of_lt (Nat.sub_le _ _) t.isLt)) := by
  obtain ⟨n, hn⟩ := t
  cases n with
  | zero => exact absurd rfl hz
  | succ n => rfl

/-! ## The invariant -/

/-- The core's scoped buffers other than this pipeline's staging buffers and its accumulator, at some contents each:
    carried through the region unopened. -/
def rest0 (c : Dev nD) : sProp 𝕄 :=
  Pipeline.scopedRestBut (Ix := Unit) (Name := ℕ) (U := UR sig nD τ) (Lvl := ℕ) (Val := Elt F) spec0 c [cc0_scratch0]

/-- What the launch hands the region, with the accumulator set apart as a memref owned at some contents. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA rest0
  rw [Pipeline.scopedRest_split_of_list spec0 c [cc0_scratch0] (by decide) (by decide)]
  simp only [bigSepL_singleton, scM0, owns_whole]
  rfl

/-- The invariant before position `n`: before the first point what the launch hands over (the accumulator at
    anything); afterwards the accumulator at the sum of the points so far, beside the other scoped buffers and the
    generator register. -/
def PhiS0 (c : Dev nD) : (n : ℕ) → n ≤ cfg0.N → sProp 𝕄
  | 0, _ => Pipeline.ΦA spec0 c
  | n + 1, hn => iprop(iprop(owns (c : Thread nD τ) scM0 fullShare (accAt0 V c n hn) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn
      = iprop(iprop(owns (c : Thread nD τ) scM0 fullShare (accAt0 V c n hn) ∗ rest0 (F := F) c) ∗ (∃ r, prngReg c r)) := rfl

theorem PhiS0_pos (c : Dev nD) (n : ℕ) (h : n ≤ cfg0.N) (hz : n ≠ 0) :
    PhiS0 V c n h
      = iprop(iprop(owns (c : Thread nD τ) scM0 fullShare (accAt0 V c (n - 1) (by omega)) ∗ rest0 (F := F) c) ∗ (∃ r, prngReg c r)) := by
  cases n with
  | zero => exact absurd rfl hz
  | succ n => rfl

/-! ## The proof data -/

/-- The region's proof data. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => accAt0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = accAt0 V c t.val t.isLt := by dsimp only [dat0]

/-- Each input's current staging buffer holds its block at every point, fetched there or not: an input the body
    leaves in place, uncut and never idle. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

/-- The inputs are live at every point: the body leaves their buffers at their blocks. -/
theorem leaves0_0 (c : Dev nD) (t : Fin cfg0.N) :
    (dat0 V c).leavesExact 0 t = owns (c : Thread nD τ) (st0_0 t) fullShare (iblk0 V c 0 t) := by
  rw [← after0_0]
theorem leaves0_1 (c : Dev nD) (t : Fin cfg0.N) :
    (dat0 V c).leavesExact 1 t = owns (c : Thread nD τ) (st0_1 t) fullShare (iblk0 V c 1 t) := by
  rw [← after0_1]

set_option maxHeartbeats 4000000 in
/-- The body at any point, by the point's place in the grid.  The inputs' buffers hold their blocks.  At the first
    point the invariant hands over the accumulator at anything and takes it back at the first block's sum; at a
    later point it hands it over at what the point before left and takes it back with this block's sum added.  Off
    the last point the output's buffer is idle and handed back untouched; at the last point it is live and left at
    the accumulator's final contents.  The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [leaves0_0, leaves0_1]
  have hN : t.val < 512 := lt_of_lt_of_eq t.isLt (show cfg0.N = 512 from N_0)
  by_cases hz : t.val = 0
  · -- the first point
    have hl : ¬t.val = 511 := by omega
    have hc0 : cond0_0 (grid0.coords t) := (hcond0_0 t).mpr hz
    have hc1 : ¬cond0_1 (grid0.coords t) := fun h => hl ((hcond0_1 t).mp h)
    rw [Dat.leavesExact_idle (dat0 V c) 2 t (idleAt0_2 t hc1) (noFlush0_2 t hc1)]
    rw [PhiS0_castSucc V c t, PhiS0_zero V c _ _ hz, PhiA0_eq, accAt0_first V c t hz]
    unfold step0
    iintro ⟨⟨⟨HS, Hr⟩, Hg⟩, Ho, ⟨%d0, H0⟩, ⟨%d1, H1⟩, ⟨%d2, H2⟩⟩
    iapply (runA0 c (grid0.coords t) _ _ _ _ _ _ _ _ hc0 hc1 (iblk0 V c 0 t) (iblk0 V c 1 t) _ Set.univ _)
    isplitl [H0]; · iexact H0
    isplitl [H1]; · iexact H1
    isplitl [H2]; · iexact H2
    isplitl [HS]; · iexact HS
    iintro ⟨H0, H1, H2, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    iexists _; iexact H2
  · have hc0 : ¬cond0_0 (grid0.coords t) := fun h => hz ((hcond0_0 t).mp h)
    rw [PhiS0_castSucc V c t, PhiS0_pos V c _ _ hz, accAt0_later V c t hz]
    unfold step0
    by_cases hl : t.val = 511
    · -- the last point
      have hc1 : cond0_1 (grid0.coords t) := (hcond0_1 t).mpr hl
      rw [show (dat0 V c).leavesExact 2 t = owns (c : Thread nD τ) (st0_2 t) fullShare ((dat0 V c).after 2 t) from by
        unfold Dat.leavesExact; rw [liveAt0_2 t hc1], after0_2, accAt0_later V c t hz]
      unfold step0
      iintro ⟨⟨⟨HS, Hr⟩, Hg⟩, Ho, ⟨%d0, H0⟩, ⟨%d1, H1⟩, ⟨%d2, H2⟩⟩
      iapply (runC0 c (grid0.coords t) _ _ _ _ _ _ _ _ hc0 hc1 (iblk0 V c 0 t) (iblk0 V c 1 t) _ Set.univ _)
      isplitl [H0]; · iexact H0
      isplitl [H1]; · iexact H1
      isplitl [H2]; · iexists _; iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · -- a middle point
      have hc1 : ¬cond0_1 (grid0.coords t) := fun h => hl ((hcond0_1 t).mp h)
      rw [Dat.leavesExact_idle (dat0 V c) 2 t (idleAt0_2 t hc1) (noFlush0_2 t hc1)]
      iintro ⟨⟨⟨HS, Hr⟩, Hg⟩, Ho, ⟨%d0, H0⟩, ⟨%d1, H1⟩, ⟨%d2, H2⟩⟩
      iapply (runB0 c (grid0.coords t) _ _ _ _ _ _ _ _ hc0 hc1 (iblk0 V c 0 t) (iblk0 V c 1 t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the launch's back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 512 := N_0; omega), PhiA0_eq]
  iintro ⟨⟨HS, Hr⟩, Hg⟩
  isplitl [HS Hr]
  · isplitl [HS]
    · iexists _; iexact HS
    iexact Hr
  iexact Hg

/-- What the region leaves in the output's array: the accumulator after the last point. -/
theorem arrAt0_out (c : Dev nD) : (dat0 V c).arrAt 2 cfg0.N = accAt0 V c 511 (by decide) := by
  -- only the last point writes the output's block back, so no two flushing points' blocks can meet
  have hN : cfg0.N = 512 := N_0
  have hdisj : ∀ t t' : Fin cfg0.N, (cfg0.win 2).flush t = true → (cfg0.win 2).flush t' = true → t ≠ t' →
      Disjoint ((cfg0.win 2).blk t).view.set ((cfg0.win 2).blk t').view.set := fun t t' hf hf' hne => by
    exfalso; apply hne; apply Fin.ext
    have h1 := (flush0_2 t).mp hf; have h2 := (flush0_2 t').mp hf'
    have := t.isLt; have := t'.isLt
    omega
  have hf : (cfg0.win 2).flush (⟨511, by decide⟩ : Fin cfg0.N) = true := (flush0_2 _).mpr (by decide)
  funext i
  have e := (dat0 V c).arrAt_emb_eq_flushed 2 hdisj ⟨511, by decide⟩ hf i
  refine ((congrArg ((dat0 V c).arrAt 2 cfg0.N) (idxUnit_eq _ _)).trans e).trans ?_
  simp only [cast_eq]
  -- what the last point writes back is what the body left there, the block being uncut
  have hfl : (dat0 V c).flushed 2 (⟨511, by decide⟩ : Fin cfg0.N)
      = (cfg0.win 2).cut (grid0.coords (⟨511, by decide⟩ : Fin cfg0.N)) (accAt0 V c 511 (by decide)) := by
    show (cfg0.win 2).cut (grid0.coords _) ((dat0 V c).after 2 _) = _
    rw [after0_2]
  rw [hfl]
  rfl

/-- The input arrays are left as found. -/
theorem arrAt0_in0 (c : Dev nD) : (dat0 V c).arrAt 0 cfg0.N = V c (Pipeline.arrRef spec0 0) :=
  ((dat0 V c).arrAt_in 0 rfl _).trans (A_eq0 V c 0)
theorem arrAt0_in1 (c : Dev nD) : (dat0 V c).arrAt 1 cfg0.N = V c (Pipeline.arrRef spec0 1) :=
  ((dat0 V c).arrAt_in 1 rfl _).trans (A_eq0 V c 1)

/-- info: 'Cert.Kernel.Hand.body_obligation0' depends on axioms: [propext, Classical.choice, Quot.sound] -/
#guard_msgs in #print axioms body_obligation0
/-- info: 'Cert.Kernel.Hand.hin0' depends on axioms: [propext, Classical.choice, Quot.sound] -/
#guard_msgs in #print axioms hin0
/-- info: 'Cert.Kernel.Hand.hout0' depends on axioms: [propext, Classical.choice, Quot.sound] -/
#guard_msgs in #print axioms hout0
/-- info: 'Cert.Kernel.Hand.arrAt0_out' depends on axioms: [propext, Classical.choice, Quot.sound] -/
#guard_msgs in #print axioms arrAt0_out
/-- info: 'Cert.Kernel.Hand.arrAt0_in0' depends on axioms: [propext, Classical.choice, Quot.sound] -/
#guard_msgs in #print axioms arrAt0_in0
/-- info: 'Cert.Kernel.Hand.arrAt0_in1' depends on axioms: [propext, Classical.choice, Quot.sound] -/
#guard_msgs in #print axioms arrAt0_in1

end Cert.Kernel.Hand

end
-- ==== Proof.K.Region1Runs.lean ====
/-
  The second task's kernel body run on one grid point, in each of its three control cases: the first point (the
  accumulator is zeroed, then the block's sum added), a middle point (the block's sum added to what the point before
  left), and the last point (the same, and the accumulator copied to the output's buffer).
-/
import proofs.«411030_j52819507806486_2_alg».proof.Proof.Gen.Kernel.Launch
import proofs.«411030_j52819507806486_2_alg».proof.Proof.Gen.Kernel.Skeleton
import proofs.«411030_j52819507806486_2_alg».proof.Proof.Gen.Kernel.Points
import proofs.«411030_j52819507806486_2_alg».proof.Proof.K.Common
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two tests, decided over the grid -/

/-- The test "this is the first point", as the body computes it from the grid coordinate. -/
abbrev cond1_0 (i : grid1.Coords) : Prop :=
  (Scalar.cmpi .ne (Scalar.extui (Scalar.cmpi .eq (BitVec.ofNat 32 (i 0).val) 0#32)) 0#32) = 1#1
/-- It holds at point 0 only. -/
theorem hcond1_0 : ∀ t : Fin cfg1.N, cond1_0 (grid1.coords t) ↔ t.val = 0 :=
  (by decide +kernel : ∀ t : Fin grid1.N, cond1_0 (grid1.coords t) ↔ t.val = 0)

/-- The test "this is the last point". -/
abbrev cond1_1 (i : grid1.Coords) : Prop := k1_cond2 i = 1#1
/-- It holds at point 511 only. -/
theorem hcond1_1 : ∀ t : Fin cfg1.N, cond1_1 (grid1.coords t) ↔ t.val = 511 :=
  (by decide +kernel : ∀ t : Fin grid1.N, cond1_1 (grid1.coords t) ↔ t.val = 511)

/-! ## Where the output window is idle -/

/-- Off the last point the output window is idle: the body stores nothing into it there, -/
theorem idleAt1_2 : ∀ t : Fin cfg1.N, ¬cond1_1 (grid1.coords t) → cfg1.idle 2 (grid1.coords t) = true := by decide +kernel
/-- and the pipeline does not write it back there. -/
theorem noFlush1_2 : ∀ t : Fin cfg1.N, ¬cond1_1 (grid1.coords t) → (cfg1.win 2).flush t = false := by decide +kernel
/-- At the last point it is live. -/
theorem liveAt1_2 : ∀ t : Fin cfg1.N, cond1_1 (grid1.coords t) → cfg1.idle 2 (grid1.coords t) = false := by decide +kernel

/-! ## The accumulator's memref -/

/-- The scratch accumulator the body carries from point to point, as a memref. -/
abbrev scM1 : Memref sig .tc .vmem S1x1 .f32 := Memref.whole cc1_scratch0

/-! ## The three runs

Each run executes the body's loads and stores in order.  Every access is of a whole buffer, so a load reads the
buffer's contents (or the payload of the store made just before) and the last store's payload is what the buffer
holds afterwards. -/

set_option maxHeartbeats 1000000 in
/-- THE FIRST POINT. From the logits block `x`, the labels block `l`, the output's buffer at `o` and the
    accumulator at anything, the body leaves the blocks and the output's buffer as they were and the accumulator at
    the block's sum added to zero. -/
theorem runA1 (c : Dev nD) (i : grid1.Coords) (arg1 : Memref sig .tc .vmem S8192x8 .f32) (harg1 : arg1.IsWhole)
    (arg2 : Memref sig .tc .vmem S8192x1 .i32) (harg2 : arg2.IsWhole) (arg3 : Memref sig .tc .vmem S1x1 .f32) (harg3 : arg3.IsWhole)
    (arg4 : Memref sig .tc .vmem S1x1 .f32) (harg4 : arg4.IsWhole) (hc0 : cond1_0 i) (hc1 : ¬cond1_1 i)
    (x : Vec F S8192x8 .f32) (l : Vec F S8192x1 .i32) (o : Vec F S1x1 .f32) (E : Set ℕ) (K : PUnit → sProp 𝕄) :
    iprop(owns (c : Thread nD τ) arg1 fullShare x ∗ owns (c : Thread nD τ) arg2 fullShare l ∗ owns (c : Thread nD τ) arg3 fullShare o
        ∗ (∃ d, owns (c : Thread nD τ) arg4 fullShare d)
        ∗ (iprop(owns (c : Thread nD τ) arg1 fullShare x ∗ owns (c : Thread nD τ) arg2 fullShare l ∗ owns (c : Thread nD τ) arg3 fullShare o
            ∗ owns (c : Thread nD τ) arg4 fullShare (k1_pay1 (k1_pay4 x l) (k1_pay5 l) (k1_pay6 (F := F)) (k1_pay2 (F := F)))) -∗ K ⟨⟩))
      ⊢ wp frame (wpE (defs₀ (F := F)) Variants.none c none) E (cc1__focal_sum_kernel i arg1 harg1 arg2 harg2 arg3 harg3 arg4 harg4) K := by
  simp only [cc1__focal_sum_kernel_eq_skeleton]; unfold cc1__focal_sum_kernel_skel
  simp only [k1_part1_eq_skeleton]; unfold k1_part1_skel
  unfold owns
  iintro ⟨⟨%f1, %hf1, H1⟩, ⟨%f2, %hf2, H2⟩, ⟨%f3, %hf3, H3⟩, ⟨%d4, %f4, -, H4⟩, Hk⟩
  obtain rfl := harg1.eq_unread hf1; obtain rfl := harg2.eq_unread hf2; obtain rfl := harg3.eq_unread hf3
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  iexists _; isplitr
  swap; · iexact H4
  ipureintro
  refine (read_writes_wholeUnit (S := S1x1) _ _ offsZero _ _ _).trans ?_
  dsimp only
  rw [readAt_wholeUnit (S := S8192x8) arg1 harg1 offsZero, readAt_wholeUnit (S := S8192x1) arg2 harg2 offsZero]
  unfold runA1.sl.v45 runA1.sl.H4_1
  rw [readCov_wholeUnit (S := S1x1)]

set_option maxHeartbeats 1000000 in
/-- A MIDDLE POINT. With the accumulator at `a`, the body leaves it at the block's sum added to `a`; the blocks and
    the output's buffer stay as they were. -/
theorem runB1 (c : Dev nD) (i : grid1.Coords) (arg1 : Memref sig .tc .vmem S8192x8 .f32) (harg1 : arg1.IsWhole)
    (arg2 : Memref sig .tc .vmem S8192x1 .i32) (harg2 : arg2.IsWhole) (arg3 : Memref sig .tc .vmem S1x1 .f32) (harg3 : arg3.IsWhole)
    (arg4 : Memref sig .tc .vmem S1x1 .f32) (harg4 : arg4.IsWhole) (hc0 : ¬cond1_0 i) (hc1 : ¬cond1_1 i)
    (x : Vec F S8192x8 .f32) (l : Vec F S8192x1 .i32) (o : Vec F S1x1 .f32) (a : Vec F S1x1 .f32) (E : Set ℕ) (K : PUnit → sProp 𝕄) :
    iprop(owns (c : Thread nD τ) arg1 fullShare x ∗ owns (c : Thread nD τ) arg2 fullShare l ∗ owns (c : Thread nD τ) arg3 fullShare o
        ∗ owns (c : Thread nD τ) arg4 fullShare a
        ∗ (iprop(owns (c : Thread nD τ) arg1 fullShare x ∗ owns (c : Thread nD τ) arg2 fullShare l ∗ owns (c : Thread nD τ) arg3 fullShare o
            ∗ owns (c : Thread nD τ) arg4 fullShare (k1_pay1 (k1_pay4 x l) (k1_pay5 l) (k1_pay6 (F := F)) a)) -∗ K ⟨⟩))
      ⊢ wp frame (wpE (defs₀ (F := F)) Variants.none c none) E (cc1__focal_sum_kernel i arg1 harg1 arg2 harg2 arg3 harg3 arg4 harg4) K := by
  simp only [cc1__focal_sum_kernel_eq_skeleton]; unfold cc1__focal_sum_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, Hk⟩
  obtain rfl := harg1.eq_unread hf1; obtain rfl := harg2.eq_unread hf2; obtain rfl := harg3.eq_unread hf3
  obtain rfl := harg4.eq_unread hf4
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  iexists _; isplitr
  swap; · iexact H4
  ipureintro
  refine (read_writes_wholeUnit (S := S1x1) _ _ offsZero _ _ _).trans ?_
  dsimp only
  rw [readAt_wholeUnit (S := S8192x8) arg1 harg1 offsZero, readAt_wholeUnit (S := S8192x1) arg2 harg2 offsZero,
    readAt_wholeUnit (S := S1x1) arg4 harg4 offsZero]

set_option maxHeartbeats 1000000 in
/-- THE LAST POINT. As at a middle point, and the accumulator's new contents are copied to the output's buffer,
    whatever it held. -/
theorem runC1 (c : Dev nD) (i : grid1.Coords) (arg1 : Memref sig .tc .vmem S8192x8 .f32) (harg1 : arg1.IsWhole)
    (arg2 : Memref sig .tc .vmem S8192x1 .i32) (harg2 : arg2.IsWhole) (arg3 : Memref sig .tc .vmem S1x1 .f32) (harg3 : arg3.IsWhole)
    (arg4 : Memref sig .tc .vmem S1x1 .f32) (harg4 : arg4.IsWhole) (hc0 : ¬cond1_0 i) (hc1 : cond1_1 i)
    (x : Vec F S8192x8 .f32) (l : Vec F S8192x1 .i32) (a : Vec F S1x1 .f32) (E : Set ℕ) (K : PUnit → sProp 𝕄) :
    iprop(owns (c : Thread nD τ) arg1 fullShare x ∗ owns (c : Thread nD τ) arg2 fullShare l ∗ (∃ d, owns (c : Thread nD τ) arg3 fullShare d)
        ∗ owns (c : Thread nD τ) arg4 fullShare a
        ∗ (iprop(owns (c : Thread nD τ) arg1 fullShare x ∗ owns (c : Thread nD τ) arg2 fullShare l ∗ owns (c : Thread nD τ) arg3 fullShare (k1_pay1 (k1_pay4 x l) (k1_pay5 l) (k1_pay6 (F := F)) a)
            ∗ owns (c : Thread nD τ) arg4 fullShare (k1_pay1 (k1_pay4 x l) (k1_pay5 l) (k1_pay6 (F := F)) a)) -∗ K ⟨⟩))
      ⊢ wp frame (wpE (defs₀ (F := F)) Variants.none c none) E (cc1__focal_sum_kernel i arg1 harg1 arg2 harg2 arg3 harg3 arg4 harg4) K := by
  simp only [cc1__focal_sum_kernel_eq_skeleton]; unfold cc1__focal_sum_kernel_skel
  simp only [k1_part1_eq_skeleton]; unfold k1_part1_skel
  unfold owns
  iintro ⟨⟨%f1, %hf1, H1⟩, ⟨%f2, %hf2, H2⟩, ⟨%d3, %f3, -, H3⟩, ⟨%f4, %hf4, H4⟩, Hk⟩
  obtain rfl := harg1.eq_unread hf1; obtain rfl := harg2.eq_unread hf2; obtain rfl := harg4.eq_unread hf4
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    refine (read_writes_wholeUnit (S := S1x1) _ _ offsZero _ _ _).trans ?_
    unfold runC1.sl.v53 runC1.sl.H4_1
    rw [readCov_wholeUnit (S := S1x1)]
    dsimp only
    rw [readAt_wholeUnit (S := S8192x8) arg1 harg1 offsZero, readAt_wholeUnit (S := S8192x1) arg2 harg2 offsZero,
      readAt_wholeUnit (S := S1x1) arg4 harg4 offsZero]
  iexists _; isplitr
  swap; · iexact H4
  ipureintro
  unfold runC1.sl.H4_1
  refine (read_writes_wholeUnit (S := S1x1) _ _ offsZero _ _ _).trans ?_
  dsimp only
  rw [readAt_wholeUnit (S := S8192x8) arg1 harg1 offsZero, readAt_wholeUnit (S := S8192x1) arg2 harg2 offsZero,
    readAt_wholeUnit (S := S1x1) arg4 harg4 offsZero]

/-- info: 'Cert.Kernel.Hand.runA1' depends on axioms: [propext, Classical.choice, Quot.sound] -/
#guard_msgs in #print axioms runA1
/-- info: 'Cert.Kernel.Hand.runB1' depends on axioms: [propext, Classical.choice, Quot.sound] -/
#guard_msgs in #print axioms runB1
/-- info: 'Cert.Kernel.Hand.runC1' depends on axioms: [propext, Classical.choice, Quot.sound] -/
#guard_msgs in #print axioms runC1

end Cert.Kernel.Hand

end
-- ==== Proof.K.Region1.lean ====
/-
  The second task's kernel region (pipeline 1): per grid point one block of 8192 rows of logits and labels is
  loaded, each row's weighted focal term computed, the block's terms summed and added into a one-word scratch
  accumulator, which the first point resets and the last point copies to the one-word output.
-/
import proofs.«411030_j52819507806486_2_alg».proof.Proof.Gen.Kernel.Launch
import proofs.«411030_j52819507806486_2_alg».proof.Proof.Gen.Kernel.Skeleton
import proofs.«411030_j52819507806486_2_alg».proof.Proof.Gen.Kernel.Points
import proofs.«411030_j52819507806486_2_alg».proof.Proof.K.Region1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the region's entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One point's update of the accumulator: the previous sum plus the block's summed terms. -/
def step1 (x : Vec F S8192x8 .f32) (l : Vec F S8192x1 .i32) (a : Vec F S1x1 .f32) : Vec F S1x1 .f32 :=
  k1_pay1 (k1_pay4 x l) (k1_pay5 l) (k1_pay6 (F := F)) a

/-- The accumulator after point `n`: the blocks' sums added in order, from zero. -/
def accAt1 (c : Dev nD) : (n : ℕ) → n < cfg1.N → Vec F S1x1 .f32
  | 0, hn => step1 (iblk1 V c 0 ⟨0, hn⟩) (iblk1 V c 1 ⟨0, hn⟩) (k1_pay2 (F := F))
  | n + 1, hn => step1 (iblk1 V c 0 ⟨n + 1, hn⟩) (iblk1 V c 1 ⟨n + 1, hn⟩) (accAt1 c n (Nat.lt_of_succ_lt hn))

/-- After the first point: the first block's sum added to zero. -/
theorem accAt1_first (c : Dev nD) (t : Fin cfg1.N) (hz : t.val = 0) :
    accAt1 V c t.val t.isLt = step1 (iblk1 V c 0 t) (iblk1 V c 1 t) (k1_pay2 (F := F)) := by
  obtain ⟨n, hn⟩ := t
  cases n with
  | zero => rfl
  | succ n => exact absurd hz (Nat.succ_ne_zero n)

/-- After a later point: the block's sum added to what the point before left. -/
theorem accAt1_later (c : Dev nD) (t : Fin cfg1.N) (hz : t.val ≠ 0) :
    accAt1 V c t.val t.isLt
      = step1 (iblk1 V c 0 t) (iblk1 V c 1 t) (accAt1 V c (t.val - 1) (Nat.lt_of_le_of_lt (Nat.sub_le _ _) t.isLt)) := by
  obtain ⟨n, hn⟩ := t
  cases n with
  | zero => exact absurd rfl hz
  | succ n => rfl

/-! ## The invariant -/

/-- The core's scoped buffers other than this pipeline's staging buffers and its accumulator, at some contents each:
    carried through the region unopened. -/
def rest1 (c : Dev nD) : sProp 𝕄 :=
  Pipeline.scopedRestBut (Ix := Unit) (Name := ℕ) (U := UR sig nD τ) (Lvl := ℕ) (Val := Elt F) spec1 c [cc1_scratch0]

/-- What the launch hands the region, with the accumulator set apart as a memref owned at some contents. -/
theorem PhiA1_eq (c : Dev nD) :
    (Pipeline.ΦA spec1 c : sProp 𝕄)
      = iprop(iprop((∃ d, owns (c : Thread nD τ) scM1 fullShare d) ∗ rest1 (F := F) c) ∗ (∃ r, prngReg c r)) := by
  unfold Pipeline.ΦA rest1
  rw [Pipeline.scopedRest_split_of_list spec1 c [cc1_scratch0] (by decide) (by decide)]
  simp only [bigSepL_singleton, scM1, owns_whole]
  rfl

/-- The invariant before position `n`: before the first point what the launch hands over (the accumulator at
    anything); afterwards the accumulator at the sum of the points so far, beside the other scoped buffers and the
    generator register. -/
def PhiS1 (c : Dev nD) : (n : ℕ) → n ≤ cfg1.N → sProp 𝕄
  | 0, _ => Pipeline.ΦA spec1 c
  | n + 1, hn => iprop(iprop(owns (c : Thread nD τ) scM1 fullShare (accAt1 V c n hn) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn
      = iprop(iprop(owns (c : Thread nD τ) scM1 fullShare (accAt1 V c n hn) ∗ rest1 (F := F) c) ∗ (∃ r, prngReg c r)) := rfl

theorem PhiS1_pos (c : Dev nD) (n : ℕ) (h : n ≤ cfg1.N) (hz : n ≠ 0) :
    PhiS1 V c n h
      = iprop(iprop(owns (c : Thread nD τ) scM1 fullShare (accAt1 V c (n - 1) (by omega)) ∗ rest1 (F := F) c) ∗ (∃ r, prngReg c r)) := by
  cases n with
  | zero => exact absurd rfl hz
  | succ n => rfl

/-! ## The proof data -/

/-- The region's proof data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt1 V c t.val t.isLt := by dsimp only [dat1]

/-- Each input's current staging buffer holds its block at every point, fetched there or not: an input the body
    leaves in place, uncut and never idle. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

/-- The inputs are live at every point: the body leaves their buffers at their blocks. -/
theorem leaves1_0 (c : Dev nD) (t : Fin cfg1.N) :
    (dat1 V c).leavesExact 0 t = owns (c : Thread nD τ) (st1_0 t) fullShare (iblk1 V c 0 t) := by
  rw [← after1_0]
theorem leaves1_1 (c : Dev nD) (t : Fin cfg1.N) :
    (dat1 V c).leavesExact 1 t = owns (c : Thread nD τ) (st1_1 t) fullShare (iblk1 V c 1 t) := by
  rw [← after1_1]

set_option maxHeartbeats 4000000 in
/-- The body at any point, by the point's place in the grid.  The inputs' buffers hold their blocks.  At the first
    point the invariant hands over the accumulator at anything and takes it back at the first block's sum; at a
    later point it hands it over at what the point before left and takes it back with this block's sum added.  Off
    the last point the output's buffer is idle and handed back untouched; at the last point it is live and left at
    the accumulator's final contents.  The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [leaves1_0, leaves1_1]
  have hN : t.val < 512 := lt_of_lt_of_eq t.isLt (show cfg1.N = 512 from N_1)
  by_cases hz : t.val = 0
  · -- the first point
    have hl : ¬t.val = 511 := by omega
    have hc0 : cond1_0 (grid1.coords t) := (hcond1_0 t).mpr hz
    have hc1 : ¬cond1_1 (grid1.coords t) := fun h => hl ((hcond1_1 t).mp h)
    rw [Dat.leavesExact_idle (dat1 V c) 2 t (idleAt1_2 t hc1) (noFlush1_2 t hc1)]
    rw [PhiS1_castSucc V c t, PhiS1_zero V c _ _ hz, PhiA1_eq, accAt1_first V c t hz]
    unfold step1
    iintro ⟨⟨⟨HS, Hr⟩, Hg⟩, Ho, ⟨%d0, H0⟩, ⟨%d1, H1⟩, ⟨%d2, H2⟩⟩
    iapply (runA1 c (grid1.coords t) _ _ _ _ _ _ _ _ hc0 hc1 (iblk1 V c 0 t) (iblk1 V c 1 t) _ Set.univ _)
    isplitl [H0]; · iexact H0
    isplitl [H1]; · iexact H1
    isplitl [H2]; · iexact H2
    isplitl [HS]; · iexact HS
    iintro ⟨H0, H1, H2, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    iexists _; iexact H2
  · have hc0 : ¬cond1_0 (grid1.coords t) := fun h => hz ((hcond1_0 t).mp h)
    rw [PhiS1_castSucc V c t, PhiS1_pos V c _ _ hz, accAt1_later V c t hz]
    unfold step1
    by_cases hl : t.val = 511
    · -- the last point
      have hc1 : cond1_1 (grid1.coords t) := (hcond1_1 t).mpr hl
      rw [show (dat1 V c).leavesExact 2 t = owns (c : Thread nD τ) (st1_2 t) fullShare ((dat1 V c).after 2 t) from by
        unfold Dat.leavesExact; rw [liveAt1_2 t hc1], after1_2, accAt1_later V c t hz]
      unfold step1
      iintro ⟨⟨⟨HS, Hr⟩, Hg⟩, Ho, ⟨%d0, H0⟩, ⟨%d1, H1⟩, ⟨%d2, H2⟩⟩
      iapply (runC1 c (grid1.coords t) _ _ _ _ _ _ _ _ hc0 hc1 (iblk1 V c 0 t) (iblk1 V c 1 t) _ Set.univ _)
      isplitl [H0]; · iexact H0
      isplitl [H1]; · iexact H1
      isplitl [H2]; · iexists _; iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · -- a middle point
      have hc1 : ¬cond1_1 (grid1.coords t) := fun h => hl ((hcond1_1 t).mp h)
      rw [Dat.leavesExact_idle (dat1 V c) 2 t (idleAt1_2 t hc1) (noFlush1_2 t hc1)]
      iintro ⟨⟨⟨HS, Hr⟩, Hg⟩, Ho, ⟨%d0, H0⟩, ⟨%d1, H1⟩, ⟨%d2, H2⟩⟩
      iapply (runB1 c (grid1.coords t) _ _ _ _ _ _ _ _ hc0 hc1 (iblk1 V c 0 t) (iblk1 V c 1 t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the launch's back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 512 := N_1; omega), PhiA1_eq]
  iintro ⟨⟨HS, Hr⟩, Hg⟩
  isplitl [HS Hr]
  · isplitl [HS]
    · iexists _; iexact HS
    iexact Hr
  iexact Hg

/-- What the region leaves in the output's array: the accumulator after the last point. -/
theorem arrAt1_out (c : Dev nD) : (dat1 V c).arrAt 2 cfg1.N = accAt1 V c 511 (by decide) := by
  -- only the last point writes the output's block back, so no two flushing points' blocks can meet
  have hN : cfg1.N = 512 := N_1
  have hdisj : ∀ t t' : Fin cfg1.N, (cfg1.win 2).flush t = true → (cfg1.win 2).flush t' = true → t ≠ t' →
      Disjoint ((cfg1.win 2).blk t).view.set ((cfg1.win 2).blk t').view.set := fun t t' hf hf' hne => by
    exfalso; apply hne; apply Fin.ext
    have h1 := (flush1_2 t).mp hf; have h2 := (flush1_2 t').mp hf'
    have := t.isLt; have := t'.isLt
    omega
  have hf : (cfg1.win 2).flush (⟨511, by decide⟩ : Fin cfg1.N) = true := (flush1_2 _).mpr (by decide)
  funext i
  have e := (dat1 V c).arrAt_emb_eq_flushed 2 hdisj ⟨511, by decide⟩ hf i
  refine ((congrArg ((dat1 V c).arrAt 2 cfg1.N) (idxUnit_eq _ _)).trans e).trans ?_
  simp only [cast_eq]
  -- what the last point writes back is what the body left there, the block being uncut
  have hfl : (dat1 V c).flushed 2 (⟨511, by decide⟩ : Fin cfg1.N)
      = (cfg1.win 2).cut (grid1.coords (⟨511, by decide⟩ : Fin cfg1.N)) (accAt1 V c 511 (by decide)) := by
    show (cfg1.win 2).cut (grid1.coords _) ((dat1 V c).after 2 _) = _
    rw [after1_2]
  rw [hfl]
  rfl

/-- The input arrays are left as found. -/
theorem arrAt1_in0 (c : Dev nD) : (dat1 V c).arrAt 0 cfg1.N = V c (Pipeline.arrRef spec1 0) :=
  ((dat1 V c).arrAt_in 0 rfl _).trans (A_eq1 V c 0)
theorem arrAt1_in1 (c : Dev nD) : (dat1 V c).arrAt 1 cfg1.N = V c (Pipeline.arrRef spec1 1) :=
  ((dat1 V c).arrAt_in 1 rfl _).trans (A_eq1 V c 1)

/-- info: 'Cert.Kernel.Hand.body_obligation1' depends on axioms: [propext, Classical.choice, Quot.sound] -/
#guard_msgs in #print axioms body_obligation1
/-- info: 'Cert.Kernel.Hand.hin1' depends on axioms: [propext, Classical.choice, Quot.sound] -/
#guard_msgs in #print axioms hin1
/-- info: 'Cert.Kernel.Hand.hout1' depends on axioms: [propext, Classical.choice, Quot.sound] -/
#guard_msgs in #print axioms hout1
/-- info: 'Cert.Kernel.Hand.arrAt1_out' depends on axioms: [propext, Classical.choice, Quot.sound] -/
#guard_msgs in #print axioms arrAt1_out
/-- info: 'Cert.Kernel.Hand.arrAt1_in0' depends on axioms: [propext, Classical.choice, Quot.sound] -/
#guard_msgs in #print axioms arrAt1_in0
/-- info: 'Cert.Kernel.Hand.arrAt1_in1' depends on axioms: [propext, Classical.choice, Quot.sound] -/
#guard_msgs in #print axioms arrAt1_in1

end Cert.Kernel.Hand

end
-- ==== Proof.K.Run.lean ====
/-
  The run of @main: three stretches of host operations around the two kernel regions. The contents of every
  unscoped TensorCore buffer are folded through @main from the launch memory, boundary by boundary: a host stretch
  rewrites the buffers its operations write, a kernel region leaves in its windows' arrays what its write-backs
  fold to and every other buffer as entered. Each region's proof data are taken at the contents the fold gives at
  its entry. The run then ends with every unscoped buffer at the last valuation of the fold, from which the
  argument arrays read back to their launch contents.
-/
import proofs.«411030_j52819507806486_2_alg».proof.Proof.K.Region0
import proofs.«411030_j52819507806486_2_alg».proof.Proof.K.Region1
import proofs.«411030_j52819507806486_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core `c`'s buffers at launch. -/
abbrev W0 (m : (ℓ : Loc nD τ sig) → Buf (Elt F) ℓ) (ρ : Dev nD → PrngReg) : Dev nD → Valuation τ sig (Elt F) :=
  fun c b => m ((c : Dev nD), b)
/-- After the first host stretch (region 0's entry). -/
abbrev W1 : Dev nD → Valuation τ sig (Elt F) := fun c => StableHlo.after hostOps0 (W0 m ρ c)
/-- The same read at the TensorCore's references: the entry contents of region 0. -/
abbrev V1 : (c : Dev nD) → (b : Ref sig .tc) → Buf (Elt F) ((c : Thread nD τ).loc b) := fun c b => W1 m ρ c b
/-- At region 0's exit: its windows' arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
/-- The same read at the TensorCore's references: the entry contents of region 1. -/
abbrev V3 : (c : Dev nD) → (b : Ref sig .tc) → Buf (Elt F) ((c : Thread nD τ).loc b) := fun c b => W3 m ρ c b
/-- At region 1's exit: its windows' arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch: the contents @main returns with. -/
abbrev W5 : Dev nD → Valuation τ sig (Elt F) := fun c => StableHlo.after hostOps2 (W4 m ρ c)

/-! ### The arguments end as launched: no host operation writes one, and a region leaves its input arrays as found -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (arrAt0_in0 (V1 m ρ) c)
    _ = W0 m ρ c (Proc.devRef .tc main_arg0) := StableHlo.after_of_writes_sub hostOps0 _ hostOps0_writes (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide)
    _ = W3 m ρ c (Proc.devRef .tc main_arg2) := (W4_arr m ρ c 0).trans (arrAt1_in0 (V3 m ρ) c)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-! ### The regions' entry contents at their input arrays -/

/-- Region 0 finds the first task's logits as launched. -/
theorem V1_main_arg0 (c : Dev nD) : V1 m ρ c main_arg0 = m ((c : Thread nD τ).loc main_arg0) :=
  StableHlo.after_of_writes_sub hostOps0 _ hostOps0_writes (by decide)

/-- Region 0 finds the first task's labels as a column: the launch contents reshaped. -/
theorem V1_main_v0 (c : Dev nD) :
    V1 m ρ c main_v0 = fun i => shapeCast S4194304x1 (m ((c : Thread nD τ).loc main_arg1)) shapeCasts_S4194304_S4194304x1 i := by
  show StableHlo.after hostOps0 (W0 m ρ c) (Proc.devRef .tc main_v0) = _
  dsimp only [hostOps0]
  after_results
  rfl

/-- Region 1 finds the second task's logits as launched. -/
theorem V3_main_arg2 (c : Dev nD) : V3 m ρ c main_arg2 = m ((c : Thread nD τ).loc main_arg2) :=
  calc W3 m ρ c (Proc.devRef .tc main_arg2)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-- Region 1 finds the second task's labels as a column: the launch contents reshaped. -/
theorem V3_main_v4 (c : Dev nD) :
    V3 m ρ c main_v4 = fun i => shapeCast S4194304x1 (m ((c : Thread nD τ).loc main_arg3)) shapeCasts_S4194304_S4194304x1 i := by
  have e : W2 m ρ c (Proc.devRef .tc main_arg3) = m ((c : Thread nD τ).loc main_arg3) :=
    (W2_of_ne m ρ c main_arg3 (by decide)).trans (StableHlo.after_of_writes_sub hostOps0 _ hostOps0_writes (by decide))
  show StableHlo.after hostOps1 (W2 m ρ c) (Proc.devRef .tc main_v4) = _
  dsimp only [hostOps1]
  after_results
  rw [e]
  rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at the stretch's fold of `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W5 m ρ c) ∗ ∃ r, prngReg c r)

/-! ## The regions as segments -/

-- a library lemma stated over a pinned configuration unifies with the printed one only when unification may unfold
-- plain definitions in a metavariable's type
set_option backward.isDefEq.respectTransparency.types false in
/-- Region 0 over the thread state: entered from every unscoped buffer at `W1`, left at `W2`. Its windows'
    arrays are split out of the unscoped buffers and put back at the exit contents; the generator register and the
    scoped buffers no window stages enter the region's invariant (which carries the accumulator's scratch among them)
    and come back out of it; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration unifies with the printed one only when unification may unfold
-- plain definitions in a metavariable's type
set_option backward.isDefEq.respectTransparency.types false in
/-- Region 1 over the thread state: entered from every unscoped buffer at `W3`, left at `W4`. Its windows'
    arrays are split out of the unscoped buffers and put back at the exit contents; the generator register and the
    scoped buffers no window stages enter the region's invariant (which carries the accumulator's scratch among them)
    and come back out of it; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main is the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: from any memory with zero counters every weakly fair execution of @main on the TensorCores terminates,
    and every final memory holds each unscoped TensorCore buffer at the last valuation of the fold. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ (iprop(Tₙ m ρ c ∗ ∃ W, owes (c : Thread nD τ) (0 : CellTallies nD τ sig Unit) W) : sProp 𝕄)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- THE FRAME: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩) (run_all m ρ)

end Cert.Kernel.Hand

end
-- ==== Proof.KI.Common.lean ====
/-
  Facts about a buffer that is loaded and stored WHOLE (through the unit rectangle at zero offsets of the buffer's
  own sizes): such a load reads the buffer's contents, such a store leaves its payload whatever was written before,
  and a load after such a store reads the payload.  Shared by the two kernel regions.
-/
import Idealize.ShloMosaic.Lib.Pipeline.FrameBody
import Idealize.ShloMosaic.Lib.Pipeline.Value

noncomputable section

namespace Cert.KernelIdeal.Hand

open Idealize.ShloMosaic
open Idealize.SL Idealize.SL.Sem

/-- The offsets of a rank-two whole-buffer access are all zero. -/
theorem offsZero : (![0, 0] : Fin 2 → ℕ) = fun _ => 0 := by funext a; fin_cases a <;> rfl

/-- A one-by-one shape has one index. -/
theorem idxUnit_eq (x y : (⟨2, ![1, 1]⟩ : Shape).Idx) : x = y :=
  Shape.idx_ext₂
    (by have hx : (x 0 : ℕ) < 1 := (x 0).isLt; have hy : (y 0 : ℕ) < 1 := (y 0).isLt; omega)
    (by have hx : (x 1 : ℕ) < 1 := (x 1).isLt; have hy : (y 1 : ℕ) < 1 := (y 1).isLt; omega)

variable {sig : RefSig} {κ : Kind} {sp : Space} {S : Shape} {e : EltTy} {Val : EltTy → Type}

/-- A whole-buffer load of a whole memref that reads `X` reads `X`. -/
theorem readAt_wholeUnit (m : Memref sig κ sp S e) (hm : m.IsWhole) {off : Fin S.rank → ℕ} (h : off = fun _ => 0)
    (inb : ∀ a, off a + S.size a ≤ S.size a) (X : S.Idx → Val e) :
    View.readAt Val m.view (Rect.unit off S.size inb).toLoadRect (hm.unread X) = X := by
  show View.ld (m.view.read Val (hm.unread X)) (Rect.unit off S.size inb) = X
  rw [hm.read_unread, View.ld_unit_zero h]

/-- After a whole-buffer store, made last, the buffer reads the store's payload. -/
theorem read_writes_wholeUnit [∀ e, Nonempty (Val e)] (v : View sig κ sp S e) (f : v.ty.Contents Val) {off : Fin S.rank → ℕ}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

/-- A whole-buffer load after a whole-buffer store, made last, reads the store's payload. -/
theorem readCov_wholeUnit [∀ e, Nonempty (Val e)] (v : View sig κ sp S e) {off : Fin S.rank → ℕ}
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w :=
  View.readCov_cons_toLoadRect v (Rect.unit off S.size inb) w L

end Cert.KernelIdeal.Hand

end
-- ==== Proof.KI.Region0Runs.lean ====
/-
  The first task's kernel body run on one grid point, in each of its three control cases: the first point (the
  accumulator is zeroed, then the block's sum added), a middle point (the block's sum added to what the point before
  left), and the last point (the same, and the accumulator copied to the output's buffer).
-/
import proofs.«411030_j52819507806486_2_alg».proof.Proof.Gen.KernelIdeal.Launch
import proofs.«411030_j52819507806486_2_alg».proof.Proof.Gen.KernelIdeal.Skeleton
import proofs.«411030_j52819507806486_2_alg».proof.Proof.Gen.KernelIdeal.Points
import proofs.«411030_j52819507806486_2_alg».proof.Proof.KI.Common
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two tests, decided over the grid -/

/-- The test "this is the first point", as the body computes it from the grid coordinate. -/
abbrev cond0_0 (i : grid0.Coords) : Prop :=
  (Scalar.cmpi .ne (Scalar.extui (Scalar.cmpi .eq (BitVec.ofNat 32 (i 0).val) 0#32)) 0#32) = 1#1
/-- It holds at point 0 only. -/
theorem hcond0_0 : ∀ t : Fin cfg0.N, cond0_0 (grid0.coords t) ↔ t.val = 0 :=
  (by decide +kernel : ∀ t : Fin grid0.N, cond0_0 (grid0.coords t) ↔ t.val = 0)

/-- The test "this is the last point". -/
abbrev cond0_1 (i : grid0.Coords) : Prop := k0_cond2 i = 1#1
/-- It holds at point 511 only. -/
theorem hcond0_1 : ∀ t : Fin cfg0.N, cond0_1 (grid0.coords t) ↔ t.val = 511 :=
  (by decide +kernel : ∀ t : Fin grid0.N, cond0_1 (grid0.coords t) ↔ t.val = 511)

/-! ## Where the output window is idle -/

/-- Off the last point the output window is idle: the body stores nothing into it there, -/
theorem idleAt0_2 : ∀ t : Fin cfg0.N, ¬cond0_1 (grid0.coords t) → cfg0.idle 2 (grid0.coords t) = true := by decide +kernel
/-- and the pipeline does not write it back there. -/
theorem noFlush0_2 : ∀ t : Fin cfg0.N, ¬cond0_1 (grid0.coords t) → (cfg0.win 2).flush t = false := by decide +kernel
/-- At the last point it is live. -/
theorem liveAt0_2 : ∀ t : Fin cfg0.N, cond0_1 (grid0.coords t) → cfg0.idle 2 (grid0.coords t) = false := by decide +kernel

/-! ## The accumulator's memref -/

/-- The scratch accumulator the body carries from point to point, as a memref. -/
abbrev scM0 : Memref sig .tc .vmem S1x1 .f32 := Memref.whole cc0_scratch0

/-! ## The three runs

Each run executes the body's loads and stores in order.  Every access is of a whole buffer, so a load reads the
buffer's contents (or the payload of the store made just before) and the last store's payload is what the buffer
holds afterwards. -/

set_option maxHeartbeats 1000000 in
/-- THE FIRST POINT. From the logits block `x`, the labels block `l`, the output's buffer at `o` and the
    accumulator at anything, the body leaves the blocks and the output's buffer as they were and the accumulator at
    the block's sum added to zero. -/
theorem runA0 (c : Dev nD) (i : grid0.Coords) (arg1 : Memref sig .tc .vmem S8192x8 .f32) (harg1 : arg1.IsWhole)
    (arg2 : Memref sig .tc .vmem S8192x1 .i32) (harg2 : arg2.IsWhole) (arg3 : Memref sig .tc .vmem S1x1 .f32) (harg3 : arg3.IsWhole)
    (arg4 : Memref sig .tc .vmem S1x1 .f32) (harg4 : arg4.IsWhole) (hc0 : cond0_0 i) (hc1 : ¬cond0_1 i)
    (x : Vec F S8192x8 .f32) (l : Vec F S8192x1 .i32) (o : Vec F S1x1 .f32) (E : Set ℕ) (K : PUnit → sProp 𝕄) :
    iprop(owns (c : Thread nD τ) arg1 fullShare x ∗ owns (c : Thread nD τ) arg2 fullShare l ∗ owns (c : Thread nD τ) arg3 fullShare o
        ∗ (∃ d, owns (c : Thread nD τ) arg4 fullShare d)
        ∗ (iprop(owns (c : Thread nD τ) arg1 fullShare x ∗ owns (c : Thread nD τ) arg2 fullShare l ∗ owns (c : Thread nD τ) arg3 fullShare o
            ∗ owns (c : Thread nD τ) arg4 fullShare (k0_pay1 (k0_pay4 x l) (k0_pay5 l) (k0_pay6 (F := F)) (k0_pay2 (F := F)))) -∗ K ⟨⟩))
      ⊢ wp frame (wpE (defs₀ (F := F)) Variants.none c none) E (cc0__focal_sum_kernel i arg1 harg1 arg2 harg2 arg3 harg3 arg4 harg4) K := by
  simp only [cc0__focal_sum_kernel_eq_skeleton]; unfold cc0__focal_sum_kernel_skel
  simp only [k0_part1_eq_skeleton]; unfold k0_part1_skel
  unfold owns
  iintro ⟨⟨%f1, %hf1, H1⟩, ⟨%f2, %hf2, H2⟩, ⟨%f3, %hf3, H3⟩, ⟨%d4, %f4, -, H4⟩, Hk⟩
  obtain rfl := harg1.eq_unread hf1; obtain rfl := harg2.eq_unread hf2; obtain rfl := harg3.eq_unread hf3
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  iexists _; isplitr
  swap; · iexact H4
  ipureintro
  refine (read_writes_wholeUnit (S := S1x1) _ _ offsZero _ _ _).trans ?_
  dsimp only
  rw [readAt_wholeUnit (S := S8192x8) arg1 harg1 offsZero, readAt_wholeUnit (S := S8192x1) arg2 harg2 offsZero]
  unfold runA0.sl.v45 runA0.sl.H4_1
  rw [readCov_wholeUnit (S := S1x1)]

set_option maxHeartbeats 1000000 in
/-- A MIDDLE POINT. With the accumulator at `a`, the body leaves it at the block's sum added to `a`; the blocks and
    the output's buffer stay as they were. -/
theorem runB0 (c : Dev nD) (i : grid0.Coords) (arg1 : Memref sig .tc .vmem S8192x8 .f32) (harg1 : arg1.IsWhole)
    (arg2 : Memref sig .tc .vmem S8192x1 .i32) (harg2 : arg2.IsWhole) (arg3 : Memref sig .tc .vmem S1x1 .f32) (harg3 : arg3.IsWhole)
    (arg4 : Memref sig .tc .vmem S1x1 .f32) (harg4 : arg4.IsWhole) (hc0 : ¬cond0_0 i) (hc1 : ¬cond0_1 i)
    (x : Vec F S8192x8 .f32) (l : Vec F S8192x1 .i32) (o : Vec F S1x1 .f32) (a : Vec F S1x1 .f32) (E : Set ℕ) (K : PUnit → sProp 𝕄) :
    iprop(owns (c : Thread nD τ) arg1 fullShare x ∗ owns (c : Thread nD τ) arg2 fullShare l ∗ owns (c : Thread nD τ) arg3 fullShare o
        ∗ owns (c : Thread nD τ) arg4 fullShare a
        ∗ (iprop(owns (c : Thread nD τ) arg1 fullShare x ∗ owns (c : Thread nD τ) arg2 fullShare l ∗ owns (c : Thread nD τ) arg3 fullShare o
            ∗ owns (c : Thread nD τ) arg4 fullShare (k0_pay1 (k0_pay4 x l) (k0_pay5 l) (k0_pay6 (F := F)) a)) -∗ K ⟨⟩))
      ⊢ wp frame (wpE (defs₀ (F := F)) Variants.none c none) E (cc0__focal_sum_kernel i arg1 harg1 arg2 harg2 arg3 harg3 arg4 harg4) K := by
  simp only [cc0__focal_sum_kernel_eq_skeleton]; unfold cc0__focal_sum_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, Hk⟩
  obtain rfl := harg1.eq_unread hf1; obtain rfl := harg2.eq_unread hf2; obtain rfl := harg3.eq_unread hf3
  obtain rfl := harg4.eq_unread hf4
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  iexists _; isplitr
  swap; · iexact H4
  ipureintro
  refine (read_writes_wholeUnit (S := S1x1) _ _ offsZero _ _ _).trans ?_
  dsimp only
  rw [readAt_wholeUnit (S := S8192x8) arg1 harg1 offsZero, readAt_wholeUnit (S := S8192x1) arg2 harg2 offsZero,
    readAt_wholeUnit (S := S1x1) arg4 harg4 offsZero]

set_option maxHeartbeats 1000000 in
/-- THE LAST POINT. As at a middle point, and the accumulator's new contents are copied to the output's buffer,
    whatever it held. -/
theorem runC0 (c : Dev nD) (i : grid0.Coords) (arg1 : Memref sig .tc .vmem S8192x8 .f32) (harg1 : arg1.IsWhole)
    (arg2 : Memref sig .tc .vmem S8192x1 .i32) (harg2 : arg2.IsWhole) (arg3 : Memref sig .tc .vmem S1x1 .f32) (harg3 : arg3.IsWhole)
    (arg4 : Memref sig .tc .vmem S1x1 .f32) (harg4 : arg4.IsWhole) (hc0 : ¬cond0_0 i) (hc1 : cond0_1 i)
    (x : Vec F S8192x8 .f32) (l : Vec F S8192x1 .i32) (a : Vec F S1x1 .f32) (E : Set ℕ) (K : PUnit → sProp 𝕄) :
    iprop(owns (c : Thread nD τ) arg1 fullShare x ∗ owns (c : Thread nD τ) arg2 fullShare l ∗ (∃ d, owns (c : Thread nD τ) arg3 fullShare d)
        ∗ owns (c : Thread nD τ) arg4 fullShare a
        ∗ (iprop(owns (c : Thread nD τ) arg1 fullShare x ∗ owns (c : Thread nD τ) arg2 fullShare l ∗ owns (c : Thread nD τ) arg3 fullShare (k0_pay1 (k0_pay4 x l) (k0_pay5 l) (k0_pay6 (F := F)) a)
            ∗ owns (c : Thread nD τ) arg4 fullShare (k0_pay1 (k0_pay4 x l) (k0_pay5 l) (k0_pay6 (F := F)) a)) -∗ K ⟨⟩))
      ⊢ wp frame (wpE (defs₀ (F := F)) Variants.none c none) E (cc0__focal_sum_kernel i arg1 harg1 arg2 harg2 arg3 harg3 arg4 harg4) K := by
  simp only [cc0__focal_sum_kernel_eq_skeleton]; unfold cc0__focal_sum_kernel_skel
  simp only [k0_part1_eq_skeleton]; unfold k0_part1_skel
  unfold owns
  iintro ⟨⟨%f1, %hf1, H1⟩, ⟨%f2, %hf2, H2⟩, ⟨%d3, %f3, -, H3⟩, ⟨%f4, %hf4, H4⟩, Hk⟩
  obtain rfl := harg1.eq_unread hf1; obtain rfl := harg2.eq_unread hf2; obtain rfl := harg4.eq_unread hf4
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    refine (read_writes_wholeUnit (S := S1x1) _ _ offsZero _ _ _).trans ?_
    unfold runC0.sl.v53 runC0.sl.H4_1
    rw [readCov_wholeUnit (S := S1x1)]
    dsimp only
    rw [readAt_wholeUnit (S := S8192x8) arg1 harg1 offsZero, readAt_wholeUnit (S := S8192x1) arg2 harg2 offsZero,
      readAt_wholeUnit (S := S1x1) arg4 harg4 offsZero]
  iexists _; isplitr
  swap; · iexact H4
  ipureintro
  unfold runC0.sl.H4_1
  refine (read_writes_wholeUnit (S := S1x1) _ _ offsZero _ _ _).trans ?_
  dsimp only
  rw [readAt_wholeUnit (S := S8192x8) arg1 harg1 offsZero, readAt_wholeUnit (S := S8192x1) arg2 harg2 offsZero,
    readAt_wholeUnit (S := S1x1) arg4 harg4 offsZero]

/-- info: 'Cert.KernelIdeal.Hand.runA0' depends on axioms: [propext, Classical.choice, Quot.sound] -/
#guard_msgs in #print axioms runA0
/-- info: 'Cert.KernelIdeal.Hand.runB0' depends on axioms: [propext, Classical.choice, Quot.sound] -/
#guard_msgs in #print axioms runB0
/-- info: 'Cert.KernelIdeal.Hand.runC0' depends on axioms: [propext, Classical.choice, Quot.sound] -/
#guard_msgs in #print axioms runC0

end Cert.KernelIdeal.Hand

end
-- ==== Proof.KI.Region0.lean ====
/-
  The first task's kernel region (pipeline 0): per grid point one block of 8192 rows of logits and labels is
  loaded, each row's weighted focal term computed, the block's terms summed and added into a one-word scratch
  accumulator, which the first point resets and the last point copies to the one-word output.
-/
import proofs.«411030_j52819507806486_2_alg».proof.Proof.Gen.KernelIdeal.Launch
import proofs.«411030_j52819507806486_2_alg».proof.Proof.Gen.KernelIdeal.Skeleton
import proofs.«411030_j52819507806486_2_alg».proof.Proof.Gen.KernelIdeal.Points
import proofs.«411030_j52819507806486_2_alg».proof.Proof.KI.Region0Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the region's entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- One point's update of the accumulator: the previous sum plus the block's summed terms. -/
def step0 (x : Vec F S8192x8 .f32) (l : Vec F S8192x1 .i32) (a : Vec F S1x1 .f32) : Vec F S1x1 .f32 :=
  k0_pay1 (k0_pay4 x l) (k0_pay5 l) (k0_pay6 (F := F)) a

/-- The accumulator after point `n`: the blocks' sums added in order, from zero. -/
def accAt0 (c : Dev nD) : (n : ℕ) → n < cfg0.N → Vec F S1x1 .f32
  | 0, hn => step0 (iblk0 V c 0 ⟨0, hn⟩) (iblk0 V c 1 ⟨0, hn⟩) (k0_pay2 (F := F))
  | n + 1, hn => step0 (iblk0 V c 0 ⟨n + 1, hn⟩) (iblk0 V c 1 ⟨n + 1, hn⟩) (accAt0 c n (Nat.lt_of_succ_lt hn))

/-- After the first point: the first block's sum added to zero. -/
theorem accAt0_first (c : Dev nD) (t : Fin cfg0.N) (hz : t.val = 0) :
    accAt0 V c t.val t.isLt = step0 (iblk0 V c 0 t) (iblk0 V c 1 t) (k0_pay2 (F := F)) := by
  obtain ⟨n, hn⟩ := t
  cases n with
  | zero => rfl
  | succ n => exact absurd hz (Nat.succ_ne_zero n)

/-- After a later point: the block's sum added to what the point before left. -/
theorem accAt0_later (c : Dev nD) (t : Fin cfg0.N) (hz : t.val ≠ 0) :
    accAt0 V c t.val t.isLt
      = step0 (iblk0 V c 0 t) (iblk0 V c 1 t) (accAt0 V c (t.val - 1) (Nat.lt_of_le_of_lt (Nat.sub_le _ _) t.isLt)) := by
  obtain ⟨n, hn⟩ := t
  cases n with
  | zero => exact absurd rfl hz
  | succ n => rfl

/-! ## The invariant -/

/-- The core's scoped buffers other than this pipeline's staging buffers and its accumulator, at some contents each:
    carried through the region unopened. -/
def rest0 (c : Dev nD) : sProp 𝕄 :=
  Pipeline.scopedRestBut (Ix := Unit) (Name := ℕ) (U := UR sig nD τ) (Lvl := ℕ) (Val := Elt F) spec0 c [cc0_scratch0]

/-- What the launch hands the region, with the accumulator set apart as a memref owned at some contents. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA rest0
  rw [Pipeline.scopedRest_split_of_list spec0 c [cc0_scratch0] (by decide) (by decide)]
  simp only [bigSepL_singleton, scM0, owns_whole]
  rfl

/-- The invariant before position `n`: before the first point what the launch hands over (the accumulator at
    anything); afterwards the accumulator at the sum of the points so far, beside the other scoped buffers and the
    generator register. -/
def PhiS0 (c : Dev nD) : (n : ℕ) → n ≤ cfg0.N → sProp 𝕄
  | 0, _ => Pipeline.ΦA spec0 c
  | n + 1, hn => iprop(iprop(owns (c : Thread nD τ) scM0 fullShare (accAt0 V c n hn) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn
      = iprop(iprop(owns (c : Thread nD τ) scM0 fullShare (accAt0 V c n hn) ∗ rest0 (F := F) c) ∗ (∃ r, prngReg c r)) := rfl

theorem PhiS0_pos (c : Dev nD) (n : ℕ) (h : n ≤ cfg0.N) (hz : n ≠ 0) :
    PhiS0 V c n h
      = iprop(iprop(owns (c : Thread nD τ) scM0 fullShare (accAt0 V c (n - 1) (by omega)) ∗ rest0 (F := F) c) ∗ (∃ r, prngReg c r)) := by
  cases n with
  | zero => exact absurd rfl hz
  | succ n => rfl

/-! ## The proof data -/

/-- The region's proof data. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => accAt0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = accAt0 V c t.val t.isLt := by dsimp only [dat0]

/-- Each input's current staging buffer holds its block at every point, fetched there or not: an input the body
    leaves in place, uncut and never idle. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

/-- The inputs are live at every point: the body leaves their buffers at their blocks. -/
theorem leaves0_0 (c : Dev nD) (t : Fin cfg0.N) :
    (dat0 V c).leavesExact 0 t = owns (c : Thread nD τ) (st0_0 t) fullShare (iblk0 V c 0 t) := by
  rw [← after0_0]
theorem leaves0_1 (c : Dev nD) (t : Fin cfg0.N) :
    (dat0 V c).leavesExact 1 t = owns (c : Thread nD τ) (st0_1 t) fullShare (iblk0 V c 1 t) := by
  rw [← after0_1]

set_option maxHeartbeats 4000000 in
/-- The body at any point, by the point's place in the grid.  The inputs' buffers hold their blocks.  At the first
    point the invariant hands over the accumulator at anything and takes it back at the first block's sum; at a
    later point it hands it over at what the point before left and takes it back with this block's sum added.  Off
    the last point the output's buffer is idle and handed back untouched; at the last point it is live and left at
    the accumulator's final contents.  The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [leaves0_0, leaves0_1]
  have hN : t.val < 512 := lt_of_lt_of_eq t.isLt (show cfg0.N = 512 from N_0)
  by_cases hz : t.val = 0
  · -- the first point
    have hl : ¬t.val = 511 := by omega
    have hc0 : cond0_0 (grid0.coords t) := (hcond0_0 t).mpr hz
    have hc1 : ¬cond0_1 (grid0.coords t) := fun h => hl ((hcond0_1 t).mp h)
    rw [Dat.leavesExact_idle (dat0 V c) 2 t (idleAt0_2 t hc1) (noFlush0_2 t hc1)]
    rw [PhiS0_castSucc V c t, PhiS0_zero V c _ _ hz, PhiA0_eq, accAt0_first V c t hz]
    unfold step0
    iintro ⟨⟨⟨HS, Hr⟩, Hg⟩, Ho, ⟨%d0, H0⟩, ⟨%d1, H1⟩, ⟨%d2, H2⟩⟩
    iapply (runA0 c (grid0.coords t) _ _ _ _ _ _ _ _ hc0 hc1 (iblk0 V c 0 t) (iblk0 V c 1 t) _ Set.univ _)
    isplitl [H0]; · iexact H0
    isplitl [H1]; · iexact H1
    isplitl [H2]; · iexact H2
    isplitl [HS]; · iexact HS
    iintro ⟨H0, H1, H2, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    iexists _; iexact H2
  · have hc0 : ¬cond0_0 (grid0.coords t) := fun h => hz ((hcond0_0 t).mp h)
    rw [PhiS0_castSucc V c t, PhiS0_pos V c _ _ hz, accAt0_later V c t hz]
    unfold step0
    by_cases hl : t.val = 511
    · -- the last point
      have hc1 : cond0_1 (grid0.coords t) := (hcond0_1 t).mpr hl
      rw [show (dat0 V c).leavesExact 2 t = owns (c : Thread nD τ) (st0_2 t) fullShare ((dat0 V c).after 2 t) from by
        unfold Dat.leavesExact; rw [liveAt0_2 t hc1], after0_2, accAt0_later V c t hz]
      unfold step0
      iintro ⟨⟨⟨HS, Hr⟩, Hg⟩, Ho, ⟨%d0, H0⟩, ⟨%d1, H1⟩, ⟨%d2, H2⟩⟩
      iapply (runC0 c (grid0.coords t) _ _ _ _ _ _ _ _ hc0 hc1 (iblk0 V c 0 t) (iblk0 V c 1 t) _ Set.univ _)
      isplitl [H0]; · iexact H0
      isplitl [H1]; · iexact H1
      isplitl [H2]; · iexists _; iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · -- a middle point
      have hc1 : ¬cond0_1 (grid0.coords t) := fun h => hl ((hcond0_1 t).mp h)
      rw [Dat.leavesExact_idle (dat0 V c) 2 t (idleAt0_2 t hc1) (noFlush0_2 t hc1)]
      iintro ⟨⟨⟨HS, Hr⟩, Hg⟩, Ho, ⟨%d0, H0⟩, ⟨%d1, H1⟩, ⟨%d2, H2⟩⟩
      iapply (runB0 c (grid0.coords t) _ _ _ _ _ _ _ _ hc0 hc1 (iblk0 V c 0 t) (iblk0 V c 1 t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the launch's back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 512 := N_0; omega), PhiA0_eq]
  iintro ⟨⟨HS, Hr⟩, Hg⟩
  isplitl [HS Hr]
  · isplitl [HS]
    · iexists _; iexact HS
    iexact Hr
  iexact Hg

/-- What the region leaves in the output's array: the accumulator after the last point. -/
theorem arrAt0_out (c : Dev nD) : (dat0 V c).arrAt 2 cfg0.N = accAt0 V c 511 (by decide) := by
  -- only the last point writes the output's block back, so no two flushing points' blocks can meet
  have hN : cfg0.N = 512 := N_0
  have hdisj : ∀ t t' : Fin cfg0.N, (cfg0.win 2).flush t = true → (cfg0.win 2).flush t' = true → t ≠ t' →
      Disjoint ((cfg0.win 2).blk t).view.set ((cfg0.win 2).blk t').view.set := fun t t' hf hf' hne => by
    exfalso; apply hne; apply Fin.ext
    have h1 := (flush0_2 t).mp hf; have h2 := (flush0_2 t').mp hf'
    have := t.isLt; have := t'.isLt
    omega
  have hf : (cfg0.win 2).flush (⟨511, by decide⟩ : Fin cfg0.N) = true := (flush0_2 _).mpr (by decide)
  funext i
  have e := (dat0 V c).arrAt_emb_eq_flushed 2 hdisj ⟨511, by decide⟩ hf i
  refine ((congrArg ((dat0 V c).arrAt 2 cfg0.N) (idxUnit_eq _ _)).trans e).trans ?_
  simp only [cast_eq]
  -- what the last point writes back is what the body left there, the block being uncut
  have hfl : (dat0 V c).flushed 2 (⟨511, by decide⟩ : Fin cfg0.N)
      = (cfg0.win 2).cut (grid0.coords (⟨511, by decide⟩ : Fin cfg0.N)) (accAt0 V c 511 (by decide)) := by
    show (cfg0.win 2).cut (grid0.coords _) ((dat0 V c).after 2 _) = _
    rw [after0_2]
  rw [hfl]
  rfl

/-- The input arrays are left as found. -/
theorem arrAt0_in0 (c : Dev nD) : (dat0 V c).arrAt 0 cfg0.N = V c (Pipeline.arrRef spec0 0) :=
  ((dat0 V c).arrAt_in 0 rfl _).trans (A_eq0 V c 0)
theorem arrAt0_in1 (c : Dev nD) : (dat0 V c).arrAt 1 cfg0.N = V c (Pipeline.arrRef spec0 1) :=
  ((dat0 V c).arrAt_in 1 rfl _).trans (A_eq0 V c 1)

/-- info: 'Cert.KernelIdeal.Hand.body_obligation0' depends on axioms: [propext, Classical.choice, Quot.sound] -/
#guard_msgs in #print axioms body_obligation0
/-- info: 'Cert.KernelIdeal.Hand.hin0' depends on axioms: [propext, Classical.choice, Quot.sound] -/
#guard_msgs in #print axioms hin0
/-- info: 'Cert.KernelIdeal.Hand.hout0' depends on axioms: [propext, Classical.choice, Quot.sound] -/
#guard_msgs in #print axioms hout0
/-- info: 'Cert.KernelIdeal.Hand.arrAt0_out' depends on axioms: [propext, Classical.choice, Quot.sound] -/
#guard_msgs in #print axioms arrAt0_out
/-- info: 'Cert.KernelIdeal.Hand.arrAt0_in0' depends on axioms: [propext, Classical.choice, Quot.sound] -/
#guard_msgs in #print axioms arrAt0_in0
/-- info: 'Cert.KernelIdeal.Hand.arrAt0_in1' depends on axioms: [propext, Classical.choice, Quot.sound] -/
#guard_msgs in #print axioms arrAt0_in1

end Cert.KernelIdeal.Hand

end
-- ==== Proof.KI.Region1Runs.lean ====
/-
  The second task's kernel body run on one grid point, in each of its three control cases: the first point (the
  accumulator is zeroed, then the block's sum added), a middle point (the block's sum added to what the point before
  left), and the last point (the same, and the accumulator copied to the output's buffer).
-/
import proofs.«411030_j52819507806486_2_alg».proof.Proof.Gen.KernelIdeal.Launch
import proofs.«411030_j52819507806486_2_alg».proof.Proof.Gen.KernelIdeal.Skeleton
import proofs.«411030_j52819507806486_2_alg».proof.Proof.Gen.KernelIdeal.Points
import proofs.«411030_j52819507806486_2_alg».proof.Proof.KI.Common
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two tests, decided over the grid -/

/-- The test "this is the first point", as the body computes it from the grid coordinate. -/
abbrev cond1_0 (i : grid1.Coords) : Prop :=
  (Scalar.cmpi .ne (Scalar.extui (Scalar.cmpi .eq (BitVec.ofNat 32 (i 0).val) 0#32)) 0#32) = 1#1
/-- It holds at point 0 only. -/
theorem hcond1_0 : ∀ t : Fin cfg1.N, cond1_0 (grid1.coords t) ↔ t.val = 0 :=
  (by decide +kernel : ∀ t : Fin grid1.N, cond1_0 (grid1.coords t) ↔ t.val = 0)

/-- The test "this is the last point". -/
abbrev cond1_1 (i : grid1.Coords) : Prop := k1_cond2 i = 1#1
/-- It holds at point 511 only. -/
theorem hcond1_1 : ∀ t : Fin cfg1.N, cond1_1 (grid1.coords t) ↔ t.val = 511 :=
  (by decide +kernel : ∀ t : Fin grid1.N, cond1_1 (grid1.coords t) ↔ t.val = 511)

/-! ## Where the output window is idle -/

/-- Off the last point the output window is idle: the body stores nothing into it there, -/
theorem idleAt1_2 : ∀ t : Fin cfg1.N, ¬cond1_1 (grid1.coords t) → cfg1.idle 2 (grid1.coords t) = true := by decide +kernel
/-- and the pipeline does not write it back there. -/
theorem noFlush1_2 : ∀ t : Fin cfg1.N, ¬cond1_1 (grid1.coords t) → (cfg1.win 2).flush t = false := by decide +kernel
/-- At the last point it is live. -/
theorem liveAt1_2 : ∀ t : Fin cfg1.N, cond1_1 (grid1.coords t) → cfg1.idle 2 (grid1.coords t) = false := by decide +kernel

/-! ## The accumulator's memref -/

/-- The scratch accumulator the body carries from point to point, as a memref. -/
abbrev scM1 : Memref sig .tc .vmem S1x1 .f32 := Memref.whole cc1_scratch0

/-! ## The three runs

Each run executes the body's loads and stores in order.  Every access is of a whole buffer, so a load reads the
buffer's contents (or the payload of the store made just before) and the last store's payload is what the buffer
holds afterwards. -/

set_option maxHeartbeats 1000000 in
/-- THE FIRST POINT. From the logits block `x`, the labels block `l`, the output's buffer at `o` and the
    accumulator at anything, the body leaves the blocks and the output's buffer as they were and the accumulator at
    the block's sum added to zero. -/
theorem runA1 (c : Dev nD) (i : grid1.Coords) (arg1 : Memref sig .tc .vmem S8192x8 .f32) (harg1 : arg1.IsWhole)
    (arg2 : Memref sig .tc .vmem S8192x1 .i32) (harg2 : arg2.IsWhole) (arg3 : Memref sig .tc .vmem S1x1 .f32) (harg3 : arg3.IsWhole)
    (arg4 : Memref sig .tc .vmem S1x1 .f32) (harg4 : arg4.IsWhole) (hc0 : cond1_0 i) (hc1 : ¬cond1_1 i)
    (x : Vec F S8192x8 .f32) (l : Vec F S8192x1 .i32) (o : Vec F S1x1 .f32) (E : Set ℕ) (K : PUnit → sProp 𝕄) :
    iprop(owns (c : Thread nD τ) arg1 fullShare x ∗ owns (c : Thread nD τ) arg2 fullShare l ∗ owns (c : Thread nD τ) arg3 fullShare o
        ∗ (∃ d, owns (c : Thread nD τ) arg4 fullShare d)
        ∗ (iprop(owns (c : Thread nD τ) arg1 fullShare x ∗ owns (c : Thread nD τ) arg2 fullShare l ∗ owns (c : Thread nD τ) arg3 fullShare o
            ∗ owns (c : Thread nD τ) arg4 fullShare (k1_pay1 (k1_pay4 x l) (k1_pay5 l) (k1_pay6 (F := F)) (k1_pay2 (F := F)))) -∗ K ⟨⟩))
      ⊢ wp frame (wpE (defs₀ (F := F)) Variants.none c none) E (cc1__focal_sum_kernel i arg1 harg1 arg2 harg2 arg3 harg3 arg4 harg4) K := by
  simp only [cc1__focal_sum_kernel_eq_skeleton]; unfold cc1__focal_sum_kernel_skel
  simp only [k1_part1_eq_skeleton]; unfold k1_part1_skel
  unfold owns
  iintro ⟨⟨%f1, %hf1, H1⟩, ⟨%f2, %hf2, H2⟩, ⟨%f3, %hf3, H3⟩, ⟨%d4, %f4, -, H4⟩, Hk⟩
  obtain rfl := harg1.eq_unread hf1; obtain rfl := harg2.eq_unread hf2; obtain rfl := harg3.eq_unread hf3
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  iexists _; isplitr
  swap; · iexact H4
  ipureintro
  refine (read_writes_wholeUnit (S := S1x1) _ _ offsZero _ _ _).trans ?_
  dsimp only
  rw [readAt_wholeUnit (S := S8192x8) arg1 harg1 offsZero, readAt_wholeUnit (S := S8192x1) arg2 harg2 offsZero]
  unfold runA1.sl.v45 runA1.sl.H4_1
  rw [readCov_wholeUnit (S := S1x1)]

set_option maxHeartbeats 1000000 in
/-- A MIDDLE POINT. With the accumulator at `a`, the body leaves it at the block's sum added to `a`; the blocks and
    the output's buffer stay as they were. -/
theorem runB1 (c : Dev nD) (i : grid1.Coords) (arg1 : Memref sig .tc .vmem S8192x8 .f32) (harg1 : arg1.IsWhole)
    (arg2 : Memref sig .tc .vmem S8192x1 .i32) (harg2 : arg2.IsWhole) (arg3 : Memref sig .tc .vmem S1x1 .f32) (harg3 : arg3.IsWhole)
    (arg4 : Memref sig .tc .vmem S1x1 .f32) (harg4 : arg4.IsWhole) (hc0 : ¬cond1_0 i) (hc1 : ¬cond1_1 i)
    (x : Vec F S8192x8 .f32) (l : Vec F S8192x1 .i32) (o : Vec F S1x1 .f32) (a : Vec F S1x1 .f32) (E : Set ℕ) (K : PUnit → sProp 𝕄) :
    iprop(owns (c : Thread nD τ) arg1 fullShare x ∗ owns (c : Thread nD τ) arg2 fullShare l ∗ owns (c : Thread nD τ) arg3 fullShare o
        ∗ owns (c : Thread nD τ) arg4 fullShare a
        ∗ (iprop(owns (c : Thread nD τ) arg1 fullShare x ∗ owns (c : Thread nD τ) arg2 fullShare l ∗ owns (c : Thread nD τ) arg3 fullShare o
            ∗ owns (c : Thread nD τ) arg4 fullShare (k1_pay1 (k1_pay4 x l) (k1_pay5 l) (k1_pay6 (F := F)) a)) -∗ K ⟨⟩))
      ⊢ wp frame (wpE (defs₀ (F := F)) Variants.none c none) E (cc1__focal_sum_kernel i arg1 harg1 arg2 harg2 arg3 harg3 arg4 harg4) K := by
  simp only [cc1__focal_sum_kernel_eq_skeleton]; unfold cc1__focal_sum_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, Hk⟩
  obtain rfl := harg1.eq_unread hf1; obtain rfl := harg2.eq_unread hf2; obtain rfl := harg3.eq_unread hf3
  obtain rfl := harg4.eq_unread hf4
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  iexists _; isplitr
  swap; · iexact H4
  ipureintro
  refine (read_writes_wholeUnit (S := S1x1) _ _ offsZero _ _ _).trans ?_
  dsimp only
  rw [readAt_wholeUnit (S := S8192x8) arg1 harg1 offsZero, readAt_wholeUnit (S := S8192x1) arg2 harg2 offsZero,
    readAt_wholeUnit (S := S1x1) arg4 harg4 offsZero]

set_option maxHeartbeats 1000000 in
/-- THE LAST POINT. As at a middle point, and the accumulator's new contents are copied to the output's buffer,
    whatever it held. -/
theorem runC1 (c : Dev nD) (i : grid1.Coords) (arg1 : Memref sig .tc .vmem S8192x8 .f32) (harg1 : arg1.IsWhole)
    (arg2 : Memref sig .tc .vmem S8192x1 .i32) (harg2 : arg2.IsWhole) (arg3 : Memref sig .tc .vmem S1x1 .f32) (harg3 : arg3.IsWhole)
    (arg4 : Memref sig .tc .vmem S1x1 .f32) (harg4 : arg4.IsWhole) (hc0 : ¬cond1_0 i) (hc1 : cond1_1 i)
    (x : Vec F S8192x8 .f32) (l : Vec F S8192x1 .i32) (a : Vec F S1x1 .f32) (E : Set ℕ) (K : PUnit → sProp 𝕄) :
    iprop(owns (c : Thread nD τ) arg1 fullShare x ∗ owns (c : Thread nD τ) arg2 fullShare l ∗ (∃ d, owns (c : Thread nD τ) arg3 fullShare d)
        ∗ owns (c : Thread nD τ) arg4 fullShare a
        ∗ (iprop(owns (c : Thread nD τ) arg1 fullShare x ∗ owns (c : Thread nD τ) arg2 fullShare l ∗ owns (c : Thread nD τ) arg3 fullShare (k1_pay1 (k1_pay4 x l) (k1_pay5 l) (k1_pay6 (F := F)) a)
            ∗ owns (c : Thread nD τ) arg4 fullShare (k1_pay1 (k1_pay4 x l) (k1_pay5 l) (k1_pay6 (F := F)) a)) -∗ K ⟨⟩))
      ⊢ wp frame (wpE (defs₀ (F := F)) Variants.none c none) E (cc1__focal_sum_kernel i arg1 harg1 arg2 harg2 arg3 harg3 arg4 harg4) K := by
  simp only [cc1__focal_sum_kernel_eq_skeleton]; unfold cc1__focal_sum_kernel_skel
  simp only [k1_part1_eq_skeleton]; unfold k1_part1_skel
  unfold owns
  iintro ⟨⟨%f1, %hf1, H1⟩, ⟨%f2, %hf2, H2⟩, ⟨%d3, %f3, -, H3⟩, ⟨%f4, %hf4, H4⟩, Hk⟩
  obtain rfl := harg1.eq_unread hf1; obtain rfl := harg2.eq_unread hf2; obtain rfl := harg4.eq_unread hf4
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    refine (read_writes_wholeUnit (S := S1x1) _ _ offsZero _ _ _).trans ?_
    unfold runC1.sl.v53 runC1.sl.H4_1
    rw [readCov_wholeUnit (S := S1x1)]
    dsimp only
    rw [readAt_wholeUnit (S := S8192x8) arg1 harg1 offsZero, readAt_wholeUnit (S := S8192x1) arg2 harg2 offsZero,
      readAt_wholeUnit (S := S1x1) arg4 harg4 offsZero]
  iexists _; isplitr
  swap; · iexact H4
  ipureintro
  unfold runC1.sl.H4_1
  refine (read_writes_wholeUnit (S := S1x1) _ _ offsZero _ _ _).trans ?_
  dsimp only
  rw [readAt_wholeUnit (S := S8192x8) arg1 harg1 offsZero, readAt_wholeUnit (S := S8192x1) arg2 harg2 offsZero,
    readAt_wholeUnit (S := S1x1) arg4 harg4 offsZero]

/-- info: 'Cert.KernelIdeal.Hand.runA1' depends on axioms: [propext, Classical.choice, Quot.sound] -/
#guard_msgs in #print axioms runA1
/-- info: 'Cert.KernelIdeal.Hand.runB1' depends on axioms: [propext, Classical.choice, Quot.sound] -/
#guard_msgs in #print axioms runB1
/-- info: 'Cert.KernelIdeal.Hand.runC1' depends on axioms: [propext, Classical.choice, Quot.sound] -/
#guard_msgs in #print axioms runC1

end Cert.KernelIdeal.Hand

end
-- ==== Proof.KI.Region1.lean ====
/-
  The second task's kernel region (pipeline 1): per grid point one block of 8192 rows of logits and labels is
  loaded, each row's weighted focal term computed, the block's terms summed and added into a one-word scratch
  accumulator, which the first point resets and the last point copies to the one-word output.
-/
import proofs.«411030_j52819507806486_2_alg».proof.Proof.Gen.KernelIdeal.Launch
import proofs.«411030_j52819507806486_2_alg».proof.Proof.Gen.KernelIdeal.Skeleton
import proofs.«411030_j52819507806486_2_alg».proof.Proof.Gen.KernelIdeal.Points
import proofs.«411030_j52819507806486_2_alg».proof.Proof.KI.Region1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the region's entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One point's update of the accumulator: the previous sum plus the block's summed terms. -/
def step1 (x : Vec F S8192x8 .f32) (l : Vec F S8192x1 .i32) (a : Vec F S1x1 .f32) : Vec F S1x1 .f32 :=
  k1_pay1 (k1_pay4 x l) (k1_pay5 l) (k1_pay6 (F := F)) a

/-- The accumulator after point `n`: the blocks' sums added in order, from zero. -/
def accAt1 (c : Dev nD) : (n : ℕ) → n < cfg1.N → Vec F S1x1 .f32
  | 0, hn => step1 (iblk1 V c 0 ⟨0, hn⟩) (iblk1 V c 1 ⟨0, hn⟩) (k1_pay2 (F := F))
  | n + 1, hn => step1 (iblk1 V c 0 ⟨n + 1, hn⟩) (iblk1 V c 1 ⟨n + 1, hn⟩) (accAt1 c n (Nat.lt_of_succ_lt hn))

/-- After the first point: the first block's sum added to zero. -/
theorem accAt1_first (c : Dev nD) (t : Fin cfg1.N) (hz : t.val = 0) :
    accAt1 V c t.val t.isLt = step1 (iblk1 V c 0 t) (iblk1 V c 1 t) (k1_pay2 (F := F)) := by
  obtain ⟨n, hn⟩ := t
  cases n with
  | zero => rfl
  | succ n => exact absurd hz (Nat.succ_ne_zero n)

/-- After a later point: the block's sum added to what the point before left. -/
theorem accAt1_later (c : Dev nD) (t : Fin cfg1.N) (hz : t.val ≠ 0) :
    accAt1 V c t.val t.isLt
      = step1 (iblk1 V c 0 t) (iblk1 V c 1 t) (accAt1 V c (t.val - 1) (Nat.lt_of_le_of_lt (Nat.sub_le _ _) t.isLt)) := by
  obtain ⟨n, hn⟩ := t
  cases n with
  | zero => exact absurd rfl hz
  | succ n => rfl

/-! ## The invariant -/

/-- The core's scoped buffers other than this pipeline's staging buffers and its accumulator, at some contents each:
    carried through the region unopened. -/
def rest1 (c : Dev nD) : sProp 𝕄 :=
  Pipeline.scopedRestBut (Ix := Unit) (Name := ℕ) (U := UR sig nD τ) (Lvl := ℕ) (Val := Elt F) spec1 c [cc1_scratch0]

/-- What the launch hands the region, with the accumulator set apart as a memref owned at some contents. -/
theorem PhiA1_eq (c : Dev nD) :
    (Pipeline.ΦA spec1 c : sProp 𝕄)
      = iprop(iprop((∃ d, owns (c : Thread nD τ) scM1 fullShare d) ∗ rest1 (F := F) c) ∗ (∃ r, prngReg c r)) := by
  unfold Pipeline.ΦA rest1
  rw [Pipeline.scopedRest_split_of_list spec1 c [cc1_scratch0] (by decide) (by decide)]
  simp only [bigSepL_singleton, scM1, owns_whole]
  rfl

/-- The invariant before position `n`: before the first point what the launch hands over (the accumulator at
    anything); afterwards the accumulator at the sum of the points so far, beside the other scoped buffers and the
    generator register. -/
def PhiS1 (c : Dev nD) : (n : ℕ) → n ≤ cfg1.N → sProp 𝕄
  | 0, _ => Pipeline.ΦA spec1 c
  | n + 1, hn => iprop(iprop(owns (c : Thread nD τ) scM1 fullShare (accAt1 V c n hn) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn
      = iprop(iprop(owns (c : Thread nD τ) scM1 fullShare (accAt1 V c n hn) ∗ rest1 (F := F) c) ∗ (∃ r, prngReg c r)) := rfl

theorem PhiS1_pos (c : Dev nD) (n : ℕ) (h : n ≤ cfg1.N) (hz : n ≠ 0) :
    PhiS1 V c n h
      = iprop(iprop(owns (c : Thread nD τ) scM1 fullShare (accAt1 V c (n - 1) (by omega)) ∗ rest1 (F := F) c) ∗ (∃ r, prngReg c r)) := by
  cases n with
  | zero => exact absurd rfl hz
  | succ n => rfl

/-! ## The proof data -/

/-- The region's proof data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt1 V c t.val t.isLt := by dsimp only [dat1]

/-- Each input's current staging buffer holds its block at every point, fetched there or not: an input the body
    leaves in place, uncut and never idle. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

/-- The inputs are live at every point: the body leaves their buffers at their blocks. -/
theorem leaves1_0 (c : Dev nD) (t : Fin cfg1.N) :
    (dat1 V c).leavesExact 0 t = owns (c : Thread nD τ) (st1_0 t) fullShare (iblk1 V c 0 t) := by
  rw [← after1_0]
theorem leaves1_1 (c : Dev nD) (t : Fin cfg1.N) :
    (dat1 V c).leavesExact 1 t = owns (c : Thread nD τ) (st1_1 t) fullShare (iblk1 V c 1 t) := by
  rw [← after1_1]

set_option maxHeartbeats 4000000 in
/-- The body at any point, by the point's place in the grid.  The inputs' buffers hold their blocks.  At the first
    point the invariant hands over the accumulator at anything and takes it back at the first block's sum; at a
    later point it hands it over at what the point before left and takes it back with this block's sum added.  Off
    the last point the output's buffer is idle and handed back untouched; at the last point it is live and left at
    the accumulator's final contents.  The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [leaves1_0, leaves1_1]
  have hN : t.val < 512 := lt_of_lt_of_eq t.isLt (show cfg1.N = 512 from N_1)
  by_cases hz : t.val = 0
  · -- the first point
    have hl : ¬t.val = 511 := by omega
    have hc0 : cond1_0 (grid1.coords t) := (hcond1_0 t).mpr hz
    have hc1 : ¬cond1_1 (grid1.coords t) := fun h => hl ((hcond1_1 t).mp h)
    rw [Dat.leavesExact_idle (dat1 V c) 2 t (idleAt1_2 t hc1) (noFlush1_2 t hc1)]
    rw [PhiS1_castSucc V c t, PhiS1_zero V c _ _ hz, PhiA1_eq, accAt1_first V c t hz]
    unfold step1
    iintro ⟨⟨⟨HS, Hr⟩, Hg⟩, Ho, ⟨%d0, H0⟩, ⟨%d1, H1⟩, ⟨%d2, H2⟩⟩
    iapply (runA1 c (grid1.coords t) _ _ _ _ _ _ _ _ hc0 hc1 (iblk1 V c 0 t) (iblk1 V c 1 t) _ Set.univ _)
    isplitl [H0]; · iexact H0
    isplitl [H1]; · iexact H1
    isplitl [H2]; · iexact H2
    isplitl [HS]; · iexact HS
    iintro ⟨H0, H1, H2, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    iexists _; iexact H2
  · have hc0 : ¬cond1_0 (grid1.coords t) := fun h => hz ((hcond1_0 t).mp h)
    rw [PhiS1_castSucc V c t, PhiS1_pos V c _ _ hz, accAt1_later V c t hz]
    unfold step1
    by_cases hl : t.val = 511
    · -- the last point
      have hc1 : cond1_1 (grid1.coords t) := (hcond1_1 t).mpr hl
      rw [show (dat1 V c).leavesExact 2 t = owns (c : Thread nD τ) (st1_2 t) fullShare ((dat1 V c).after 2 t) from by
        unfold Dat.leavesExact; rw [liveAt1_2 t hc1], after1_2, accAt1_later V c t hz]
      unfold step1
      iintro ⟨⟨⟨HS, Hr⟩, Hg⟩, Ho, ⟨%d0, H0⟩, ⟨%d1, H1⟩, ⟨%d2, H2⟩⟩
      iapply (runC1 c (grid1.coords t) _ _ _ _ _ _ _ _ hc0 hc1 (iblk1 V c 0 t) (iblk1 V c 1 t) _ Set.univ _)
      isplitl [H0]; · iexact H0
      isplitl [H1]; · iexact H1
      isplitl [H2]; · iexists _; iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · -- a middle point
      have hc1 : ¬cond1_1 (grid1.coords t) := fun h => hl ((hcond1_1 t).mp h)
      rw [Dat.leavesExact_idle (dat1 V c) 2 t (idleAt1_2 t hc1) (noFlush1_2 t hc1)]
      iintro ⟨⟨⟨HS, Hr⟩, Hg⟩, Ho, ⟨%d0, H0⟩, ⟨%d1, H1⟩, ⟨%d2, H2⟩⟩
      iapply (runB1 c (grid1.coords t) _ _ _ _ _ _ _ _ hc0 hc1 (iblk1 V c 0 t) (iblk1 V c 1 t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the launch's back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 512 := N_1; omega), PhiA1_eq]
  iintro ⟨⟨HS, Hr⟩, Hg⟩
  isplitl [HS Hr]
  · isplitl [HS]
    · iexists _; iexact HS
    iexact Hr
  iexact Hg

/-- What the region leaves in the output's array: the accumulator after the last point. -/
theorem arrAt1_out (c : Dev nD) : (dat1 V c).arrAt 2 cfg1.N = accAt1 V c 511 (by decide) := by
  -- only the last point writes the output's block back, so no two flushing points' blocks can meet
  have hN : cfg1.N = 512 := N_1
  have hdisj : ∀ t t' : Fin cfg1.N, (cfg1.win 2).flush t = true → (cfg1.win 2).flush t' = true → t ≠ t' →
      Disjoint ((cfg1.win 2).blk t).view.set ((cfg1.win 2).blk t').view.set := fun t t' hf hf' hne => by
    exfalso; apply hne; apply Fin.ext
    have h1 := (flush1_2 t).mp hf; have h2 := (flush1_2 t').mp hf'
    have := t.isLt; have := t'.isLt
    omega
  have hf : (cfg1.win 2).flush (⟨511, by decide⟩ : Fin cfg1.N) = true := (flush1_2 _).mpr (by decide)
  funext i
  have e := (dat1 V c).arrAt_emb_eq_flushed 2 hdisj ⟨511, by decide⟩ hf i
  refine ((congrArg ((dat1 V c).arrAt 2 cfg1.N) (idxUnit_eq _ _)).trans e).trans ?_
  simp only [cast_eq]
  -- what the last point writes back is what the body left there, the block being uncut
  have hfl : (dat1 V c).flushed 2 (⟨511, by decide⟩ : Fin cfg1.N)
      = (cfg1.win 2).cut (grid1.coords (⟨511, by decide⟩ : Fin cfg1.N)) (accAt1 V c 511 (by decide)) := by
    show (cfg1.win 2).cut (grid1.coords _) ((dat1 V c).after 2 _) = _
    rw [after1_2]
  rw [hfl]
  rfl

/-- The input arrays are left as found. -/
theorem arrAt1_in0 (c : Dev nD) : (dat1 V c).arrAt 0 cfg1.N = V c (Pipeline.arrRef spec1 0) :=
  ((dat1 V c).arrAt_in 0 rfl _).trans (A_eq1 V c 0)
theorem arrAt1_in1 (c : Dev nD) : (dat1 V c).arrAt 1 cfg1.N = V c (Pipeline.arrRef spec1 1) :=
  ((dat1 V c).arrAt_in 1 rfl _).trans (A_eq1 V c 1)

/-- info: 'Cert.KernelIdeal.Hand.body_obligation1' depends on axioms: [propext, Classical.choice, Quot.sound] -/
#guard_msgs in #print axioms body_obligation1
/-- info: 'Cert.KernelIdeal.Hand.hin1' depends on axioms: [propext, Classical.choice, Quot.sound] -/
#guard_msgs in #print axioms hin1
/-- info: 'Cert.KernelIdeal.Hand.hout1' depends on axioms: [propext, Classical.choice, Quot.sound] -/
#guard_msgs in #print axioms hout1
/-- info: 'Cert.KernelIdeal.Hand.arrAt1_out' depends on axioms: [propext, Classical.choice, Quot.sound] -/
#guard_msgs in #print axioms arrAt1_out
/-- info: 'Cert.KernelIdeal.Hand.arrAt1_in0' depends on axioms: [propext, Classical.choice, Quot.sound] -/
#guard_msgs in #print axioms arrAt1_in0
/-- info: 'Cert.KernelIdeal.Hand.arrAt1_in1' depends on axioms: [propext, Classical.choice, Quot.sound] -/
#guard_msgs in #print axioms arrAt1_in1

end Cert.KernelIdeal.Hand

end
-- ==== Proof.KI.Run.lean ====
/-
  The run of @main: three stretches of host operations around the two kernel regions. The contents of every
  unscoped TensorCore buffer are folded through @main from the launch memory, boundary by boundary: a host stretch
  rewrites the buffers its operations write, a kernel region leaves in its windows' arrays what its write-backs
  fold to and every other buffer as entered. Each region's proof data are taken at the contents the fold gives at
  its entry. The run then ends with every unscoped buffer at the last valuation of the fold, from which the
  argument arrays read back to their launch contents.
-/
import proofs.«411030_j52819507806486_2_alg».proof.Proof.KI.Region0
import proofs.«411030_j52819507806486_2_alg».proof.Proof.KI.Region1
import proofs.«411030_j52819507806486_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core `c`'s buffers at launch. -/
abbrev W0 (m : (ℓ : Loc nD τ sig) → Buf (Elt F) ℓ) (ρ : Dev nD → PrngReg) : Dev nD → Valuation τ sig (Elt F) :=
  fun c b => m ((c : Dev nD), b)
/-- After the first host stretch (region 0's entry). -/
abbrev W1 : Dev nD → Valuation τ sig (Elt F) := fun c => StableHlo.after hostOps0 (W0 m ρ c)
/-- The same read at the TensorCore's references: the entry contents of region 0. -/
abbrev V1 : (c : Dev nD) → (b : Ref sig .tc) → Buf (Elt F) ((c : Thread nD τ).loc b) := fun c b => W1 m ρ c b
/-- At region 0's exit: its windows' arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
/-- The same read at the TensorCore's references: the entry contents of region 1. -/
abbrev V3 : (c : Dev nD) → (b : Ref sig .tc) → Buf (Elt F) ((c : Thread nD τ).loc b) := fun c b => W3 m ρ c b
/-- At region 1's exit: its windows' arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch: the contents @main returns with. -/
abbrev W5 : Dev nD → Valuation τ sig (Elt F) := fun c => StableHlo.after hostOps2 (W4 m ρ c)

/-! ### The arguments end as launched: no host operation writes one, and a region leaves its input arrays as found -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (arrAt0_in0 (V1 m ρ) c)
    _ = W0 m ρ c (Proc.devRef .tc main_arg0) := StableHlo.after_of_writes_sub hostOps0 _ hostOps0_writes (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide)
    _ = W3 m ρ c (Proc.devRef .tc main_arg2) := (W4_arr m ρ c 0).trans (arrAt1_in0 (V3 m ρ) c)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-! ### The regions' entry contents at their input arrays -/

/-- Region 0 finds the first task's logits as launched. -/
theorem V1_main_arg0 (c : Dev nD) : V1 m ρ c main_arg0 = m ((c : Thread nD τ).loc main_arg0) :=
  StableHlo.after_of_writes_sub hostOps0 _ hostOps0_writes (by decide)

/-- Region 0 finds the first task's labels as a column: the launch contents reshaped. -/
theorem V1_main_v0 (c : Dev nD) :
    V1 m ρ c main_v0 = fun i => shapeCast S4194304x1 (m ((c : Thread nD τ).loc main_arg1)) shapeCasts_S4194304_S4194304x1 i := by
  show StableHlo.after hostOps0 (W0 m ρ c) (Proc.devRef .tc main_v0) = _
  dsimp only [hostOps0]
  after_results
  rfl

/-- Region 1 finds the second task's logits as launched. -/
theorem V3_main_arg2 (c : Dev nD) : V3 m ρ c main_arg2 = m ((c : Thread nD τ).loc main_arg2) :=
  calc W3 m ρ c (Proc.devRef .tc main_arg2)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-- Region 1 finds the second task's labels as a column: the launch contents reshaped. -/
theorem V3_main_v4 (c : Dev nD) :
    V3 m ρ c main_v4 = fun i => shapeCast S4194304x1 (m ((c : Thread nD τ).loc main_arg3)) shapeCasts_S4194304_S4194304x1 i := by
  have e : W2 m ρ c (Proc.devRef .tc main_arg3) = m ((c : Thread nD τ).loc main_arg3) :=
    (W2_of_ne m ρ c main_arg3 (by decide)).trans (StableHlo.after_of_writes_sub hostOps0 _ hostOps0_writes (by decide))
  show StableHlo.after hostOps1 (W2 m ρ c) (Proc.devRef .tc main_v4) = _
  dsimp only [hostOps1]
  after_results
  rw [e]
  rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at the stretch's fold of `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W5 m ρ c) ∗ ∃ r, prngReg c r)

/-! ## The regions as segments -/

-- a library lemma stated over a pinned configuration unifies with the printed one only when unification may unfold
-- plain definitions in a metavariable's type
set_option backward.isDefEq.respectTransparency.types false in
/-- Region 0 over the thread state: entered from every unscoped buffer at `W1`, left at `W2`. Its windows'
    arrays are split out of the unscoped buffers and put back at the exit contents; the generator register and the
    scoped buffers no window stages enter the region's invariant (which carries the accumulator's scratch among them)
    and come back out of it; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration unifies with the printed one only when unification may unfold
-- plain definitions in a metavariable's type
set_option backward.isDefEq.respectTransparency.types false in
/-- Region 1 over the thread state: entered from every unscoped buffer at `W3`, left at `W4`. Its windows'
    arrays are split out of the unscoped buffers and put back at the exit contents; the generator register and the
    scoped buffers no window stages enter the region's invariant (which carries the accumulator's scratch among them)
    and come back out of it; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main is the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: from any memory with zero counters every weakly fair execution of @main on the TensorCores terminates,
    and every final memory holds each unscoped TensorCore buffer at the last valuation of the fold. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ (iprop(Tₙ m ρ c ∗ ∃ W, owes (c : Thread nD τ) (0 : CellTallies nD τ sig Unit) W) : sProp 𝕄)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- THE FRAME: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩) (run_all m ρ)

end Cert.KernelIdeal.Hand

end
-- ==== Proof.Spec.lean ====
/-
  What both programs compute, as one function of the four argument arrays.

  Per task (direction, volatility): a sample is a row of eight logits and a label word.  The row's softmax
  probability of class k is exp (x k − max x) / Σ_j exp (x j − max x); the probability of the labelled class is
  written as the sum over the eight classes of that probability times the indicator "k is the label" (for a label
  in 0..7 exactly one term survives).  The sample's term is
      (0 − α) · (1 − p)² · log (p + ε),   α = 3/4 for label 0 and 1/4 otherwise,  ε the f32 nearest 1e-8,
  multiplied by 3/2 when the label is 1.  A task's value is the sum of its 4194304 terms divided by 4194304, and
  the result is the triple (direction + direction-weighted volatility/2, direction, volatility).
-/
import Idealize.ShloMosaic.PureOps.Ideal
import Idealize.ShloMosaic.PureOps.Ideal.Laws
import Idealize.ShloMosaic.Lib.ValueIdx

noncomputable section

namespace Cert.Focal

open Idealize.ShloMosaic Idealize.ShloMosaic.ValueIdx

abbrev SN8 : Shape := ⟨2, ![4194304, 8]⟩
abbrev SN : Shape := ⟨1, ![4194304]⟩
abbrev S0 : Shape := ⟨0, ![]⟩
abbrev S1 : Shape := ⟨1, ![1]⟩
abbrev S3 : Shape := ⟨1, ![3]⟩

/-- A row's maximum: the fold of max over its eight entries from −∞. -/
def rowMax (x : Fin 8 → EReal) : EReal := (Finset.univ : Finset (Fin 8)).fold max ⊥ x

/-- exp of an entry's distance below the row's maximum. -/
def expShift (x : Fin 8 → EReal) (k : Fin 8) : EReal := Ideal.exp (x k - rowMax x)

/-- The softmax probability of class k. -/
def prob (x : Fin 8 → EReal) (k : Fin 8) : EReal := Ideal.div (expShift x k) (∑ j : Fin 8, expShift x j)

/-- The indicator that class k is the label word. -/
def hot (k : Fin 8) (l : BitVec 32) : EReal := if BitVec.ofNat 32 k.val = l then 1 else 0

/-- The probability of the labelled class, as the indicator-weighted sum over the classes. -/
def pTrue (x : Fin 8 → EReal) (l : BitVec 32) : EReal := ∑ k : Fin 8, prob x k * hot k l

/-- The class weight: 3/4 for label 0, 1/4 otherwise (the two f32 words are exact). -/
def alpha (l : BitVec 32) : EReal :=
  if l = 0#32 then Ideal.ofBits .f32 0x3F400000#32 else Ideal.ofBits .f32 0x3E800000#32

/-- A sample's term before the label-1 boost. -/
def baseTerm (x : Fin 8 → EReal) (l : BitVec 32) : EReal :=
  (Ideal.ofBits .f32 0x00000000#32 - alpha l)
    * ((Ideal.ofBits .f32 0x3F800000#32 - pTrue x l) * (Ideal.ofBits .f32 0x3F800000#32 - pTrue x l))
    * Ideal.log (pTrue x l + Ideal.ofBits .f32 0x322BCC77#32)

/-- A sample's term. -/
def rowTerm (x : Fin 8 → EReal) (l : BitVec 32) : EReal :=
  if l = 1#32 then baseTerm x l * Ideal.ofBits .f32 0x3FC00000#32 else baseTerm x l

/-- A task's sum over all samples. -/
def taskSum (X : SN8.Idx → EReal) (L : SN.Idx → BitVec 32) : EReal :=
  ∑ r : Fin 4194304, rowTerm (fun k => X (ix2 r k)) (L (ix1 r))

theorem bcast01 : S0.BroadcastsInDim S1 (![] : Fin 0 → Fin S1.rank) := by decide
theorem cat3 : Shape.Concatenates [S1, S1, S1] S3 0 := by decide

/-- The two programs' common ending: each task's sum divided by the sample count, the weighted total, and the three
    scalars laid side by side. -/
def tail (t0 t1 : FVec Ideal S0 .f32) : FVec Ideal S3 .f32 :=
  let m0 : FVec Ideal S0 .f32 := Host.divf (F := Ideal) t0 (constant (F := Ideal) S0 .f32 0x4A800000#32)
  let m1 : FVec Ideal S0 .f32 := Host.divf (F := Ideal) t1 (constant (F := Ideal) S0 .f32 0x4A800000#32)
  let w0 : FVec Ideal S0 .f32 := mulf (F := Ideal) (constant (F := Ideal) S0 .f32 0x3F800000#32) m0
  let w1 : FVec Ideal S0 .f32 := mulf (F := Ideal) (constant (F := Ideal) S0 .f32 0x3F000000#32) m1
  let tot : FVec Ideal S0 .f32 := addf (F := Ideal) w0 w1
  concatenate S3 0 [⟨S1, broadcastInDim S1 ![] bcast01 tot⟩, ⟨S1, broadcastInDim S1 ![] bcast01 m0⟩,
    ⟨S1, broadcastInDim S1 ![] bcast01 m1⟩] cat3

/-- THE RESULT both programs end with, as a function of the four argument arrays. -/
def result (X0 : SN8.Idx → EReal) (L0 : SN.Idx → BitVec 32) (X1 : SN8.Idx → EReal) (L1 : SN.Idx → BitVec 32) :
    FVec Ideal S3 .f32 :=
  tail (fun _ => taskSum X0 L0) (fun _ => taskSum X1 L1)

end Cert.Focal

end
-- ==== Proof.KI.Tail.lean ====
/-
  The host tail of @main at the exact numbers: what the last stretch of host operations leaves in the result array,
  as the specification's closing function of the two kernel regions' one-word outputs (each divided by the sample
  count, the weighted total, and the three scalars laid side by side); and, given that each region's accumulator
  ends at its task's sum over all samples, the result array as the specification's function of the four arguments.
-/
import proofs.«411030_j52819507806486_2_alg».proof.Proof.KI.Run
import proofs.«411030_j52819507806486_2_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ) (ρ : Dev nD → PrngReg)

/-- A task's mean as the second host stretch leaves it: region 0's one-word output read as a scalar and divided by
    the sample count; no later operation or region writes it. -/
theorem W4_main_v3 (c : Dev nD) :
    W4 (F := Ideal) m ρ c (Proc.devRef .tc main_v3)
      = Host.divf (F := Ideal) (fun i => shapeCast S_ ((dat0 (V1 m ρ) c).arrAt 2 cfg0.N) shapeCasts_S1x1_S_ i)
          (constant (F := Ideal) S_ .f32 0x4A800000#32) := by
  have e1 : W2 m ρ c (Proc.devRef .tc main_v1) = (dat0 (V1 m ρ) c).arrAt 2 cfg0.N := W2_arr m ρ c 2
  rw [W4_of_ne m ρ c main_v3 (by decide)]
  show StableHlo.after hostOps1 (W2 m ρ c) (Proc.devRef .tc main_v3) = _
  generalize W2 m ρ c = Wc at e1 ⊢
  dsimp only [hostOps1]
  after_results
  rw [e1]
  rfl

/-- THE HOST TAIL: the result array after the last host stretch is the specification's closing function of the two
    regions' outputs, each read as a scalar. -/
theorem W5_main_v14 (c : Dev nD) :
    W5 (F := Ideal) m ρ c (Proc.devRef .tc main_v14)
      = Cert.Focal.tail (fun i => shapeCast S_ ((dat0 (V1 m ρ) c).arrAt 2 cfg0.N) shapeCasts_S1x1_S_ i)
          (fun i => shapeCast S_ ((dat1 (V3 m ρ) c).arrAt 2 cfg1.N) shapeCasts_S1x1_S_ i) := by
  have e5 : W4 m ρ c (Proc.devRef .tc main_v5) = (dat1 (V3 m ρ) c).arrAt 2 cfg1.N := W4_arr m ρ c 2
  have e3 := W4_main_v3 m ρ c
  show StableHlo.after hostOps2 (W4 m ρ c) (Proc.devRef .tc main_v14) = _
  generalize W4 m ρ c = Wc at e3 e5 ⊢
  dsimp only [hostOps2]
  simp only [StableHlo.after_cons, StableHlo.after_nil]
  rw [StableHlo.nary_result]
  -- the contents before the concatenate, read at its three operands
  generalize hG : (StableHlo.unary main_v7 main_v13 _ _ _).result _ = G
  show concatenate S3 0 [⟨S1, G (Proc.devRef .tc main_v11)⟩, ⟨S1, G (Proc.devRef .tc main_v12)⟩,
    ⟨S1, G (Proc.devRef .tc main_v13)⟩] concatenates_S1_S1_S1_S3_d0 = _
  have g13 : G (Proc.devRef .tc main_v13) = broadcastInDim S1 ![] bcast_S_S1
      (Host.divf (F := Ideal) (fun i => shapeCast S_ (Wc (Proc.devRef .tc main_v5)) shapeCasts_S1x1_S_ i)
        (constant (F := Ideal) S_ .f32 0x4A800000#32)) := by
    subst hG
    simp (disch := decide) only [
      StableHlo.nullary_result', StableHlo.unary_result', StableHlo.binary_result', StableHlo.reshape_result',
      StableHlo.nullary_result_ne', StableHlo.unary_result_ne', StableHlo.binary_result_ne', StableHlo.reshape_result_ne']
    try rfl
  have g12 : G (Proc.devRef .tc main_v12) = broadcastInDim S1 ![] bcast_S_S1 (Wc (Proc.devRef .tc main_v3)) := by
    subst hG
    simp (disch := decide) only [
      StableHlo.nullary_result', StableHlo.unary_result', StableHlo.binary_result', StableHlo.reshape_result',
      StableHlo.nullary_result_ne', StableHlo.unary_result_ne', StableHlo.binary_result_ne', StableHlo.reshape_result_ne']
    try rfl
  have g11 : G (Proc.devRef .tc main_v11) = broadcastInDim S1 ![] bcast_S_S1
      (addf (F := Ideal) (mulf (F := Ideal) (constant (F := Ideal) S_ .f32 0x3F800000#32) (Wc (Proc.devRef .tc main_v3)))
        (mulf (F := Ideal) (constant (F := Ideal) S_ .f32 0x3F000000#32)
          (Host.divf (F := Ideal) (fun i => shapeCast S_ (Wc (Proc.devRef .tc main_v5)) shapeCasts_S1x1_S_ i)
            (constant (F := Ideal) S_ .f32 0x4A800000#32)))) := by
    subst hG
    simp (disch := decide) only [
      StableHlo.nullary_result', StableHlo.unary_result', StableHlo.binary_result', StableHlo.reshape_result',
      StableHlo.nullary_result_ne', StableHlo.unary_result_ne', StableHlo.binary_result_ne', StableHlo.reshape_result_ne']
    try rfl
  rw [g11, g12, g13, e3, e5]
  unfold Cert.Focal.tail
  rfl

/-- A label column read at row `r` is the label vector's entry `r`: the reshape keeps the row-major position. -/
theorem column_read (L : S4194304.Idx → Elt Ideal .i32) :
    (fun i : S4194304.Idx => shapeCast S4194304x1 L shapeCasts_S4194304_S4194304x1 (ix2 (i 0) (0 : Fin 1))) = L := by
  funext i
  exact shapeCast_apply L _ _ i (by
    rw [Shape.rowMajor_val_one, Shape.rowMajor_val_two]
    show (i 0).val = (i 0).val * 1 + 0
    omega)

/-- THE RESULT: given that each region's accumulator ends at its task's sum over all samples of the entry contents,
    the result array is the specification's function of the four argument arrays. -/
theorem kernel_result (c : Dev nD)
    (h0 : accAt0 (F := Ideal) (V1 m ρ) c 511 (by decide) = fun _ => Cert.Focal.taskSum (V1 m ρ c main_arg0) (fun i => V1 m ρ c main_v0 (ValueIdx.ix2 (i 0) (0 : Fin 1))))
    (h1 : accAt1 (F := Ideal) (V3 m ρ) c 511 (by decide) = fun _ => Cert.Focal.taskSum (V3 m ρ c main_arg2) (fun i => V3 m ρ c main_v4 (ValueIdx.ix2 (i 0) (0 : Fin 1)))) :
    W5 (F := Ideal) m ρ c (Proc.devRef .tc main_v14)
      = Cert.Focal.result (m ((c : Thread nD τ).loc main_arg0)) (m ((c : Thread nD τ).loc main_arg1))
          (m ((c : Thread nD τ).loc main_arg2)) (m ((c : Thread nD τ).loc main_arg3)) := by
  have l0 : (fun i : S4194304.Idx => V1 m ρ c main_v0 (ix2 (i 0) (0 : Fin 1))) = m ((c : Thread nD τ).loc main_arg1) := by
    rw [V1_main_v0]; exact column_read _
  have l1 : (fun i : S4194304.Idx => V3 m ρ c main_v4 (ix2 (i 0) (0 : Fin 1))) = m ((c : Thread nD τ).loc main_arg3) := by
    rw [V3_main_v4]; exact column_read _
  rw [W5_main_v14, arrAt0_out, arrAt1_out, h0, h1]
  rw [l0, l1, V1_main_arg0, V3_main_arg2]
  rfl

end Cert.KernelIdeal.Hand

end
-- ==== Proof.KI.AccLib.lean ====
/-
  Reading the block-shaped vector operations at a row: the column form of a per-row vector, its spread back
  over the eight lanes, a row's maximum and a row's lane sum, and the sum of a column's 8192 entries.
-/
import proofs.«411030_j52819507806486_2_alg».proof.Proof.Gen.KernelIdeal.Skeleton
import proofs.«411030_j52819507806486_2_alg».proof.Proof.Spec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.ValueIdx

/-- A per-row vector written as a column: entry (r, 0) is entry r. -/
theorem acc_col_apply {α : Type} (v : S8192.Idx → α) (h : S8192.ShapeCasts S8192x1) (r : Fin 8192) (k : Fin 1) :
    shapeCast S8192x1 v h (ix2 r k) = v (ix1 r) := by
  refine shapeCast_apply v h (ix2 r k) (ix1 r) ?_
  rw [Shape.rowMajor_val_one, Shape.rowMajor_val_two]
  have hk : k.val = 0 := by omega
  show r.val = r.val * 1 + k.val
  omega

/-- A column spread over the eight lanes: entry (r, k) is the column's entry (r, 0). -/
theorem acc_bcast_apply {α : Type} (v : S8192x1.Idx → α) (h : S8192x1.Broadcasts S8192x8) (r : Fin 8192) (k : Fin 8) :
    broadcastTo S8192x8 v h (ix2 r k) = v (ix2 r 0) := by
  refine broadcastTo_apply v h (ix2 r k) (ix2 r 0) ?_
  intro a
  match a with
  | ⟨0, _⟩ => rfl
  | ⟨1, _⟩ => rfl

/-- The index of row r's lane k, as the reduction over the lanes inserts it. -/
theorem acc_lift_row (h : S8192x8.Reduces [1] S8192) (r : Fin 8192) (k : Fin 8) : h.lift (ix1 r) k = ix2 r k :=
  funext fun c => Fin.ext (match c with | ⟨0, _⟩ => rfl | ⟨1, _⟩ => rfl)

/-- A row's maximum, read at the row. -/
theorem acc_rowmax_apply (x : FVec Ideal S8192x8 .f32) (h : S8192x8.Reduces [1] S8192) (hφ : FTy.f32 = FTy.f32 ∨ FTy.f32 = FTy.bf16)
    (hacc : @Eq (BitVec FTy.f32.bits) 0xFF800000#32 0xFF800000#32) (r : Fin 8192) :
    multiReduction (F := Ideal) .maximumf [1] S8192 x 0xFF800000#32 h hφ hacc (ix1 r)
      = Cert.Focal.rowMax (fun k => x (ix2 r k)) := by
  refine (Ideal.multiReduction_maximumf_single x _ h hφ hacc (ix1 r)).trans ?_
  have e : (FloatOps.ofBits (F := Ideal) .f32 0xFF800000#32 : EReal) = ⊥ := by
    show Ideal.ofBits .f32 0xFF800000#32 = ⊥
    simp [Ideal.ofBits, Ideal.ieee]
  rw [e]
  unfold Cert.Focal.rowMax
  exact congrArg (fun g => (Finset.univ : Finset (Fin 8)).fold max ⊥ g) (funext fun k => congrArg x (acc_lift_row h r k))

/-- A row's lane sum, read at the row. -/
theorem acc_lanesum_apply (x : FVec Ideal S8192x8 .f32) (h : S8192x8.Reduces [1] S8192) (hφ : FTy.f32 = FTy.f32 ∨ FTy.f32 = FTy.bf16)
    (hacc : @Eq (BitVec FTy.f32.bits) 0x00000000#32 0x00000000#32) (r : Fin 8192) :
    multiReduction (F := Ideal) .add [1] S8192 x 0x00000000#32 h hφ hacc (ix1 r) = ∑ k : Fin 8, x (ix2 r k) := by
  refine (Ideal.multiReduction_add_single x _ h hφ hacc (ix1 r)).trans ?_
  exact Finset.sum_congr rfl fun k _ => congrArg x (acc_lift_row h r k)

/-- The sum of a column's entries, read at the one index of the result. -/
theorem acc_colsum_apply (y : FVec Ideal S8192x1 .f32) (h : S8192x1.Reduces [0] S1) (hφ : FTy.f32 = FTy.f32 ∨ FTy.f32 = FTy.bf16)
    (hacc : @Eq (BitVec FTy.f32.bits) 0x00000000#32 0x00000000#32) (j : S1.Idx) :
    multiReduction (F := Ideal) .add [0] S1 y 0x00000000#32 h hφ hacc j = ∑ r : Fin 8192, y (ix2 r 0) := by
  refine (Ideal.multiReduction_add_single y _ h hφ hacc j).trans ?_
  refine Finset.sum_congr rfl fun r _ => congrArg y (funext fun a => Fin.ext ?_)
  match a with
  | ⟨0, _⟩ => rfl
  | ⟨1, _⟩ =>
    have hj : ∀ b : Fin S1.rank, (j b).val < 1 := fun b => by
      have := (j b).isLt
      match b with | ⟨0, _⟩ => exact this
    show (j ⟨1 - 1, _⟩).val = 0
    have := hj ⟨1 - 1, by decide⟩
    omega

/-- A one-entry vector recast as a one-by-one block: its entry. -/
theorem acc_unit_apply {α : Type} (v : S1.Idx → α) (h : S1.ShapeCasts S1x1) (j : S1x1.Idx) :
    shapeCast S1x1 v h j = v (ix1 0) := by
  refine shapeCast_apply v h j (ix1 0) ?_
  rw [Shape.rowMajor_val_one, Shape.rowMajor_val_two]
  have h0 : (j 0).val < 1 := (j 0).isLt
  have h1 : (j 1).val < 1 := (j 1).isLt
  show (0 : ℕ) = (j 0).val * 1 + (j 1).val
  omega

/-! The elementwise operations the row chain uses, read at an index. -/

theorem acc_exp_apply {s : Shape} (v : FVec Ideal s .f32) (i : s.Idx) : exp v i = Ideal.exp (v i) := rfl
theorem acc_log_apply {s : Shape} (v : FVec Ideal s .f32) (i : s.Idx) : log v i = Ideal.log (v i) := rfl
theorem acc_cmpi_apply {s : Shape} {w : Nat} (p : CmpIPredicate) (a b : IVec s w) (i : s.Idx) :
    cmpi p a b i = IntOp.cmpi p (a i) (b i) := rfl

/-- The lane counter at row r, lane k, is k. -/
theorem acc_iota_apply (h : S8192x8.Iotas .tc 32 [1]) (r : Fin 8192) (k : Fin 8) :
    iota .tc S8192x8 32 [1] h (ix2 r k) = BitVec.ofNat 32 k.val := by
  show BitVec.ofNat 32 (0 * 8 + k.val) = _
  rw [Nat.zero_mul, Nat.zero_add]

/-- The one-hot entry as the kernel makes it — the comparison bit widened to a word and converted — is the indicator
    that lane k is the label. -/
theorem acc_hot_eq (k : Fin 8) (w : BitVec 32) :
    FloatOps.sitofp (F := Ideal) .f32 ((IntOp.cmpi .eq (BitVec.ofNat 32 k.val) w).setWidth 32) = Cert.Focal.hot k w := by
  unfold Cert.Focal.hot
  show (((((BitVec.ofBool (BitVec.ofNat 32 k.val == w)).setWidth 32).toInt : ℝ)) : EReal) = _
  by_cases h : BitVec.ofNat 32 k.val = w
  · rw [if_pos h, beq_iff_eq.2 h]; simp
  · rw [if_neg h, beq_eq_false_iff_ne.2 h]; simp

/-- A select on an equality test of two words is the if-then-else on the equation. -/
theorem acc_select_eq {α : Type} (w c : BitVec 32) (a b : α) :
    Scalar.select (IntOp.cmpi .eq w c) a b = if w = c then a else b := by
  show (if BitVec.ofBool (w == c) = 1 then a else b) = _
  by_cases h : w = c
  · rw [if_pos h, beq_iff_eq.2 h]; rfl
  · rw [if_neg h, beq_eq_false_iff_ne.2 h]; rfl

end Cert.KernelIdeal.Hand

end
-- ==== Proof.KI.AccValue.lean ====
/-
  What the first task's kernel region leaves in its accumulator after the last grid point: the task's sum over all
  4194304 samples of the sample's focal term.

  The argument in five steps.  A block read at a row is the array read at row 8192·t + r (the index maps send point t
  to block row t).  The body's chain of vector operations, read at a row, is the sample's term of that row (row
  maximum, shifted exponentials, their sum, the quotient, the indicator-weighted lane sum, the class weight, the
  squared complement, the logarithm, and the boost for label 1).  Summing the block's column of terms and adding the
  loaded accumulator gives the previous value plus the block's 8192 terms.  Folding over the points from zero gives
  the sum of the first 8192·(n+1) terms after point n.  After point 511 that is the sum over all rows.
-/
import proofs.«411030_j52819507806486_2_alg».proof.Proof.KI.Region0
import proofs.«411030_j52819507806486_2_alg».proof.Proof.KI.AccLib
import Mathlib.Algebra.BigOperators.Intervals

set_option maxRecDepth 16384

noncomputable section

namespace Cert.KernelIdeal.Hand

open Cert.KernelIdeal Cert.KernelIdeal.Gen
open Idealize.ShloMosaic Idealize.ShloMosaic.TcCoe Idealize.ShloMosaic.ValueIdx

/-! ## The body's chain at a row -/

/-- The chain up to the product with the logarithm, read at row r: the row's term before the label-1 boost. -/
theorem pay4_row0 (x : Vec Ideal S8192x8 .f32) (l : Vec Ideal S8192x1 .i32) (r : Fin 8192) :
    k0_pay4 (F := Ideal) x l (ix2 r 0) = Cert.Focal.baseTerm (fun k => x (ix2 r k)) (l (ix2 r 0)) := by
  unfold k0_pay4 k0_pay3
  simp only [mulf_apply, subf_apply, addf_apply, divf_apply, broadcast_apply, select_apply, acc_exp_apply, acc_log_apply,
    acc_cmpi_apply, extui_apply, sitofp_apply, acc_col_apply, acc_bcast_apply, shapeCast_self, acc_select_eq]
  rw [acc_lanesum_apply]
  simp only [mulf_apply, subf_apply, divf_apply, acc_exp_apply, acc_cmpi_apply, extui_apply, sitofp_apply, acc_col_apply,
    acc_bcast_apply, shapeCast_self]
  rw [acc_lanesum_apply]
  simp only [subf_apply, acc_exp_apply, acc_col_apply, acc_bcast_apply]
  rw [acc_rowmax_apply]
  have hhot : ∀ k : Fin 8, FloatOps.sitofp (F := Ideal) FTy.f32 (BitVec.setWidth 32 (IntOp.cmpi CmpIPredicate.eq
      (iota Kind.tc S8192x8 32 [1] iota_S8192x8_d1_w32 (ix2 r k)) (l (ix2 r 0)))) = Cert.Focal.hot k (l (ix2 r 0)) :=
    fun k => by rw [acc_iota_apply]; exact acc_hot_eq k _
  simp only [hhot]
  rfl

/-- One point's update read at its one index: the loaded value plus the block's 8192 row terms. -/
theorem step0_apply (x : Vec Ideal S8192x8 .f32) (l : Vec Ideal S8192x1 .i32) (a : Vec Ideal S1x1 .f32) (j : S1x1.Idx) :
    step0 (F := Ideal) x l a j = a j + ∑ r : Fin 8192, Cert.Focal.rowTerm (fun k => x (ix2 r k)) (l (ix2 r 0)) := by
  unfold step0 k0_pay1
  simp only [shapeCast_self, addf_apply, acc_unit_apply]
  rw [acc_colsum_apply]
  refine congrArg (fun s => a j + s) (Finset.sum_congr rfl fun r _ => ?_)
  unfold k0_pay5 k0_pay3 k0_pay6
  simp only [select_apply, mulf_apply, broadcast_apply, acc_cmpi_apply, shapeCast_self, acc_select_eq]
  rw [pay4_row0]
  rfl

/-! ## The blocks, read off the arrays -/

/-- The printed index maps over the grid: point t's blocks are block row t, block column 0, of both input arrays. -/
theorem idx0_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

variable (V : (c : Dev nD) → (b : Ref sig .tc) → Buf (Elt Ideal) ((c : Thread nD τ).loc b))

/-- Point t's logits block at row r, lane k: row 8192·t + r of the array. -/
theorem iblk0_0_apply (c : Dev nD) (t : Fin cfg0.N) (r : Fin 8192) (k : Fin 8) (hr : 8192 * t.val + r.val < 4194304) :
    iblk0 (F := Ideal) V c 0 t (ix2 r k) = V c main_arg0 (ix2 ⟨8192 * t.val + r.val, hr⟩ k) := by
  obtain ⟨e0, e1, -, -⟩ := idx0_facts t
  show V c main_arg0 (((cfg0.win 0).blk t).view.emb (ix2 r k)) = _
  refine congrArg (V c main_arg0) (funext fun a => Fin.ext ?_)
  match a with
  | ⟨0, _⟩ => show win0_0.index t (0 : Fin 2) * 8192 + 1 * r.val = 8192 * t.val + r.val; omega
  | ⟨1, _⟩ => show win0_0.index t (1 : Fin 2) * 8 + 1 * k.val = k.val; omega

/-- Point t's label block at row r: the label of row 8192·t + r. -/
theorem iblk0_1_apply (c : Dev nD) (t : Fin cfg0.N) (r : Fin 8192) (k : Fin 1) (hr : 8192 * t.val + r.val < 4194304) :
    iblk0 (F := Ideal) V c 1 t (ix2 r k) = V c main_v0 (ix2 ⟨8192 * t.val + r.val, hr⟩ (0 : Fin 1)) := by
  obtain ⟨-, -, e0, e1⟩ := idx0_facts t
  show V c main_v0 (((cfg0.win 1).blk t).view.emb (ix2 r k)) = _
  refine congrArg (V c main_v0) (funext fun a => Fin.ext ?_)
  have hk : k.val = 0 := by omega
  match a with
  | ⟨0, _⟩ => show win0_1.index t (0 : Fin 2) * 8192 + 1 * r.val = 8192 * t.val + r.val; omega
  | ⟨1, _⟩ => show win0_1.index t (1 : Fin 2) * 1 + 1 * k.val = 0; omega

/-! ## The fold over the points -/

/-- Row m's term off the two arrays (zero past the last row, so that sums over ranges of naturals can be used). -/
def rowT0 (c : Dev nD) (m : ℕ) : EReal :=
  if h : m < 4194304 then
    Cert.Focal.rowTerm (fun k => V c main_arg0 (ix2 (⟨m, h⟩ : Fin 4194304) k)) (V c main_v0 (ix2 (⟨m, h⟩ : Fin 4194304) (0 : Fin 1)))
  else 0

/-- The 8192 row terms of point t's blocks are the terms of rows 8192·t … 8192·t + 8191. -/
theorem blockSum0 (c : Dev nD) (t : Fin cfg0.N) :
    (∑ r : Fin 8192, Cert.Focal.rowTerm (fun k => iblk0 (F := Ideal) V c 0 t (ix2 r k)) (iblk0 (F := Ideal) V c 1 t (ix2 r 0)))
      = ∑ i ∈ Finset.range 8192, rowT0 V c (8192 * t.val + i) := by
  have ht : t.val < 512 := lt_of_lt_of_eq t.isLt N_0
  rw [Finset.sum_range]
  refine Finset.sum_congr rfl fun r _ => ?_
  have hr : 8192 * t.val + r.val < 4194304 := by have := r.isLt; omega
  rw [rowT0, dif_pos hr]
  exact congrArg₂ Cert.Focal.rowTerm (funext fun k => iblk0_0_apply V c t r k hr) (iblk0_1_apply V c t r 0 hr)

/-- After point n the accumulator holds the sum of the first 8192·(n+1) row terms. -/
theorem accAt0_fold (c : Dev nD) : ∀ (n : ℕ) (hn : n < cfg0.N),
    accAt0 (F := Ideal) V c n hn = fun _ => ∑ i ∈ Finset.range (8192 * (n + 1)), rowT0 V c i
  | 0, hn => by
    funext j
    show step0 (F := Ideal) (iblk0 V c 0 ⟨0, hn⟩) (iblk0 V c 1 ⟨0, hn⟩) (k0_pay2 (F := Ideal)) j = _
    refine (step0_apply (iblk0 V c 0 ⟨0, hn⟩) (iblk0 V c 1 ⟨0, hn⟩) _ j).trans ?_
    have z : k0_pay2 (F := Ideal) j = 0 := by
      unfold k0_pay2
      rw [shapeCast_self]
      exact Ideal.ofBits_zero_f32
    rw [z, zero_add]
    refine (blockSum0 V c ⟨0, hn⟩).trans ?_
    refine Finset.sum_congr rfl fun i _ => ?_
    show rowT0 V c (8192 * 0 + i) = _
    rw [Nat.mul_zero, Nat.zero_add]
  | n + 1, hn => by
    funext j
    show step0 (F := Ideal) (iblk0 V c 0 ⟨n + 1, hn⟩) (iblk0 V c 1 ⟨n + 1, hn⟩) (accAt0 V c n (Nat.lt_of_succ_lt hn)) j = _
    refine (step0_apply (iblk0 V c 0 ⟨n + 1, hn⟩) (iblk0 V c 1 ⟨n + 1, hn⟩) _ j).trans ?_
    rw [accAt0_fold c n (Nat.lt_of_succ_lt hn)]
    refine (congrArg (fun s => (∑ i ∈ Finset.range (8192 * (n + 1)), rowT0 V c i) + s) (blockSum0 V c ⟨n + 1, hn⟩)).trans ?_
    rw [show 8192 * (n + 1 + 1) = 8192 * (n + 1) + 8192 by omega, Finset.sum_range_add]

/-- WHAT THE ACCUMULATOR HOLDS AFTER THE LAST POINT: the task's sum over all samples. -/
theorem accAt0_value (V : (c : Dev nD) → (b : Ref sig .tc) → Buf (Elt Ideal) ((c : Thread nD τ).loc b)) (c : Dev nD) :
    accAt0 (F := Ideal) V c 511 (by decide)
      = fun _ => Cert.Focal.taskSum (V c main_arg0) (fun i => V c main_v0 (ValueIdx.ix2 (i 0) (0 : Fin 1))) := by
  rw [accAt0_fold V c 511 (by decide)]
  funext _
  rw [show 8192 * (511 + 1) = 4194304 by norm_num, Finset.sum_range]
  unfold Cert.Focal.taskSum
  refine Finset.sum_congr rfl fun r _ => ?_
  rw [rowT0, dif_pos r.isLt]

end Cert.KernelIdeal.Hand

end
-- ==== Proof.KI.AccValue1.lean ====
/-
  What the first task's kernel region leaves in its accumulator after the last grid point: the task's sum over all
  4194304 samples of the sample's focal term.

  The argument in five steps.  A block read at a row is the array read at row 8192·t + r (the index maps send point t
  to block row t).  The body's chain of vector operations, read at a row, is the sample's term of that row (row
  maximum, shifted exponentials, their sum, the quotient, the indicator-weighted lane sum, the class weight, the
  squared complement, the logarithm, and the boost for label 1).  Summing the block's column of terms and adding the
  loaded accumulator gives the previous value plus the block's 8192 terms.  Folding over the points from zero gives
  the sum of the first 8192·(n+1) terms after point n.  After point 511 that is the sum over all rows.
-/
import proofs.«411030_j52819507806486_2_alg».proof.Proof.KI.Region1
import proofs.«411030_j52819507806486_2_alg».proof.Proof.KI.AccLib
import Mathlib.Algebra.BigOperators.Intervals

set_option maxRecDepth 16384

noncomputable section

namespace Cert.KernelIdeal.Hand

open Cert.KernelIdeal Cert.KernelIdeal.Gen
open Idealize.ShloMosaic Idealize.ShloMosaic.TcCoe Idealize.ShloMosaic.ValueIdx

/-! ## The body's chain at a row -/

/-- The chain up to the product with the logarithm, read at row r: the row's term before the label-1 boost. -/
theorem pay4_row1 (x : Vec Ideal S8192x8 .f32) (l : Vec Ideal S8192x1 .i32) (r : Fin 8192) :
    k1_pay4 (F := Ideal) x l (ix2 r 0) = Cert.Focal.baseTerm (fun k => x (ix2 r k)) (l (ix2 r 0)) := by
  unfold k1_pay4 k1_pay3
  simp only [mulf_apply, subf_apply, addf_apply, divf_apply, broadcast_apply, select_apply, acc_exp_apply, acc_log_apply,
    acc_cmpi_apply, extui_apply, sitofp_apply, acc_col_apply, acc_bcast_apply, shapeCast_self, acc_select_eq]
  rw [acc_lanesum_apply]
  simp only [mulf_apply, subf_apply, divf_apply, acc_exp_apply, acc_cmpi_apply, extui_apply, sitofp_apply, acc_col_apply,
    acc_bcast_apply, shapeCast_self]
  rw [acc_lanesum_apply]
  simp only [subf_apply, acc_exp_apply, acc_col_apply, acc_bcast_apply]
  rw [acc_rowmax_apply]
  have hhot : ∀ k : Fin 8, FloatOps.sitofp (F := Ideal) FTy.f32 (BitVec.setWidth 32 (IntOp.cmpi CmpIPredicate.eq
      (iota Kind.tc S8192x8 32 [1] iota_S8192x8_d1_w32 (ix2 r k)) (l (ix2 r 0)))) = Cert.Focal.hot k (l (ix2 r 0)) :=
    fun k => by rw [acc_iota_apply]; exact acc_hot_eq k _
  simp only [hhot]
  rfl

/-- One point's update read at its one index: the loaded value plus the block's 8192 row terms. -/
theorem step1_apply (x : Vec Ideal S8192x8 .f32) (l : Vec Ideal S8192x1 .i32) (a : Vec Ideal S1x1 .f32) (j : S1x1.Idx) :
    step1 (F := Ideal) x l a j = a j + ∑ r : Fin 8192, Cert.Focal.rowTerm (fun k => x (ix2 r k)) (l (ix2 r 0)) := by
  unfold step1 k1_pay1
  simp only [shapeCast_self, addf_apply, acc_unit_apply]
  rw [acc_colsum_apply]
  refine congrArg (fun s => a j + s) (Finset.sum_congr rfl fun r _ => ?_)
  unfold k1_pay5 k1_pay3 k1_pay6
  simp only [select_apply, mulf_apply, broadcast_apply, acc_cmpi_apply, shapeCast_self, acc_select_eq]
  rw [pay4_row1]
  rfl

/-! ## The blocks, read off the arrays -/

/-- The printed index maps over the grid: point t's blocks are block row t, block column 0, of both input arrays. -/
theorem idx1_facts : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

variable (V : (c : Dev nD) → (b : Ref sig .tc) → Buf (Elt Ideal) ((c : Thread nD τ).loc b))

/-- Point t's logits block at row r, lane k: row 8192·t + r of the array. -/
theorem iblk1_0_apply (c : Dev nD) (t : Fin cfg1.N) (r : Fin 8192) (k : Fin 8) (hr : 8192 * t.val + r.val < 4194304) :
    iblk1 (F := Ideal) V c 0 t (ix2 r k) = V c main_arg2 (ix2 ⟨8192 * t.val + r.val, hr⟩ k) := by
  obtain ⟨e0, e1, -, -⟩ := idx1_facts t
  show V c main_arg2 (((cfg1.win 0).blk t).view.emb (ix2 r k)) = _
  refine congrArg (V c main_arg2) (funext fun a => Fin.ext ?_)
  match a with
  | ⟨0, _⟩ => show win1_0.index t (0 : Fin 2) * 8192 + 1 * r.val = 8192 * t.val + r.val; omega
  | ⟨1, _⟩ => show win1_0.index t (1 : Fin 2) * 8 + 1 * k.val = k.val; omega

/-- Point t's label block at row r: the label of row 8192·t + r. -/
theorem iblk1_1_apply (c : Dev nD) (t : Fin cfg1.N) (r : Fin 8192) (k : Fin 1) (hr : 8192 * t.val + r.val < 4194304) :
    iblk1 (F := Ideal) V c 1 t (ix2 r k) = V c main_v4 (ix2 ⟨8192 * t.val + r.val, hr⟩ (0 : Fin 1)) := by
  obtain ⟨-, -, e0, e1⟩ := idx1_facts t
  show V c main_v4 (((cfg1.win 1).blk t).view.emb (ix2 r k)) = _
  refine congrArg (V c main_v4) (funext fun a => Fin.ext ?_)
  have hk : k.val = 0 := by omega
  match a with
  | ⟨0, _⟩ => show win1_1.index t (0 : Fin 2) * 8192 + 1 * r.val = 8192 * t.val + r.val; omega
  | ⟨1, _⟩ => show win1_1.index t (1 : Fin 2) * 1 + 1 * k.val = 0; omega

/-! ## The fold over the points -/

/-- Row m's term off the two arrays (zero past the last row, so that sums over ranges of naturals can be used). -/
def rowT1 (c : Dev nD) (m : ℕ) : EReal :=
  if h : m < 4194304 then
    Cert.Focal.rowTerm (fun k => V c main_arg2 (ix2 (⟨m, h⟩ : Fin 4194304) k)) (V c main_v4 (ix2 (⟨m, h⟩ : Fin 4194304) (0 : Fin 1)))
  else 0

/-- The 8192 row terms of point t's blocks are the terms of rows 8192·t … 8192·t + 8191. -/
theorem blockSum1 (c : Dev nD) (t : Fin cfg1.N) :
    (∑ r : Fin 8192, Cert.Focal.rowTerm (fun k => iblk1 (F := Ideal) V c 0 t (ix2 r k)) (iblk1 (F := Ideal) V c 1 t (ix2 r 0)))
      = ∑ i ∈ Finset.range 8192, rowT1 V c (8192 * t.val + i) := by
  have ht : t.val < 512 := lt_of_lt_of_eq t.isLt N_1
  rw [Finset.sum_range]
  refine Finset.sum_congr rfl fun r _ => ?_
  have hr : 8192 * t.val + r.val < 4194304 := by have := r.isLt; omega
  rw [rowT1, dif_pos hr]
  exact congrArg₂ Cert.Focal.rowTerm (funext fun k => iblk1_0_apply V c t r k hr) (iblk1_1_apply V c t r 0 hr)

/-- After point n the accumulator holds the sum of the first 8192·(n+1) row terms. -/
theorem accAt1_fold (c : Dev nD) : ∀ (n : ℕ) (hn : n < cfg1.N),
    accAt1 (F := Ideal) V c n hn = fun _ => ∑ i ∈ Finset.range (8192 * (n + 1)), rowT1 V c i
  | 0, hn => by
    funext j
    show step1 (F := Ideal) (iblk1 V c 0 ⟨0, hn⟩) (iblk1 V c 1 ⟨0, hn⟩) (k1_pay2 (F := Ideal)) j = _
    refine (step1_apply (iblk1 V c 0 ⟨0, hn⟩) (iblk1 V c 1 ⟨0, hn⟩) _ j).trans ?_
    have z : k1_pay2 (F := Ideal) j = 0 := by
      unfold k1_pay2
      rw [shapeCast_self]
      exact Ideal.ofBits_zero_f32
    rw [z, zero_add]
    refine (blockSum1 V c ⟨0, hn⟩).trans ?_
    refine Finset.sum_congr rfl fun i _ => ?_
    show rowT1 V c (8192 * 0 + i) = _
    rw [Nat.mul_zero, Nat.zero_add]
  | n + 1, hn => by
    funext j
    show step1 (F := Ideal) (iblk1 V c 0 ⟨n + 1, hn⟩) (iblk1 V c 1 ⟨n + 1, hn⟩) (accAt1 V c n (Nat.lt_of_succ_lt hn)) j = _
    refine (step1_apply (iblk1 V c 0 ⟨n + 1, hn⟩) (iblk1 V c 1 ⟨n + 1, hn⟩) _ j).trans ?_
    rw [accAt1_fold c n (Nat.lt_of_succ_lt hn)]
    refine (congrArg (fun s => (∑ i ∈ Finset.range (8192 * (n + 1)), rowT1 V c i) + s) (blockSum1 V c ⟨n + 1, hn⟩)).trans ?_
    rw [show 8192 * (n + 1 + 1) = 8192 * (n + 1) + 8192 by omega, Finset.sum_range_add]

/-- WHAT THE ACCUMULATOR HOLDS AFTER THE LAST POINT: the task's sum over all samples. -/
theorem accAt1_value (V : (c : Dev nD) → (b : Ref sig .tc) → Buf (Elt Ideal) ((c : Thread nD τ).loc b)) (c : Dev nD) :
    accAt1 (F := Ideal) V c 511 (by decide)
      = fun _ => Cert.Focal.taskSum (V c main_arg2) (fun i => V c main_v4 (ValueIdx.ix2 (i 0) (0 : Fin 1))) := by
  rw [accAt1_fold V c 511 (by decide)]
  funext _
  rw [show 8192 * (511 + 1) = 4194304 by norm_num, Finset.sum_range]
  unfold Cert.Focal.taskSum
  refine Finset.sum_congr rfl fun r _ => ?_
  rw [rowT1, dif_pos r.isLt]

end Cert.KernelIdeal.Hand

end
-- ==== Proof.LibNary3.lean ====
/-
  A host operation over a literal family of THREE operand references (a three-piece concatenate): its result holds
  the operation's function of the three operands' contents, each read AT ITS OWN REFERENCE, so that a rewriting
  pass over a list of host operations can go on to rewrite each operand's contents in turn.
-/
import Idealize.ShloMosaic.Lib.StableHlo.Run

noncomputable section

namespace Idealize.ShloMosaic.StableHlo

variable {τ : Topo} {sig : RefSig} {Val : EltTy → Type}

/-- The result of an operation over the three references `x`, `a`, `b`, read at its result reference: the operation's
    function of the family that holds the valuation at `x`, at `a` and at `b`. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference kept out of the simplifier's index, for use as a simp lemma. -/
theorem nary3_result' {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo

end
-- ==== Proof.LibTakeAlong.lean ====
/-
  The gather that `take_along_axis` along the last axis of an [N, C] table lowers to, read at an index.

  Operand [N, C], start indices [N, 1, 1] (one class word per row), result [N, 1]; the row axis is a batching axis of
  operand and indices, the class axis is collapsed and is the one axis the start index names.  Result element (n, 0)
  is the operand at row n and at the class word of row n, read signed and clamped into [0, C - 1].
-/
import Idealize.ShloMosaic.PureOps.Ideal
import Idealize.ShloMosaic.Lib.ValueIdx

noncomputable section

namespace Idealize.ShloMosaic.TakeAlong

open Idealize.ShloMosaic Idealize.ShloMosaic.ValueIdx

/-- The dimension numbers: no offset axes, the class axis collapsed, the row axis batching on both sides, the start index
    (a vector of length one along the indices' last axis) naming the class axis, slices of one element. -/
abbrev dims (N C : Nat)
    (wf : GatherDims.WF ⟨2, ![N, C]⟩ ⟨3, ![N, 1, 1]⟩ ⟨2, ![N, 1]⟩ [] [1] [0] [1] [0] 2 ![1, 1]) :
    GatherDims ⟨2, ![N, C]⟩ ⟨3, ![N, 1, 1]⟩ ⟨2, ![N, 1]⟩ where
  offsetDims := []
  collapsedSliceDims := [1]
  operandBatchingDims := [0]
  startIndicesBatchingDims := [0]
  startIndexMap := [1]
  indexVectorDim := 2
  sliceSizes := ![1, 1]
  wf := wf

/-- The start-indices index [n, 0, 0] that result index (n, 0) reads its class word at. -/
abbrev siOf {N : Nat} (j : (⟨2, ![N, 1]⟩ : Shape).Idx) : (⟨3, ![N, 1, 1]⟩ : Shape).Idx :=
  fun a => match a with
    | ⟨0, _⟩ => ⟨(j 0).val, idx2_lt0 j⟩
    | ⟨1, _⟩ => ⟨(j 1).val, idx2_lt1 j⟩
    | ⟨2, _⟩ => ⟨0, Nat.one_pos⟩

/-- THE GATHER READ AT (n, 0): the operand at row n and the class word of row n, read signed and clamped. -/
theorem gather_apply {α : Type} {N C w : Nat} (hC : 0 < C)
    (wf : GatherDims.WF ⟨2, ![N, C]⟩ ⟨3, ![N, 1, 1]⟩ ⟨2, ![N, 1]⟩ [] [1] [0] [1] [0] 2 ![1, 1])
    (x : (⟨2, ![N, C]⟩ : Shape).Idx → α) (idx : IVec ⟨3, ![N, 1, 1]⟩ w) (j : (⟨2, ![N, 1]⟩ : Shape).Idx) :
    Host.gather (dims N C wf) x idx j
      = x (ix2 (j 0) (⟨min (idx (siOf j)).toInt.toNat (C - 1), by omega⟩ : Fin C)) := by
  unfold Host.gather
  congr 1
  funext a
  refine Fin.ext ?_
  match a with
  | ⟨0, _⟩ =>
    -- the row axis: not named by the start index, a batching axis (the result's row), no offset
    show (dims N C wf).start j idx 0 + (dims N C wf).batchCoord j 0 + (dims N C wf).offCoord j 0 = (j 0).val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (dims N C wf).operandBatchingDims from List.mem_singleton.mpr rfl)]
    rfl
  | ⟨1, _⟩ =>
    -- the class axis: the start index's one component, clamped; neither batching nor offset
    show (dims N C wf).start j idx 1 + (dims N C wf).batchCoord j 1 + (dims N C wf).offCoord j 1 = _
    rw [GatherDims.batchCoord_eq_zero _ _ _ (show (1 : Fin 2) ∉ ([0] : List (Fin 2)) by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (dims N C wf).startIndexMap from List.mem_singleton.mpr rfl)]
    have hsi : (dims N C wf).siIdx j ⟨List.idxOf (1 : Fin 2) (dims N C wf).startIndexMap,
        List.idxOf_lt_length_iff.2 (List.mem_singleton.mpr rfl)⟩ = siOf j := by
      funext b; refine Fin.ext ?_
      match b with
      | ⟨0, _⟩ => rfl
      | ⟨1, _⟩ => rfl
      | ⟨2, _⟩ => rfl
    rw [hsi]
    rfl

end Idealize.ShloMosaic.TakeAlong

end
-- ==== Proof.RefValue.lean ====
/-
  The reference program computes the specification.

  Per task the reference takes, for every sample, the softmax of its row of eight logits through the row's maximum
  (a reduce-maximum from −∞, and a maximum with −∞ that changes nothing), reads the labelled class's probability by a
  gather along the class axis (for a label word in 0..7 the negative-label wrap is off, the in-range mask is set and
  the gather reads the row's entry at the label), forms
      −α · (1 − p) ^ 2 · log (p + ε),   α = 3/4 for label 0 and 1/4 otherwise,
  multiplies by 3/2 when the label is 1, and sums over all samples from 0.  For a row of reals every exponential is a
  positive real, so p is a real and the power two is the square; −α is 0 − α; and the indicator-weighted sum over the
  classes that the specification writes for p keeps exactly the labelled class's term.  The two tasks' sums then go
  through the same ending as the specification's (divide by the sample count, weigh, add, lay the three scalars side
  by side), which matches term for term.
-/
import proofs.«411030_j52819507806486_2_alg».proof.Proof.RefRead
import proofs.«411030_j52819507806486_2_alg».proof.Proof.Spec
import proofs.«411030_j52819507806486_2_alg».proof.Proof.LibTakeAlong
import Idealize.ShloMosaic.PureOps.Ideal.Laws
import Idealize.ShloMosaic.Lib.IdealHost
import Idealize.ShloMosaic.Lib.StableHlo.Predicate
import Mathlib.Analysis.SpecialFunctions.Pow.Real

noncomputable section

namespace Cert.ReferenceIdeal.RefValue

open Idealize.ShloMosaic Idealize.ShloMosaic.ValueIdx Idealize.ShloMosaic.StableHlo.Predicate Cert.Focal

/-! ## The extended reals that are reals -/

/-- A finite sum of reals, taken in the extended reals, is the real sum. -/
theorem coe_sum {ι : Type} (S : Finset ι) (e : ι → ℝ) :
    (∑ j ∈ S, ((e j : ℝ) : EReal)) = ((∑ j ∈ S, e j : ℝ) : EReal) := by
  classical
  induction S using Finset.induction_on with
  | empty => simp
  | insert a S ha ih => rw [Finset.sum_insert ha, Finset.sum_insert ha, ih, EReal.coe_add]

/-- The maximum of a row of reals is one of them, so a real. -/
theorem rowMax_real (x : Fin 8 → EReal) (hx : ∀ k, ∃ r : ℝ, x k = r) : ∃ b : ℝ, rowMax x = b := by
  have h : rowMax x = Finset.univ.sup x := rfl
  obtain ⟨k, -, hk⟩ := Finset.exists_mem_eq_sup Finset.univ Finset.univ_nonempty x
  obtain ⟨r, hr⟩ := hx k
  exact ⟨r, by rw [h, hk, hr]⟩

/-- Each shifted exponential of a row of reals is a positive real. -/
theorem expShift_real (x : Fin 8 → EReal) (hx : ∀ k, ∃ r : ℝ, x k = r) (k : Fin 8) :
    ∃ e : ℝ, 0 < e ∧ expShift x k = e := by
  obtain ⟨b, hb⟩ := rowMax_real x hx
  obtain ⟨a, ha⟩ := hx k
  refine ⟨Real.exp (a - b), Real.exp_pos _, ?_⟩
  unfold expShift
  rw [ha, hb, ← EReal.coe_sub]
  rfl

/-- Each softmax probability of a row of reals is a real. -/
theorem prob_real (x : Fin 8 → EReal) (hx : ∀ k, ∃ r : ℝ, x k = r) (k : Fin 8) : ∃ p : ℝ, prob x k = p := by
  choose e hepos he using expShift_real x hx
  have hs : (∑ j : Fin 8, expShift x j) = ((∑ j, e j : ℝ) : EReal) := by
    rw [← coe_sum]; exact Finset.sum_congr rfl (fun j _ => he j)
  have hspos : 0 < ∑ j, e j := Finset.sum_pos (fun j _ => hepos j) Finset.univ_nonempty
  refine ⟨e k * (∑ j, e j)⁻¹, ?_⟩
  unfold prob
  rw [hs, he k]
  unfold Ideal.div
  rw [if_neg (by exact_mod_cast hspos.ne'), ← EReal.coe_inv, ← EReal.coe_mul]

/-! ## The labelled class -/

/-- For a label word in 0..7 the indicator-weighted sum over the classes is the labelled class's probability. -/
theorem pTrue_eq_prob (x : Fin 8 → EReal) (l : BitVec 32) (h : l.toNat < 8) :
    pTrue x l = prob x ⟨l.toNat, h⟩ := by
  unfold pTrue
  rw [Finset.sum_eq_single (⟨l.toNat, h⟩ : Fin 8)]
  · unfold hot
    rw [if_pos (by simp), mul_one]
  · intro k _ hk
    unfold hot
    rw [if_neg, mul_zero]
    intro e
    apply hk
    apply Fin.ext
    have h2 := congrArg BitVec.toNat e
    simp only [BitVec.toNat_ofNat] at h2
    have := k.isLt
    show k.val = l.toNat
    omega
  · intro h'; exact absurd (Finset.mem_univ _) h'

/-! ## Words and constants -/

/-- A select on "the two words are equal" is the `if`. -/
theorem select_cmpi_eq {α : Type} (a b : BitVec 32) (u v : α) :
    Scalar.select (IntOp.cmpi .eq a b) u v = if a = b then u else v := by
  by_cases h : a = b
  · rw [if_pos h, cmpi_eq_iff.mpr h, select_one]
  · rw [if_neg h, eq_zero_of_ne_one (fun e => h (cmpi_eq_iff.mp e)), select_zero]

/-- The f32 pattern `0x40000000` is the real two. -/
theorem ofBits_two_f32 : Ideal.ofBits .f32 0x40000000#32 = ((2 : ℝ) : EReal) := by
  simp [Ideal.ofBits, Ideal.ieee, -EReal.coe_mul]; norm_num

/-- A real to the power two is its square. -/
theorem pow_two_real (a : ℝ) : Ideal.pow (a : EReal) ((2 : ℝ) : EReal) = (a : EReal) * (a : EReal) := by
  show ((Real.rpow a 2 : ℝ) : EReal) = _
  rw [← EReal.coe_mul]
  congr 1
  show a ^ (2 : ℝ) = a * a
  rw [Real.rpow_two, sq]

/-- THE SAMPLE'S TERM as the reference computes it from the labelled class's probability: the class weight negated,
    times (1 − p) to the power two, times log (p + ε), and the label-1 boost by a select. -/
theorem refTerm_eq (x : Fin 8 → EReal) (l : BitVec 32) (hx : ∀ k, ∃ r : ℝ, x k = r) (hl : l.toNat < 8) :
    Scalar.select (IntOp.cmpi .eq l 1#32)
      ((-(Scalar.select (IntOp.cmpi .eq l 0#32) (Ideal.ofBits .f32 0x3F400000#32) (Ideal.ofBits .f32 0x3E800000#32))
          * Ideal.pow (Ideal.ofBits .f32 0x3F800000#32 - prob x ⟨l.toNat, hl⟩) (Ideal.ofBits .f32 0x40000000#32)
          * Ideal.log (prob x ⟨l.toNat, hl⟩ + Ideal.ofBits .f32 0x322BCC77#32))
        * Ideal.ofBits .f32 0x3FC00000#32)
      (-(Scalar.select (IntOp.cmpi .eq l 0#32) (Ideal.ofBits .f32 0x3F400000#32) (Ideal.ofBits .f32 0x3E800000#32))
          * Ideal.pow (Ideal.ofBits .f32 0x3F800000#32 - prob x ⟨l.toNat, hl⟩) (Ideal.ofBits .f32 0x40000000#32)
          * Ideal.log (prob x ⟨l.toNat, hl⟩ + Ideal.ofBits .f32 0x322BCC77#32))
      = rowTerm x l := by
  obtain ⟨p, hp⟩ := prob_real x hx ⟨l.toNat, hl⟩
  have hb : -(Scalar.select (IntOp.cmpi .eq l 0#32) (Ideal.ofBits .f32 0x3F400000#32) (Ideal.ofBits .f32 0x3E800000#32))
          * Ideal.pow (Ideal.ofBits .f32 0x3F800000#32 - prob x ⟨l.toNat, hl⟩) (Ideal.ofBits .f32 0x40000000#32)
          * Ideal.log (prob x ⟨l.toNat, hl⟩ + Ideal.ofBits .f32 0x322BCC77#32) = baseTerm x l := by
    unfold baseTerm alpha
    rw [pTrue_eq_prob x l hl, select_cmpi_eq, Ideal.ofBits_zero_f32, zero_sub, ofBits_two_f32, hp, Ideal.ofBits_one_f32,
      show (1 : EReal) - (p : EReal) = ((1 - p : ℝ) : EReal) by norm_cast, pow_two_real]
  rw [hb, select_cmpi_eq]
  rfl

/-! ## The reference's stages, read at a sample -/

section Stages

open Cert.ReferenceIdeal Cert.ReferenceIdeal.Gen Cert.ReferenceIdeal.RefRead Idealize.ShloMosaic.TakeAlong

/-- The f32 pattern of −∞ is the bottom of the extended reals. -/
theorem ofBits_neg_inf_f32 : Ideal.ofBits .f32 0xFF800000#32 = ⊥ := by simp [Ideal.ofBits, Ideal.ieee]

/-- The row of sample `r` of a logits array. -/
abbrev row (x : (⟨S4194304x8, .f32⟩ : BufTy).Contents (Elt Ideal)) (r : Fin 4194304) : Fin 8 → EReal := fun k => x (ix2 r k)

variable (x0 : (⟨S4194304x8, .f32⟩ : BufTy).Contents (Elt Ideal)) (x1 : (⟨S4194304, .i32⟩ : BufTy).Contents (Elt Ideal))

/-- The reduce-maximum over the class axis from −∞ is the row's maximum. -/
theorem v0_apply (r : Fin 4194304) : val_main_v0 (F := Ideal) x0 (ix1 r) = rowMax (row x0 r) := by
  unfold val_main_v0
  refine (Host.reduce_eq_fold_single (FloatOps.maximumf (F := Ideal) (φ := .f32)) x0 (val_main_cst (F := Ideal))
    reducesTo_S4194304x8_S4194304_d1 (by decide) h_S_ (ix1 r)).trans ?_
  have hb : val_main_cst (F := Ideal) (Shape.Idx.first h_S_) = ⊥ := ofBits_neg_inf_f32
  rw [hb]
  unfold rowMax
  refine Finset.fold_congr ?_
  intro k _
  exact congrArg x0 (funext fun a => Fin.ext (by match a with | ⟨0, _⟩ => rfl | ⟨1, _⟩ => rfl))

/-- The maximum broadcast back over the classes (after a maximum with −∞, which changes nothing). -/
theorem v4_apply (r : Fin 4194304) (k : Fin 8) : val_main_v4 (F := Ideal) x0 (ix2 r k) = rowMax (row x0 r) := by
  have e : idx_main_v3 (idx_main_v4 (ix2 r k)) = ix1 r := funext fun a => by match a with | ⟨0, _⟩ => rfl
  rw [val_main_v4_apply, val_main_v3_apply, val_main_v2_apply, val_main_v1_apply, val_main_cst_0_apply, e, v0_apply]
  show max (Ideal.ofBits .f32 0xFF800000#32) _ = _
  rw [ofBits_neg_inf_f32, max_bot_left]

/-- The exponential of an entry's distance below its row's maximum. -/
theorem v6_apply (r : Fin 4194304) (k : Fin 8) : val_main_v6 (F := Ideal) x0 (ix2 r k) = expShift (row x0 r) k := by
  rw [val_main_v6_apply, val_main_v5_apply, v4_apply]
  rfl

/-- The reduce-add over the class axis from 0 is the row's sum of exponentials. -/
theorem v7_apply (r : Fin 4194304) : val_main_v7 (F := Ideal) x0 (ix1 r) = ∑ k : Fin 8, expShift (row x0 r) k := by
  rw [val_main_v7_apply, val_main_cst_1_apply]
  show Ideal.ofBits .f32 0x00000000#32 + _ = _
  rw [Ideal.ofBits_zero_f32, zero_add]
  refine Finset.sum_congr rfl fun k _ => ?_
  have e : idx_main_v7 (ix1 r) k = ix2 r k := funext fun a => by match a with | ⟨0, _⟩ => rfl | ⟨1, _⟩ => rfl
  rw [e, v6_apply]

/-- The softmax probability. -/
theorem v10_apply (r : Fin 4194304) (k : Fin 8) : val_main_v10 (F := Ideal) x0 (ix2 r k) = prob (row x0 r) k := by
  have e : idx_main_v8 (idx_main_v9 (ix2 r k)) = ix1 r := funext fun a => by match a with | ⟨0, _⟩ => rfl
  rw [val_main_v10_apply, val_main_v9_apply, val_main_v8_apply, e, v7_apply, v6_apply]
  rfl

/-- A label word in 0..7 is not negative, so the wrap-around select leaves it. -/
theorem lbl_apply (r : Fin 4194304) (hl : (x1 (ix1 r)).toNat < 8) :
    val_main_call0_v5 (F := Ideal) x1 (ix3 r (0 : Fin 1) (0 : Fin 1)) = x1 (ix1 r) := by
  have e : idx_main_v11 (idx_main_call0_v5 (ix3 r (0 : Fin 1) (0 : Fin 1))) = ix1 r := funext fun a => Fin.ext (by
    match a with
    | ⟨0, _⟩ =>
      show ((r.val * 1 + 0) * 1 + 0) / 1 = r.val
      omega)
  rw [val_main_call0_v5_apply, val_main_call0_v4_apply, val_main_call0_v1_apply, val_main_v11_apply, val_main_call0_v0_apply,
    val_main_call0_c_apply, e]
  have hc : IntOp.cmpi .slt (x1 (ix1 r)) 0#32 = 0#1 := eq_zero_of_ne_one (fun h => by
    have := (slt_iff_toNat (a := x1 (ix1 r)) (b := 0#32) (by omega) (by decide)).mp h
    simp at this)
  rw [hc, select_zero]

/-- A fold over the one-element index set is one application of the operation. -/
theorem fold_fin_one {α : Type} (op : α → α → α) [Std.Commutative op] [Std.Associative op] (b : α) (g : Fin 1 → α) :
    (Finset.univ : Finset (Fin 1)).fold op b g = op (g 0) b := by
  rw [Finset.univ_unique, Finset.fold_singleton]; rfl

/-- For a label word in 0..7 the in-range mask is set. -/
theorem mask_apply (r : Fin 4194304) (hl : (x1 (ix1 r)).toNat < 8) :
    val_main_call0_v12 (F := Ideal) x1 (ix2 r (0 : Fin 1)) = 1#1 := by
  unfold val_main_call0_v12
  have hR : S4194304x1x1.Reduces [2] S4194304x1 := by decide
  refine (Host.reduce_eq_fold_single IntOp.andi (val_main_call0_v11 (F := Ideal) x1) (val_main_call0_c_3 (F := Ideal))
    reducesTo_S4194304x1x1_S4194304x1_d2 hR h_S_ (ix2 r (0 : Fin 1))).trans ?_
  refine (fold_fin_one IntOp.andi _ _).trans ?_
  have e : hR.lift (ix2 r (0 : Fin 1)) (0 : Fin 1) = ix3 r (0 : Fin 1) (0 : Fin 1) :=
    funext fun a => Fin.ext (by match a with | ⟨0, _⟩ => rfl | ⟨1, _⟩ => rfl | ⟨2, _⟩ => rfl)
  show IntOp.andi (val_main_call0_v11 (F := Ideal) x1 (hR.lift (ix2 r (0 : Fin 1)) (0 : Fin 1)))
    (val_main_call0_c_3 (F := Ideal) (Shape.Idx.first h_S_)) = 1#1
  rw [e, val_main_call0_v11_apply, val_main_call0_v7_apply,
    val_main_call0_v10_apply, val_main_call0_v6_apply, val_main_call0_c_2_apply, val_main_call0_v9_apply,
    val_main_call0_v8_apply, val_main_call0_c_1_apply, val_main_call0_c_3_apply, lbl_apply x1 r hl]
  rw [(sge_iff_toNat (a := x1 (ix1 r)) (b := 0#32) (by omega) (by decide)).mpr (by simp),
    (sle_iff_toNat (a := x1 (ix1 r)) (b := 7#32) (by omega) (by decide)).mpr (by
      show (x1 (ix1 r)).toNat ≤ 7
      omega)]
  rfl

/-- For a label word in 0..7 the gather reads the row's probability at the label. -/
theorem gathered_apply (r : Fin 4194304) (hl : (x1 (ix1 r)).toNat < 8) :
    val_main_call0_v13 (F := Ideal) x0 x1 (ix2 r (0 : Fin 1)) = prob (row x0 r) ⟨(x1 (ix1 r)).toNat, hl⟩ := by
  unfold val_main_call0_v13
  have hG : gather_S4194304x8_S4194304x1x1_S4194304x1_n_1_0_0_1_2_11
      = dims 4194304 8 gather_S4194304x8_S4194304x1x1_S4194304x1_n_1_0_0_1_2_11_wf := rfl
  rw [hG]
  refine (gather_apply (by decide) _ _ _ (ix2 r (0 : Fin 1))).trans ?_
  have es : siOf (ix2 r (0 : Fin 1)) = ix3 r (0 : Fin 1) (0 : Fin 1) :=
    funext fun a => by match a with | ⟨0, _⟩ => rfl | ⟨1, _⟩ => rfl | ⟨2, _⟩ => rfl
  have hw : val_main_call0_v5 (F := Ideal) x1 (siOf (ix2 r (0 : Fin 1))) = x1 (ix1 r) := by
    rw [es]; exact lbl_apply x1 r hl
  have hk : (⟨min (val_main_call0_v5 (F := Ideal) x1 (siOf (ix2 r (0 : Fin 1)))).toInt.toNat (8 - 1), by omega⟩ : Fin 8)
      = ⟨(x1 (ix1 r)).toNat, hl⟩ := Fin.ext (by
    show min (val_main_call0_v5 (F := Ideal) x1 (siOf (ix2 r (0 : Fin 1)))).toInt.toNat (8 - 1) = (x1 (ix1 r)).toNat
    rw [hw, toInt_eq_toNat_of_lt (by omega), Int.toNat_natCast]
    omega)
  refine (congrArg (fun k => val_main_v10 (F := Ideal) x0 (ix2 r k)) hk).trans ?_
  exact v10_apply x0 r _

/-- The labelled class's probability, as the reference reads it (mask set, NaN branch not taken, reshape). -/
theorem v13_apply (r : Fin 4194304) (hl : (x1 (ix1 r)).toNat < 8) :
    val_main_v13 (F := Ideal) x0 x1 (ix1 r) = prob (row x0 r) ⟨(x1 (ix1 r)).toNat, hl⟩ := by
  have e : idx_main_v13 (ix1 r) = ix2 r (0 : Fin 1) := funext fun a => Fin.ext (by
    match a with
    | ⟨0, _⟩ => exact Nat.div_one _
    | ⟨1, _⟩ => rfl)
  rw [val_main_v13_apply, e, val_main_v12_apply, mask_apply x1 r hl, select_one, gathered_apply x0 x1 r hl]

/-- The class weight, negated (the convert to the same format is the identity). -/
theorem v22_apply (r : Fin 4194304) :
    val_main_v22 (F := Ideal) x1 (ix1 r)
      = -(Scalar.select (IntOp.cmpi .eq (x1 (ix1 r)) 0#32) (Ideal.ofBits .f32 0x3F400000#32) (Ideal.ofBits .f32 0x3E800000#32)) := by
  rw [val_main_v22_apply, val_main_v21_apply, val_main_v16_apply, val_main_v15_apply, val_main_v14_apply, val_main_c_apply,
    val_main_call1_v0_apply, val_main_cst_2_apply, val_main_call1_v1_apply, val_main_cst_3_apply]
  rfl

/-- One minus the labelled class's probability, to the power two. -/
theorem v20_apply (r : Fin 4194304) (hl : (x1 (ix1 r)).toNat < 8) :
    val_main_v20 (F := Ideal) x0 x1 (ix1 r)
      = Ideal.pow (Ideal.ofBits .f32 0x3F800000#32 - prob (row x0 r) ⟨(x1 (ix1 r)).toNat, hl⟩) (Ideal.ofBits .f32 0x40000000#32) := by
  rw [val_main_v20_apply, val_main_v18_apply, val_main_v17_apply, val_main_cst_4_apply, val_main_v19_apply, val_main_cst_5_apply,
    v13_apply x0 x1 r hl]
  rfl

/-- The logarithm of the labelled class's probability plus ε. -/
theorem v26_apply (r : Fin 4194304) (hl : (x1 (ix1 r)).toNat < 8) :
    val_main_v26 (F := Ideal) x0 x1 (ix1 r)
      = Ideal.log (prob (row x0 r) ⟨(x1 (ix1 r)).toNat, hl⟩ + Ideal.ofBits .f32 0x322BCC77#32) := by
  rw [val_main_v26_apply, val_main_v25_apply, val_main_v24_apply, val_main_cst_6_apply, v13_apply x0 x1 r hl]
  rfl

/-- The sample's term before the label-1 boost. -/
theorem v27_apply (r : Fin 4194304) (hl : (x1 (ix1 r)).toNat < 8) :
    val_main_v27 (F := Ideal) x0 x1 (ix1 r)
      = -(Scalar.select (IntOp.cmpi .eq (x1 (ix1 r)) 0#32) (Ideal.ofBits .f32 0x3F400000#32) (Ideal.ofBits .f32 0x3E800000#32))
          * Ideal.pow (Ideal.ofBits .f32 0x3F800000#32 - prob (row x0 r) ⟨(x1 (ix1 r)).toNat, hl⟩) (Ideal.ofBits .f32 0x40000000#32)
          * Ideal.log (prob (row x0 r) ⟨(x1 (ix1 r)).toNat, hl⟩ + Ideal.ofBits .f32 0x322BCC77#32) := by
  rw [val_main_v27_apply, val_main_v23_apply, v22_apply, v20_apply x0 x1 r hl, v26_apply x0 x1 r hl]
  rfl

/-- THE SAMPLE'S TERM: what the reference sums is the specification's term of the sample's row and label. -/
theorem v32_apply (r : Fin 4194304) (hx : ∀ k, ∃ a : ℝ, x0 (ix2 r k) = a) (hl : (x1 (ix1 r)).toNat < 8) :
    val_main_v32 (F := Ideal) x0 x1 (ix1 r) = rowTerm (row x0 r) (x1 (ix1 r)) := by
  rw [val_main_v32_apply, val_main_v29_apply, val_main_v28_apply, val_main_c_7_apply, val_main_v31_apply, val_main_v30_apply,
    val_main_cst_8_apply, v27_apply x0 x1 r hl]
  exact refTerm_eq (row x0 r) (x1 (ix1 r)) hx hl

/-- A TASK'S SUM: the reduce-add over all samples from 0 is the specification's sum of the samples' terms. -/
theorem v33_eq (hX : ∀ i, ∃ a : ℝ, x0 i = a) (hL : ∀ i, (x1 i).toNat < 8) (i : S_.Idx) :
    val_main_v33 (F := Ideal) x0 x1 i = taskSum x0 x1 := by
  rw [val_main_v33_apply, val_main_cst_9_apply]
  show Ideal.ofBits .f32 0x00000000#32 + _ = _
  rw [Ideal.ofBits_zero_f32, zero_add]
  unfold taskSum
  refine Fintype.sum_equiv ⟨fun j => j 0, fun r => ix1 r, fun j => (eq_ix1 j).symm, fun r => rfl⟩ _ _ (fun j => ?_)
  obtain ⟨r, rfl⟩ : ∃ r, j = ix1 r := ⟨j 0, eq_ix1 j⟩
  exact v32_apply x0 x1 r (fun k => hX _) (hL _)

/-- The second task's stages are the first task's at the second pair of arguments: the same operations printed again. -/
theorem v68_eq_v33 (x2 : (⟨S4194304x8, .f32⟩ : BufTy).Contents (Elt Ideal)) (x3 : (⟨S4194304, .i32⟩ : BufTy).Contents (Elt Ideal)) :
    val_main_v68 (F := Ideal) x2 x3 = val_main_v33 (F := Ideal) x2 x3 := rfl

/-- THE LAST STAGE IS THE SPECIFICATION: each task's sum is the specification's, and the ending (divide by the sample
    count, weigh, add, lay the three scalars side by side) is the specification's ending term for term. -/
theorem v76_eq_result (x2 : (⟨S4194304x8, .f32⟩ : BufTy).Contents (Elt Ideal)) (x3 : (⟨S4194304, .i32⟩ : BufTy).Contents (Elt Ideal))
    (hX0 : ∀ i, ∃ a : ℝ, x0 i = a) (hL0 : ∀ i, (x1 i).toNat < 8)
    (hX1 : ∀ i, ∃ a : ℝ, x2 i = a) (hL1 : ∀ i, (x3 i).toNat < 8) :
    val_main_v76 (F := Ideal) x0 x1 x2 x3 = Cert.Focal.result x0 x1 x2 x3 := by
  have h33 : val_main_v33 (F := Ideal) x0 x1 = fun _ => taskSum x0 x1 := funext fun i => v33_eq x0 x1 hX0 hL0 i
  have h68 : val_main_v68 (F := Ideal) x2 x3 = fun _ => taskSum x2 x3 :=
    (v68_eq_v33 x2 x3).trans (funext fun i => v33_eq x2 x3 hX1 hL1 i)
  unfold val_main_v76 val_main_v73 val_main_v74 val_main_v75 val_main_v72 val_main_v70 val_main_v71 val_main_v34 val_main_v69
  rw [h33, h68]
  rfl

end Stages

/-! ## The reference's result is the specification's -/

section Result

open Cert.ReferenceIdeal Cert.ReferenceIdeal.Gen Idealize.ShloMosaic.TcCoe Idealize.SL.Sem

/-- THE REFERENCE IS THE SPECIFICATION: on every device, for arguments whose logits are reals and whose labels are words
    in 0..7, the run's composed term of the four arguments is the specification's result of them. -/
theorem ref_result (m : (ℓ : Loc nD τ sig) → Buf (Elt Ideal) ℓ) (c : Dev nD)
    (hX0 : ∀ i, ∃ r : ℝ, m ((c.tc : Thread nD τ).loc main_arg0) i = (r : EReal))
    (hL0 : ∀ i, (m ((c.tc : Thread nD τ).loc main_arg1) i).toNat < 8)
    (hX1 : ∀ i, ∃ r : ℝ, m ((c.tc : Thread nD τ).loc main_arg2) i = (r : EReal))
    (hL1 : ∀ i, (m ((c.tc : Thread nD τ).loc main_arg3) i).toNat < 8) :
    Cert.ReferenceIdeal.RefRun.res_out0 (F := Ideal) m c
      = Cert.Focal.result (m ((c.tc : Thread nD τ).loc main_arg0)) (m ((c.tc : Thread nD τ).loc main_arg1))
          (m ((c.tc : Thread nD τ).loc main_arg2)) (m ((c.tc : Thread nD τ).loc main_arg3)) :=
  (Cert.ReferenceIdeal.RefRead.val_main_v76_eq (F := Ideal) m c).trans
    (v76_eq_result _ _ _ _ hX0 hL0 hX1 hL1)

end Result

end Cert.ReferenceIdeal.RefValue

end
-- ==== Proof.PreDecode.lean ====
/-
  The printed precondition, read back into the four facts it was written to state.

  The printed function is a conjunction of four bits.  Two of them are "every entry of the logits array has absolute
  value below +∞" (an and-reduction over both axes of the comparison |x| < +∞); the other two are "every label word w
  satisfies 0 ≤ w and w < 8, read signed" (an and-reduction over the one axis).  When the whole conjunction is the bit 1,
  each conjunct is 1, an and-reduction that is 1 saw a 1 at every position, and so at every position the compared
  values satisfy the comparison:

  * |x| < +∞ over the extended reals, with |x| = max x (−x), excludes x = +∞ and x = −∞, so x is a real number;
  * a 32-bit word whose signed reading lies in [0, 8) has its unsigned reading in [0, 8) as well.
-/
import proofs.«411030_j52819507806486_2_alg».proof.Pre_finite_inputs
import Idealize.ShloMosaic.Lib.ReduceAll
import Idealize.ShloMosaic.PureOps.Ideal
import Idealize.ShloMosaic.PureOps.Ideal.Laws

noncomputable section

namespace Cert.Focal

open Idealize.ShloMosaic

/-- A rank-0 shape has exactly one index. -/
instance subsingleton_scalar_idx : Subsingleton Cert.Pre_finite_inputs.S_.Idx :=
  ⟨fun a b => funext fun d => d.elim0⟩

/-- The f32 pattern with all-ones exponent and zero fraction denotes +∞. -/
theorem posInf_eq_top : Ideal.ofBits .f32 0x7F800000#32 = (⊤ : EReal) := by
  simp [Ideal.ofBits, Ideal.ieee]

/-- An extended real whose absolute value max x (−x) is strictly below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The element fact of the two finiteness conjuncts: the ordered comparison |x| < +∞ coming out 1 makes x real. -/
theorem real_of_cmp (x : Ideal .f32)
    (h : FloatOps.cmpf .olt (FloatOps.hostAbsf x) (FloatOps.ofBits (F := Ideal) .f32 0x7F800000#32) = 1#1) :
    ∃ r : ℝ, x = (r : EReal) := by
  have h' : Ideal.cmp .olt (max (x : EReal) (-(x : EReal))) (Ideal.ofBits .f32 0x7F800000#32) = 1#1 := h
  rw [posInf_eq_top] at h'
  unfold Ideal.cmp at h'
  by_cases hlt : max (x : EReal) (-(x : EReal)) < ⊤
  · exact real_of_abs_lt_top x hlt
  · simp [hlt] at h'

/-- The element fact of the two label conjuncts: a word at least 0 and below 8 read signed is below 8 read unsigned. -/
theorem toNat_lt_eight (w : BitVec 32) (h0 : IntOp.cmpi .sge w 0#32 = 1#1) (h8 : IntOp.cmpi .slt w 8#32 = 1#1) :
    w.toNat < 8 := by
  rw [IntOp.cmpi_sge] at h0
  rw [IntOp.cmpi_slt] at h8
  have z : (0#32 : BitVec 32).toInt = 0 := by decide
  have e : (8#32 : BitVec 32).toInt = 8 := by decide
  rw [z] at h0
  rw [e] at h8
  have c := BitVec.toInt_eq_toNat_cond w
  split at c <;> omega

theorem pre_decode [Cert.Pre_finite_inputs.Facts]
    (X0 : FVec Ideal Cert.Pre_finite_inputs.S4194304x8 .f32) (L0 : IVec Cert.Pre_finite_inputs.S4194304 32)
    (X1 : FVec Ideal Cert.Pre_finite_inputs.S4194304x8 .f32) (L1 : IVec Cert.Pre_finite_inputs.S4194304 32)
    (h : Cert.Pre_finite_inputs.fn (F := Ideal) X0 L0 X1 L1 = fun _ => 1#1) :
    (∀ i, ∃ r : ℝ, X0 i = (r : EReal)) ∧ (∀ i, (L0 i).toNat < 8) ∧ (∀ i, ∃ r : ℝ, X1 i = (r : EReal))
      ∧ (∀ i, (L1 i).toNat < 8) := by
  have e := congrFun h (fun d => d.elim0)
  dsimp only [Cert.Pre_finite_inputs.fn, Cert.Pre_finite_inputs.fn_part1] at e
  -- the four conjuncts, each an and-reduction that came out 1
  obtain ⟨e012, eL1⟩ := IntOp.andi_eq_one.1 e
  obtain ⟨e01, eL0⟩ := IntOp.andi_eq_one.1 e012
  obtain ⟨eX0, eX1⟩ := IntOp.andi_eq_one.1 e01
  refine ⟨fun i => ?_, fun i => ?_, fun i => ?_, fun i => ?_⟩
  · exact real_of_cmp (X0 i) (Host.reduce_andi_all _ _ _ _ _ eX0 i)
  · obtain ⟨h0, h8⟩ := IntOp.andi_eq_one.1 (Host.reduce_andi_all _ _ _ _ _ eL0 i)
    exact toNat_lt_eight (L0 i) h0 h8
  · exact real_of_cmp (X1 i) (Host.reduce_andi_all _ _ _ _ _ eX1 i)
  · obtain ⟨h0, h8⟩ := IntOp.andi_eq_one.1 (Host.reduce_andi_all _ _ _ _ _ eL1 i)
    exact toNat_lt_eight (L1 i) h0 h8

end Cert.Focal

end
-- ==== Proof.lean ====
/-
  The certificate's five claims.

  Both programs compute, per task, the mean over 4194304 samples of a weighted focal term of the softmax probability
  of the labelled class, and return (direction + volatility/2, direction, volatility).  The kernel walks each task's
  samples in 512 blocks of 8192 rows, adding each block's summed terms into a one-word accumulator that the last grid
  point copies out; the reference sums all samples at once.  Over the extended reals a sum does not depend on its
  grouping, so the accumulator ends at the task's whole sum.  Per sample the kernel reads the labelled class's
  probability as the indicator-weighted sum over the eight classes and squares (1 − p) by a product; the reference
  gathers the row's entry at the label and raises (1 − p) to the power 2: with finite logits p is a real number, so
  the power is the product, and with a label in 0..7 the gather reads the entry the indicator keeps.
-/
import proofs.«411030_j52819507806486_2_alg».proof.Defs
import proofs.«411030_j52819507806486_2_alg».proof.Proof.Gen.Kernel
import proofs.«411030_j52819507806486_2_alg».proof.Proof.Gen.KernelIdeal
import proofs.«411030_j52819507806486_2_alg».proof.Proof.Gen.ReferenceIdeal
import proofs.«411030_j52819507806486_2_alg».proof.Proof.Gen.Pre_finite_inputs
import proofs.«411030_j52819507806486_2_alg».proof.Proof.K.Run
import proofs.«411030_j52819507806486_2_alg».proof.Proof.KI.Tail
import proofs.«411030_j52819507806486_2_alg».proof.Proof.KI.AccValue
import proofs.«411030_j52819507806486_2_alg».proof.Proof.KI.AccValue1
import proofs.«411030_j52819507806486_2_alg».proof.Proof.RefValue
import proofs.«411030_j52819507806486_2_alg».proof.Proof.PreDecode
import Idealize.ShloMosaic.Adequacy
import Idealize.ShloMosaic.Init

noncomputable section

namespace Cert.Proof

open Idealize.ShloMosaic Idealize.ShloMosaic.TcCoe Idealize.SL.Sem

/-- The word-level kernel runs to the end and leaves its arguments as they were. -/
theorem frame_k : Cert.frame_Kernel := fun m ρ _ => Cert.Kernel.Hand.frame (F := Bits) m ρ

/-- So does the kernel read over the extended reals. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Both runs end with the one function `Cert.Focal.result` of arguments that agree. -/
theorem algebraic : Cert.algebraic_KernelIdeal_ReferenceIdeal := by
  intro m ρ m' ρ' hpre hagree
  refine ⟨fun c => Cert.Focal.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨?_, ?_, ?_, ?_, ?_⟩) (Cert.KernelIdeal.Hand.run_all (F := Ideal) m ρ)
    · exact (h c _ (Cert.KernelIdeal.Hand.mem_uc Cert.KernelIdeal.main_v14 (by decide))).trans
        (Cert.KernelIdeal.Hand.kernel_result m ρ c (Cert.KernelIdeal.Hand.accAt0_value _ c) (Cert.KernelIdeal.Hand.accAt1_value _ c))
    · exact (h c _ (Cert.KernelIdeal.Hand.mem_uc Cert.KernelIdeal.main_arg0 (by decide))).trans (Cert.KernelIdeal.Hand.W5_main_arg0 m ρ c)
    · exact (h c _ (Cert.KernelIdeal.Hand.mem_uc Cert.KernelIdeal.main_arg1 (by decide))).trans (Cert.KernelIdeal.Hand.W5_main_arg1 m ρ c)
    · exact (h c _ (Cert.KernelIdeal.Hand.mem_uc Cert.KernelIdeal.main_arg2 (by decide))).trans (Cert.KernelIdeal.Hand.W5_main_arg2 m ρ c)
    · exact (h c _ (Cert.KernelIdeal.Hand.mem_uc Cert.KernelIdeal.main_arg3 (by decide))).trans (Cert.KernelIdeal.Hand.W5_main_arg3 m ρ c)
  · refine (θ_run Cert.ReferenceIdeal.defs _ _).mono (fun _ h c => ⟨(h c).1.trans ?_, (h c).2⟩)
      (Cert.ReferenceIdeal.RefRun.run (F := Ideal) m' ρ')
    obtain ⟨hX0, hL0, hX1, hL1⟩ := Cert.Focal.pre_decode _ _ _ _ (hpre c)
    have e := hagree c
    refine (Cert.ReferenceIdeal.RefValue.ref_result m' c (by rw [e.1]; exact hX0) (by rw [e.2.1]; exact hL0)
      (by rw [e.2.2.1]; exact hX1) (by rw [e.2.2.2]; exact hL1)).trans ?_
    rw [e.1, e.2.1, e.2.2.1, e.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
